-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v298)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v298) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v292) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2048x2048 : Shape := ⟨2, ![2048, 2048]⟩
abbrev S2048 : Shape := ⟨1, ![2048]⟩
abbrev S11x1024 : Shape := ⟨2, ![11, 1024]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S11x1024 : S_.BroadcastsInDim S11x1024 (![] : Fin 0 → Fin S11x1024.rank)
  reducesTo_S11x1024_S_d0_1 : S11x1024.ReducesTo [0, 1] S_

variable [Facts]

def fn_part1 {F : FTy → Type} [FloatOps F] (main_arg4 : FVec F S11x1024 .f32) (main_arg5 : FVec F S11x1024 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S11x1024 .f32 := Host.absf main_arg4
  let main_cst_6 : FVec F S_ .f32 := constant S_ .f32 0x7F800000#32
  let main_v20 : FVec F S11x1024 .f32 := broadcastInDim S11x1024 ![] bcast_S_S11x1024 main_cst_6
  let main_v21 : IVec S11x1024 1 := cmpf .olt main_v19 main_v20
  let main_c_7 : IVec S_ 1 := constantI S_ 1 1#1
  let main_v22 : IVec S_ 1 := (fun x v => Host.reduce IntOp.andi x v reducesTo_S11x1024_S_d0_1 h_S_) main_v21 main_c_7
  let main_v23 : IVec S_ 1 := andi main_v18 main_v22
  let main_v24 : FVec F S11x1024 .f32 := Host.absf main_arg5
  let main_cst_8 : FVec F S_ .f32 := constant S_ .f32 0x7F800000#32
  let main_v25 : FVec F S11x1024 .f32 := broadcastInDim S11x1024 ![] bcast_S_S11x1024 main_cst_8
  let main_v26 : IVec S11x1024 1 := cmpf .olt main_v24 main_v25
  let main_c_9 : IVec S_ 1 := constantI S_ 1 1#1
  let main_v27 : IVec S_ 1 := (fun x v => Host.reduce IntOp.andi x v reducesTo_S11x1024_S_d0_1 h_S_) main_v26 main_c_9
  let main_v28 : IVec S_ 1 := andi main_v23 main_v27
  main_v28

def fn {F : FTy → Type} [FloatOps F] (main_arg0 : FVec F S16384x2048 .f32) (main_arg1 : FVec F S2048x2048 .f32) (main_arg2 : FVec F S2048x2048 .f32) (main_arg3 : FVec F S2048 .f32) (main_arg4 : FVec F S11x1024 .f32) (main_arg5 : FVec F S11x1024 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_v13 main_v16
-- ==== Kernel.lean ====
abbrev S16384x2048 : Shape := ⟨2, ![16384, 2048]⟩
abbrev S2048x2048 : Shape := ⟨2, ![2048, 2048]⟩
abbrev S2048 : Shape := ⟨1, ![2048]⟩
abbrev S11x1024 : Shape := ⟨2, ![11, 1024]⟩
abbrev S_ : Shape := ⟨0, ![]⟩
abbrev S1x1024 : Shape := ⟨2, ![1, 1024]⟩
abbrev S1024 : Shape := ⟨1, ![1024]⟩
abbrev S1x1024x1 : Shape := ⟨3, ![1, 1024, 1]⟩
abbrev S2048x1024x2x1 : Shape := ⟨4, ![2048, 1024, 2, 1]⟩
abbrev S2048x1024x1x1 : Shape := ⟨4, ![2048, 1024, 1, 1]⟩
abbrev S2048x1024x1 : Shape := ⟨3, ![2048, 1024, 1]⟩
abbrev S1x512 : Shape := ⟨2, ![1, 512]⟩
abbrev S512 : Shape := ⟨1, ![512]⟩
abbrev S1x512x1 : Shape := ⟨3, ![1, 512, 1]⟩
abbrev S2048x512x2x2 : Shape := ⟨4, ![2048, 512, 2, 2]⟩
abbrev S2048x512x1x2 : Shape := ⟨4, ![2048, 512, 1, 2]⟩
abbrev S2048x512x2 : Shape := ⟨3, ![2048, 512, 2]⟩
abbrev S1x256 : Shape := ⟨2, ![1, 256]⟩
abbrev S256 : Shape := ⟨1, ![256]⟩
abbrev S1x256x1 : Shape := ⟨3, ![1, 256, 1]⟩
abbrev S2048x256x2x4 : Shape := ⟨4, ![2048, 256, 2, 4]⟩
abbrev S2048x256x1x4 : Shape := ⟨4, ![2048, 256, 1, 4]⟩
abbrev S2048x256x4 : Shape := ⟨3, ![2048, 256, 4]⟩
abbrev S1x128 : Shape := ⟨2, ![1, 128]⟩
abbrev S128 : Shape := ⟨1, ![128]⟩
abbrev S1x128x1 : Shape := ⟨3, ![1, 128, 1]⟩
abbrev S2048x128x2x8 : Shape := ⟨4, ![2048, 128, 2, 8]⟩
abbrev S2048x128x1x8 : Shape := ⟨4, ![2048, 128, 1, 8]⟩
abbrev S2048x128x8 : Shape := ⟨3, ![2048, 128, 8]⟩
abbrev S1x64 : Shape := ⟨2, ![1, 64]⟩
abbrev S64 : Shape := ⟨1, ![64]⟩
abbrev S1x64x1 : Shape := ⟨3, ![1, 64, 1]⟩
abbrev S2048x64x2x16 : Shape := ⟨4, ![2048, 64, 2, 16]⟩
abbrev S2048x64x1x16 : Shape := ⟨4, ![2048, 64, 1, 16]⟩
abbrev S2048x64x16 : Shape := ⟨3, ![2048, 64, 16]⟩
abbrev S1x32 : Shape := ⟨2, ![1, 32]⟩
abbrev S32 : Shape := ⟨1, ![32]⟩
abbrev S1x32x1 : Shape := ⟨3, ![1, 32, 1]⟩
abbrev S2048x32x2x32 : Shape := ⟨4, ![2048, 32, 2, 32]⟩
abbrev S2048x32x1x32 : Shape := ⟨4, ![2048, 32, 1, 32]⟩
abbrev S2048x32x32 : Shape := ⟨3, ![2048, 32, 32]⟩
abbrev S1x16 : Shape := ⟨2, ![1, 16]⟩
abbrev S16 : Shape := ⟨1, ![16]⟩
abbrev S1x16x1 : Shape := ⟨3, ![1, 16, 1]⟩
abbrev S2048x16x2x64 : Shape := ⟨4, ![2048, 16, 2, 64]⟩
abbrev S2048x16x1x64 : Shape := ⟨4, ![2048, 16, 1, 64]⟩
abbrev S2048x16x64 : Shape := ⟨3, ![2048, 16, 64]⟩
abbrev S1x8 : Shape := ⟨2, ![1, 8]⟩
abbrev S8 : Shape := ⟨1, ![8]⟩
abbrev S1x8x1 : Shape := ⟨3, ![1, 8, 1]⟩
abbrev S2048x8x2x128 : Shape := ⟨4, ![2048, 8, 2, 128]⟩
abbrev S2048x8x1x128 : Shape := ⟨4, ![2048, 8, 1, 128]⟩
abbrev S2048x8x128 : Shape := ⟨3, ![2048, 8, 128]⟩
abbrev S1x4 : Shape := ⟨2, ![1, 4]⟩
abbrev S4 : Shape := ⟨1, ![4]⟩
abbrev S1x4x1 : Shape := ⟨3, ![1, 4, 1]⟩
abbrev S2048x4x2x256 : Shape := ⟨4, ![2048, 4, 2, 256]⟩
abbrev S2048x4x1x256 : Shape := ⟨4, ![2048, 4, 1, 256]⟩
abbrev S2048x4x256 : Shape := ⟨3, ![2048, 4, 256]⟩
abbrev S1x2 : Shape := ⟨2, ![1, 2]⟩
abbrev S2 : Shape := ⟨1, ![2]⟩
abbrev S1x2x1 : Shape := ⟨3, ![1, 2, 1]⟩
abbrev S2048x2x2x512 : Shape := ⟨4, ![2048, 2, 2, 512]⟩
abbrev S2048x2x1x512 : Shape := ⟨4, ![2048, 2, 1, 512]⟩
abbrev S2048x2x512 : Shape := ⟨3, ![2048, 2, 512]⟩
abbrev S1x1 : Shape := ⟨2, ![1, 1]⟩
abbrev S1 : Shape := ⟨1, ![1]⟩
abbrev S1x1x1 : Shape := ⟨3, ![1, 1, 1]⟩
abbrev S2048x1x2x1024 : Shape := ⟨4, ![2048, 1, 2, 1024]⟩
abbrev S2048x1x1x1024 : Shape := ⟨4, ![2048, 1, 1, 1024]⟩
abbrev S2048x1x1024 : Shape := ⟨3, ![2048, 1, 1024]⟩
abbrev S1x2048 : Shape := ⟨2, ![1, 2048]⟩
abbrev S256x2048 : Shape := ⟨2, ![256, 2048]⟩

abbrev nBuf : Space → Nat
  | .hbm => 306
  | .vmem => 7
  | .smem => 0
  | _ => 0

abbrev hbmTy0_0 (i : Nat) : BufTy := match i % 128 with
  | 0 => ⟨S16384x2048, .f32⟩
  | 1 => ⟨S2048x2048, .f32⟩
  | 2 => ⟨S2048x2048, .f32⟩
  | 3 => ⟨S2048, .f32⟩
  | 4 => ⟨S11x1024, .f32⟩
  | 5 => ⟨S11x1024, .f32⟩
  | 6 => ⟨S2048x2048, .f32⟩
  | 7 => ⟨S2048x2048, .bf16⟩
  | 8 => ⟨S2048x2048, .i32⟩
  | 9 => ⟨S2048x2048, .i32⟩
  | 10 => ⟨S_, .i32⟩
  | 11 => ⟨S2048x2048, .i32⟩
  | 12 => ⟨S2048x2048, .i32⟩
  | 13 => ⟨S2048x2048, .i1⟩
  | 14 => ⟨S2048x2048, .f32⟩
  | 15 => ⟨S1x1024, .f32⟩
  | 16 => ⟨S1024, .f32⟩
  | 17 => ⟨S1x1024x1, .f32⟩
  | 18 => ⟨S1x1024, .f32⟩
  | 19 => ⟨S1024, .f32⟩
  | 20 => ⟨S1x1024x1, .f32⟩
  | 21 => ⟨S2048x1024x2x1, .f32⟩
  | 22 => ⟨S2048x1024x1x1, .f32⟩
  | 23 => ⟨S2048x1024x1, .f32⟩
  | 24 => ⟨S2048x1024x1x1, .f32⟩
  | 25 => ⟨S2048x1024x1, .f32⟩
  | 26 => ⟨S2048x1024x1, .f32⟩
  | 27 => ⟨S2048x1024x1, .f32⟩
  | 28 => ⟨S2048x1024x1, .f32⟩
  | 29 => ⟨S2048x1024x1, .f32⟩
  | 30 => ⟨S2048x1024x1, .f32⟩
  | 31 => ⟨S1x1024x1, .f32⟩
  | 32 => ⟨S2048x1024x1, .f32⟩
  | 33 => ⟨S2048x1024x1, .f32⟩
  | 34 => ⟨S2048x1024x1, .f32⟩
  | 35 => ⟨S2048x1024x1, .f32⟩
  | 36 => ⟨S2048x1024x1, .f32⟩
  | 37 => ⟨S2048x1024x1x1, .f32⟩
  | 38 => ⟨S2048x1024x1x1, .f32⟩
  | 39 => ⟨S2048x1024x2x1, .f32⟩
  | 40 => ⟨S2048x2048, .f32⟩
  | 41 => ⟨S1x512, .f32⟩
  | 42 => ⟨S512, .f32⟩
  | 43 => ⟨S1x512x1, .f32⟩
  | 44 => ⟨S1x512, .f32⟩
  | 45 => ⟨S512, .f32⟩
  | 46 => ⟨S1x512x1, .f32⟩
  | 47 => ⟨S2048x512x2x2, .f32⟩
  | 48 => ⟨S2048x512x1x2, .f32⟩
  | 49 => ⟨S2048x512x2, .f32⟩
  | 50 => ⟨S2048x512x1x2, .f32⟩
  | 51 => ⟨S2048x512x2, .f32⟩
  | 52 => ⟨S2048x512x2, .f32⟩
  | 53 => ⟨S2048x512x2, .f32⟩
  | 54 => ⟨S2048x512x2, .f32⟩
  | 55 => ⟨S2048x512x2, .f32⟩
  | 56 => ⟨S2048x512x2, .f32⟩
  | 57 => ⟨S1x512x1, .f32⟩
  | 58 => ⟨S2048x512x2, .f32⟩
  | 59 => ⟨S2048x512x2, .f32⟩
  | 60 => ⟨S2048x512x2, .f32⟩
  | 61 => ⟨S2048x512x2, .f32⟩
  | 62 => ⟨S2048x512x2, .f32⟩
  | 63 => ⟨S2048x512x1x2, .f32⟩
  | 64 => ⟨S2048x512x1x2, .f32⟩
  | 65 => ⟨S2048x512x2x2, .f32⟩
  | 66 => ⟨S2048x2048, .f32⟩
  | 67 => ⟨S1x256, .f32⟩
  | 68 => ⟨S256, .f32⟩
  | 69 => ⟨S1x256x1, .f32⟩
  | 70 => ⟨S1x256, .f32⟩
  | 71 => ⟨S256, .f32⟩
  | 72 => ⟨S1x256x1, .f32⟩
  | 73 => ⟨S2048x256x2x4, .f32⟩
  | 74 => ⟨S2048x256x1x4, .f32⟩
  | 75 => ⟨S2048x256x4, .f32⟩
  | 76 => ⟨S2048x256x1x4, .f32⟩
  | 77 => ⟨S2048x256x4, .f32⟩
  | 78 => ⟨S2048x256x4, .f32⟩
  | 79 => ⟨S2048x256x4, .f32⟩
  | 80 => ⟨S2048x256x4, .f32⟩
  | 81 => ⟨S2048x256x4, .f32⟩
  | 82 => ⟨S2048x256x4, .f32⟩
  | 83 => ⟨S1x256x1, .f32⟩
  | 84 => ⟨S2048x256x4, .f32⟩
  | 85 => ⟨S2048x256x4, .f32⟩
  | 86 => ⟨S2048x256x4, .f32⟩
  | 87 => ⟨S2048x256x4, .f32⟩
  | 88 => ⟨S2048x256x4, .f32⟩
  | 89 => ⟨S2048x256x1x4, .f32⟩
  | 90 => ⟨S2048x256x1x4, .f32⟩
  | 91 => ⟨S2048x256x2x4, .f32⟩
  | 92 => ⟨S2048x2048, .f32⟩
  | 93 => ⟨S1x128, .f32⟩
  | 94 => ⟨S128, .f32⟩
  | 95 => ⟨S1x128x1, .f32⟩
  | 96 => ⟨S1x128, .f32⟩
  | 97 => ⟨S128, .f32⟩
  | 98 => ⟨S1x128x1, .f32⟩
  | 99 => ⟨S2048x128x2x8, .f32⟩
  | 100 => ⟨S2048x128x1x8, .f32⟩
  | 101 => ⟨S2048x128x8, .f32⟩
  | 102 => ⟨S2048x128x1x8, .f32⟩
  | 103 => ⟨S2048x128x8, .f32⟩
  | 104 => ⟨S2048x128x8, .f32⟩
  | 105 => ⟨S2048x128x8, .f32⟩
  | 106 => ⟨S2048x128x8, .f32⟩
  | 107 => ⟨S2048x128x8, .f32⟩
  | 108 => ⟨S2048x128x8, .f32⟩
  | 109 => ⟨S1x128x1, .f32⟩
  | 110 => ⟨S2048x128x8, .f32⟩
  | 111 => ⟨S2048x128x8, .f32⟩
  | 112 => ⟨S2048x128x8, .f32⟩
  | 113 => ⟨S2048x128x8, .f32⟩
  | 114 => ⟨S2048x128x8, .f32⟩
  | 115 => ⟨S2048x128x1x8, .f32⟩
  | 116 => ⟨S2048x128x1x8, .f32⟩
  | 117 => ⟨S2048x128x2x8, .f32⟩
  | 118 => ⟨S2048x2048, .f32⟩
  | 119 => ⟨S1x64, .f32⟩
  | 120 => ⟨S64, .f32⟩
  | 121 => ⟨S1x64x1, .f32⟩
  | 122 => ⟨S1x64, .f32⟩
  | 123 => ⟨S64, .f32⟩
  | 124 => ⟨S1x64x1, .f32⟩
  | 125 => ⟨S2048x64x2x16, .f32⟩
  | 126 => ⟨S2048x64x1x16, .f32⟩
  | 127 => ⟨S2048x64x16, .f32⟩
  | _ => ⟨S16384x2048, .f32⟩

abbrev hbmTy0_1 (i : Nat) : BufTy := match i % 128 with
  | 0 => ⟨S2048x64x1x16, .f32⟩
  | 1 => ⟨S2048x64x16, .f32⟩
  | 2 => ⟨S2048x64x16, .f32⟩
  | 3 => ⟨S2048x64x16, .f32⟩
  | 4 => ⟨S2048x64x16, .f32⟩
  | 5 => ⟨S2048x64x16, .f32⟩
  | 6 => ⟨S2048x64x16, .f32⟩
  | 7 => ⟨S1x64x1, .f32⟩
  | 8 => ⟨S2048x64x16, .f32⟩
  | 9 => ⟨S2048x64x16, .f32⟩
  | 10 => ⟨S2048x64x16, .f32⟩
  | 11 => ⟨S2048x64x16, .f32⟩
  | 12 => ⟨S2048x64x16, .f32⟩
  | 13 => ⟨S2048x64x1x16, .f32⟩
  | 14 => ⟨S2048x64x1x16, .f32⟩
  | 15 => ⟨S2048x64x2x16, .f32⟩
  | 16 => ⟨S2048x2048, .f32⟩
  | 17 => ⟨S1x32, .f32⟩
  | 18 => ⟨S32, .f32⟩
  | 19 => ⟨S1x32x1, .f32⟩
  | 20 => ⟨S1x32, .f32⟩
  | 21 => ⟨S32, .f32⟩
  | 22 => ⟨S1x32x1, .f32⟩
  | 23 => ⟨S2048x32x2x32, .f32⟩
  | 24 => ⟨S2048x32x1x32, .f32⟩
  | 25 => ⟨S2048x32x32, .f32⟩
  | 26 => ⟨S2048x32x1x32, .f32⟩
  | 27 => ⟨S2048x32x32, .f32⟩
  | 28 => ⟨S2048x32x32, .f32⟩
  | 29 => ⟨S2048x32x32, .f32⟩
  | 30 => ⟨S2048x32x32, .f32⟩
  | 31 => ⟨S2048x32x32, .f32⟩
  | 32 => ⟨S2048x32x32, .f32⟩
  | 33 => ⟨S1x32x1, .f32⟩
  | 34 => ⟨S2048x32x32, .f32⟩
  | 35 => ⟨S2048x32x32, .f32⟩
  | 36 => ⟨S2048x32x32, .f32⟩
  | 37 => ⟨S2048x32x32, .f32⟩
  | 38 => ⟨S2048x32x32, .f32⟩
  | 39 => ⟨S2048x32x1x32, .f32⟩
  | 40 => ⟨S2048x32x1x32, .f32⟩
  | 41 => ⟨S2048x32x2x32, .f32⟩
  | 42 => ⟨S2048x2048, .f32⟩
  | 43 => ⟨S1x16, .f32⟩
  | 44 => ⟨S16, .f32⟩
  | 45 => ⟨S1x16x1, .f32⟩
  | 46 => ⟨S1x16, .f32⟩
  | 47 => ⟨S16, .f32⟩
  | 48 => ⟨S1x16x1, .f32⟩
  | 49 => ⟨S2048x16x2x64, .f32⟩
  | 50 => ⟨S2048x16x1x64, .f32⟩
  | 51 => ⟨S2048x16x64, .f32⟩
  | 52 => ⟨S2048x16x1x64, .f32⟩
  | 53 => ⟨S2048x16x64, .f32⟩
  | 54 => ⟨S2048x16x64, .f32⟩
  | 55 => ⟨S2048x16x64, .f32⟩
  | 56 => ⟨S2048x16x64, .f32⟩
  | 57 => ⟨S2048x16x64, .f32⟩
  | 58 => ⟨S2048x16x64, .f32⟩
  | 59 => ⟨S1x16x1, .f32⟩
  | 60 => ⟨S2048x16x64, .f32⟩
  | 61 => ⟨S2048x16x64, .f32⟩
  | 62 => ⟨S2048x16x64, .f32⟩
  | 63 => ⟨S2048x16x64, .f32⟩
  | 64 => ⟨S2048x16x64, .f32⟩
  | 65 => ⟨S2048x16x1x64, .f32⟩
  | 66 => ⟨S2048x16x1x64, .f32⟩
  | 67 => ⟨S2048x16x2x64, .f32⟩
  | 68 => ⟨S2048x2048, .f32⟩
  | 69 => ⟨S1x8, .f32⟩
  | 70 => ⟨S8, .f32⟩
  | 71 => ⟨S1x8x1, .f32⟩
  | 72 => ⟨S1x8, .f32⟩
  | 73 => ⟨S8, .f32⟩
  | 74 => ⟨S1x8x1, .f32⟩
  | 75 => ⟨S2048x8x2x128, .f32⟩
  | 76 => ⟨S2048x8x1x128, .f32⟩
  | 77 => ⟨S2048x8x128, .f32⟩
  | 78 => ⟨S2048x8x1x128, .f32⟩
  | 79 => ⟨S2048x8x128, .f32⟩
  | 80 => ⟨S2048x8x128, .f32⟩
  | 81 => ⟨S2048x8x128, .f32⟩
  | 82 => ⟨S2048x8x128, .f32⟩
  | 83 => ⟨S2048x8x128, .f32⟩
  | 84 => ⟨S2048x8x128, .f32⟩
  | 85 => ⟨S1x8x1, .f32⟩
  | 86 => ⟨S2048x8x128, .f32⟩
  | 87 => ⟨S2048x8x128, .f32⟩
  | 88 => ⟨S2048x8x128, .f32⟩
  | 89 => ⟨S2048x8x128, .f32⟩
  | 90 => ⟨S2048x8x128, .f32⟩
  | 91 => ⟨S2048x8x1x128, .f32⟩
  | 92 => ⟨S2048x8x1x128, .f32⟩
  | 93 => ⟨S2048x8x2x128, .f32⟩
  | 94 => ⟨S2048x2048, .f32⟩
  | 95 => ⟨S1x4, .f32⟩
  | 96 => ⟨S4, .f32⟩
  | 97 => ⟨S1x4x1, .f32⟩
  | 98 => ⟨S1x4, .f32⟩
  | 99 => ⟨S4, .f32⟩
  | 100 => ⟨S1x4x1, .f32⟩
  | 101 => ⟨S2048x4x2x256, .f32⟩
  | 102 => ⟨S2048x4x1x256, .f32⟩
  | 103 => ⟨S2048x4x256, .f32⟩
  | 104 => ⟨S2048x4x1x256, .f32⟩
  | 105 => ⟨S2048x4x256, .f32⟩
  | 106 => ⟨S2048x4x256, .f32⟩
  | 107 => ⟨S2048x4x256, .f32⟩
  | 108 => ⟨S2048x4x256, .f32⟩
  | 109 => ⟨S2048x4x256, .f32⟩
  | 110 => ⟨S2048x4x256, .f32⟩
  | 111 => ⟨S1x4x1, .f32⟩
  | 112 => ⟨S2048x4x256, .f32⟩
  | 113 => ⟨S2048x4x256, .f32⟩
  | 114 => ⟨S2048x4x256, .f32⟩
  | 115 => ⟨S2048x4x256, .f32⟩
  | 116 => ⟨S2048x4x256, .f32⟩
  | 117 => ⟨S2048x4x1x256, .f32⟩
  | 118 => ⟨S2048x4x1x256, .f32⟩
  | 119 => ⟨S2048x4x2x256, .f32⟩
  | 120 => ⟨S2048x2048, .f32⟩
  | 121 => ⟨S1x2, .f32⟩
  | 122 => ⟨S2, .f32⟩
  | 123 => ⟨S1x2x1, .f32⟩
  | 124 => ⟨S1x2, .f32⟩
  | 125 => ⟨S2, .f32⟩
  | 126 => ⟨S1x2x1, .f32⟩
  | 127 => ⟨S2048x2x2x512, .f32⟩
  | _ => ⟨S16384x2048, .f32⟩

abbrev hbmTy0_2 (i : Nat) : BufTy := match i % 128 with
  | 0 => ⟨S2048x2x1x512, .f32⟩
  | 1 => ⟨S2048x2x512, .f32⟩
  | 2 => ⟨S2048x2x1x512, .f32⟩
  | 3 => ⟨S2048x2x512, .f32⟩
  | 4 => ⟨S2048x2x512, .f32⟩
  | 5 => ⟨S2048x2x512, .f32⟩
  | 6 => ⟨S2048x2x512, .f32⟩
  | 7 => ⟨S2048x2x512, .f32⟩
  | 8 => ⟨S2048x2x512, .f32⟩
  | 9 => ⟨S1x2x1, .f32⟩
  | 10 => ⟨S2048x2x512, .f32⟩
  | 11 => ⟨S2048x2x512, .f32⟩
  | 12 => ⟨S2048x2x512, .f32⟩
  | 13 => ⟨S2048x2x512, .f32⟩
  | 14 => ⟨S2048x2x512, .f32⟩
  | 15 => ⟨S2048x2x1x512, .f32⟩
  | 16 => ⟨S2048x2x1x512, .f32⟩
  | 17 => ⟨S2048x2x2x512, .f32⟩
  | 18 => ⟨S2048x2048, .f32⟩
  | 19 => ⟨S1x1, .f32⟩
  | 20 => ⟨S1, .f32⟩
  | 21 => ⟨S1x1x1, .f32⟩
  | 22 => ⟨S1x1, .f32⟩
  | 23 => ⟨S1, .f32⟩
  | 24 => ⟨S1x1x1, .f32⟩
  | 25 => ⟨S2048x1x2x1024, .f32⟩
  | 26 => ⟨S2048x1x1x1024, .f32⟩
  | 27 => ⟨S2048x1x1024, .f32⟩
  | 28 => ⟨S2048x1x1x1024, .f32⟩
  | 29 => ⟨S2048x1x1024, .f32⟩
  | 30 => ⟨S2048x1x1024, .f32⟩
  | 31 => ⟨S2048x1x1024, .f32⟩
  | 32 => ⟨S2048x1x1024, .f32⟩
  | 33 => ⟨S2048x1x1024, .f32⟩
  | 34 => ⟨S2048x1x1024, .f32⟩
  | 35 => ⟨S1x1x1, .f32⟩
  | 36 => ⟨S2048x1x1024, .f32⟩
  | 37 => ⟨S2048x1x1024, .f32⟩
  | 38 => ⟨S2048x1x1024, .f32⟩
  | 39 => ⟨S2048x1x1024, .f32⟩
  | 40 => ⟨S2048x1x1024, .f32⟩
  | 41 => ⟨S2048x1x1x1024, .f32⟩
  | 42 => ⟨S2048x1x1x1024, .f32⟩
  | 43 => ⟨S2048x1x2x1024, .f32⟩
  | 44 => ⟨S2048x2048, .f32⟩
  | 45 => ⟨S2048x2048, .f32⟩
  | 46 => ⟨S2048x2048, .f32⟩
  | 47 => ⟨S2048x2048, .bf16⟩
  | 48 => ⟨S1x2048, .f32⟩
  | 49 => ⟨S16384x2048, .f32⟩
  | _ => ⟨S16384x2048, .f32⟩

abbrev hbmTy (i : Nat) : BufTy := match i / 128 with
  | 0 => hbmTy0_0 i
  | 1 => hbmTy0_1 i
  | 2 => hbmTy0_2 i
  | _ => ⟨S16384x2048, .f32⟩

abbrev bufTy : (tb : Table) → Fin (tcTables nBuf tb) → BufTy
  | .hbm, ⟨i, _⟩ => hbmTy i
  | .local _ .vmem, ⟨0, _⟩ => ⟨S256x2048, .f32⟩
  | .local _ .vmem, ⟨1, _⟩ => ⟨S256x2048, .f32⟩
  | .local _ .vmem, ⟨2, _⟩ => ⟨S2048x2048, .bf16⟩
  | .local _ .vmem, ⟨3, _⟩ => ⟨S2048x2048, .bf16⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_v131 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_v135 : Ref sig .tc := ⟨.hbm, 142, rfl⟩
abbrev main_v136 : Ref sig .tc := ⟨.hbm, 143, rfl⟩
abbrev main_v137 : Ref sig .tc := ⟨.hbm, 144, rfl⟩
abbrev main_v138 : Ref sig .tc := ⟨.hbm, 145, rfl⟩
abbrev main_v139 : Ref sig .tc := ⟨.hbm, 146, rfl⟩
abbrev main_v140 : Ref sig .tc := ⟨.hbm, 147, rfl⟩
abbrev main_v141 : Ref sig .tc := ⟨.hbm, 148, rfl⟩
abbrev main_v142 : Ref sig .tc := ⟨.hbm, 149, rfl⟩
abbrev main_v143 : Ref sig .tc := ⟨.hbm, 150, rfl⟩
abbrev main_v144 : Ref sig .tc := ⟨.hbm, 151, rfl⟩
abbrev main_v145 : Ref sig .tc := ⟨.hbm, 152, rfl⟩
abbrev main_v146 : Ref sig .tc := ⟨.hbm, 153, rfl⟩
abbrev main_v147 : Ref sig .tc := ⟨.hbm, 154, rfl⟩
abbrev main_v148 : Ref sig .tc := ⟨.hbm, 155, rfl⟩
abbrev main_v149 : Ref sig .tc := ⟨.hbm, 156, rfl⟩
abbrev main_v150 : Ref sig .tc := ⟨.hbm, 157, rfl⟩
abbrev main_v151 : Ref sig .tc := ⟨.hbm, 158, rfl⟩
abbrev main_v152 : Ref sig .tc := ⟨.hbm, 159, rfl⟩
abbrev main_v153 : Ref sig .tc := ⟨.hbm, 160, rfl⟩
abbrev main_v154 : Ref sig .tc := ⟨.hbm, 161, rfl⟩
abbrev main_v155 : Ref sig .tc := ⟨.hbm, 162, rfl⟩
abbrev main_v156 : Ref sig .tc := ⟨.hbm, 163, rfl⟩
abbrev main_v157 : Ref sig .tc := ⟨.hbm, 164, rfl⟩
abbrev main_v158 : Ref sig .tc := ⟨.hbm, 165, rfl⟩
abbrev main_v159 : Ref sig .tc := ⟨.hbm, 166, rfl⟩
abbrev main_v160 : Ref sig .tc := ⟨.hbm, 167, rfl⟩
abbrev main_v161 : Ref sig .tc := ⟨.hbm, 168, rfl⟩
abbrev main_v162 : Ref sig .tc := ⟨.hbm, 169, rfl⟩
abbrev main_v163 : Ref sig .tc := ⟨.hbm, 170, rfl⟩
abbrev main_v164 : Ref sig .tc := ⟨.hbm, 171, rfl⟩
abbrev main_v165 : Ref sig .tc := ⟨.hbm, 172, rfl⟩
abbrev main_v166 : Ref sig .tc := ⟨.hbm, 173, rfl⟩
abbrev main_v167 : Ref sig .tc := ⟨.hbm, 174, rfl⟩
abbrev main_v168 : Ref sig .tc := ⟨.hbm, 175, rfl⟩
abbrev main_v169 : Ref sig .tc := ⟨.hbm, 176, rfl⟩
abbrev main_v170 : Ref sig .tc := ⟨.hbm, 177, rfl⟩
abbrev main_v171 : Ref sig .tc := ⟨.hbm, 178, rfl⟩
abbrev main_v172 : Ref sig .tc := ⟨.hbm, 179, rfl⟩
abbrev main_v173 : Ref sig .tc := ⟨.hbm, 180, rfl⟩
abbrev main_v174 : Ref sig .tc := ⟨.hbm, 181, rfl⟩
abbrev main_v175 : Ref sig .tc := ⟨.hbm, 182, rfl⟩
abbrev main_v176 : Ref sig .tc := ⟨.hbm, 183, rfl⟩
abbrev main_v177 : Ref sig .tc := ⟨.hbm, 184, rfl⟩
abbrev main_v178 : Ref sig .tc := ⟨.hbm, 185, rfl⟩
abbrev main_v179 : Ref sig .tc := ⟨.hbm, 186, rfl⟩
abbrev main_v180 : Ref sig .tc := ⟨.hbm, 187, rfl⟩
abbrev main_v181 : Ref sig .tc := ⟨.hbm, 188, rfl⟩
abbrev main_v182 : Ref sig .tc := ⟨.hbm, 189, rfl⟩
abbrev main_v183 : Ref sig .tc := ⟨.hbm, 190, rfl⟩
abbrev main_v184 : Ref sig .tc := ⟨.hbm, 191, rfl⟩
abbrev main_v185 : Ref sig .tc := ⟨.hbm, 192, rfl⟩
abbrev main_v186 : Ref sig .tc := ⟨.hbm, 193, rfl⟩
abbrev main_v187 : Ref sig .tc := ⟨.hbm, 194, rfl⟩
abbrev main_v188 : Ref sig .tc := ⟨.hbm, 195, rfl⟩
abbrev main_v189 : Ref sig .tc := ⟨.hbm, 196, rfl⟩
abbrev main_v190 : Ref sig .tc := ⟨.hbm, 197, rfl⟩
abbrev main_v191 : Ref sig .tc := ⟨.hbm, 198, rfl⟩
abbrev main_v192 : Ref sig .tc := ⟨.hbm, 199, rfl⟩
abbrev main_v193 : Ref sig .tc := ⟨.hbm, 200, rfl⟩
abbrev main_v194 : Ref sig .tc := ⟨.hbm, 201, rfl⟩
abbrev main_v195 : Ref sig .tc := ⟨.hbm, 202, rfl⟩
abbrev main_v196 : Ref sig .tc := ⟨.hbm, 203, rfl⟩
abbrev main_v197 : Ref sig .tc := ⟨.hbm, 204, rfl⟩
abbrev main_v198 : Ref sig .tc := ⟨.hbm, 205, rfl⟩
abbrev main_v199 : Ref sig .tc := ⟨.hbm, 206, rfl⟩
abbrev main_v200 : Ref sig .tc := ⟨.hbm, 207, rfl⟩
abbrev main_v201 : Ref sig .tc := ⟨.hbm, 208, rfl⟩
abbrev main_v202 : Ref sig .tc := ⟨.hbm, 209, rfl⟩
abbrev main_v203 : Ref sig .tc := ⟨.hbm, 210, rfl⟩
abbrev main_v204 : Ref sig .tc := ⟨.hbm, 211, rfl⟩
abbrev main_v205 : Ref sig .tc := ⟨.hbm, 212, rfl⟩
abbrev main_v206 : Ref sig .tc := ⟨.hbm, 213, rfl⟩
abbrev main_v207 : Ref sig .tc := ⟨.hbm, 214, rfl⟩
abbrev main_v208 : Ref sig .tc := ⟨.hbm, 215, rfl⟩
abbrev main_v209 : Ref sig .tc := ⟨.hbm, 216, rfl⟩
abbrev main_v210 : Ref sig .tc := ⟨.hbm, 217, rfl⟩
abbrev main_v211 : Ref sig .tc := ⟨.hbm, 218, rfl⟩
abbrev main_v212 : Ref sig .tc := ⟨.hbm, 219, rfl⟩
abbrev main_v213 : Ref sig .tc := ⟨.hbm, 220, rfl⟩
abbrev main_v214 : Ref sig .tc := ⟨.hbm, 221, rfl⟩
abbrev main_v215 : Ref sig .tc := ⟨.hbm, 222, rfl⟩
abbrev main_v216 : Ref sig .tc := ⟨.hbm, 223, rfl⟩
abbrev main_v217 : Ref sig .tc := ⟨.hbm, 224, rfl⟩
abbrev main_v218 : Ref sig .tc := ⟨.hbm, 225, rfl⟩
abbrev main_v219 : Ref sig .tc := ⟨.hbm, 226, rfl⟩
abbrev main_v220 : Ref sig .tc := ⟨.hbm, 227, rfl⟩
abbrev main_v221 : Ref sig .tc := ⟨.hbm, 228, rfl⟩
abbrev main_v222 : Ref sig .tc := ⟨.hbm, 229, rfl⟩
abbrev main_v223 : Ref sig .tc := ⟨.hbm, 230, rfl⟩
abbrev main_v224 : Ref sig .tc := ⟨.hbm, 231, rfl⟩
abbrev main_v225 : Ref sig .tc := ⟨.hbm, 232, rfl⟩
abbrev main_v226 : Ref sig .tc := ⟨.hbm, 233, rfl⟩
abbrev main_v227 : Ref sig .tc := ⟨.hbm, 234, rfl⟩
abbrev main_v228 : Ref sig .tc := ⟨.hbm, 235, rfl⟩
abbrev main_v229 : Ref sig .tc := ⟨.hbm, 236, rfl⟩
abbrev main_v230 : Ref sig .tc := ⟨.hbm, 237, rfl⟩
abbrev main_v231 : Ref sig .tc := ⟨.hbm, 238, rfl⟩
abbrev main_v232 : Ref sig .tc := ⟨.hbm, 239, rfl⟩
abbrev main_v233 : Ref sig .tc := ⟨.hbm, 240, rfl⟩
abbrev main_v234 : Ref sig .tc := ⟨.hbm, 241, rfl⟩
abbrev main_v235 : Ref sig .tc := ⟨.hbm, 242, rfl⟩
abbrev main_v236 : Ref sig .tc := ⟨.hbm, 243, rfl⟩
abbrev main_v237 : Ref sig .tc := ⟨.hbm, 244, rfl⟩
abbrev main_v238 : Ref sig .tc := ⟨.hbm, 245, rfl⟩
abbrev main_v239 : Ref sig .tc := ⟨.hbm, 246, rfl⟩
abbrev main_v240 : Ref sig .tc := ⟨.hbm, 247, rfl⟩
abbrev main_v241 : Ref sig .tc := ⟨.hbm, 248, rfl⟩
abbrev main_v242 : Ref sig .tc := ⟨.hbm, 249, rfl⟩
abbrev main_v243 : Ref sig .tc := ⟨.hbm, 250, rfl⟩
abbrev main_v244 : Ref sig .tc := ⟨.hbm, 251, rfl⟩
abbrev main_v245 : Ref sig .tc := ⟨.hbm, 252, rfl⟩
abbrev main_v246 : Ref sig .tc := ⟨.hbm, 253, rfl⟩
abbrev main_v247 : Ref sig .tc := ⟨.hbm, 254, rfl⟩
abbrev main_v248 : Ref sig .tc := ⟨.hbm, 255, rfl⟩
abbrev main_v249 : Ref sig .tc := ⟨.hbm, 256, rfl⟩
abbrev main_v250 : Ref sig .tc := ⟨.hbm, 257, rfl⟩
abbrev main_v251 : Ref sig .tc := ⟨.hbm, 258, rfl⟩
abbrev main_v252 : Ref sig .tc := ⟨.hbm, 259, rfl⟩
abbrev main_v253 : Ref sig .tc := ⟨.hbm, 260, rfl⟩
abbrev main_v254 : Ref sig .tc := ⟨.hbm, 261, rfl⟩
abbrev main_v255 : Ref sig .tc := ⟨.hbm, 262, rfl⟩
abbrev main_v256 : Ref sig .tc := ⟨.hbm, 263, rfl⟩
abbrev main_v257 : Ref sig .tc := ⟨.hbm, 264, rfl⟩
abbrev main_v258 : Ref sig .tc := ⟨.hbm, 265, rfl⟩
abbrev main_v259 : Ref sig .tc := ⟨.hbm, 266, rfl⟩
abbrev main_v260 : Ref sig .tc := ⟨.hbm, 267, rfl⟩
abbrev main_v261 : Ref sig .tc := ⟨.hbm, 268, rfl⟩
abbrev main_v262 : Ref sig .tc := ⟨.hbm, 269, rfl⟩
abbrev main_v263 : Ref sig .tc := ⟨.hbm, 270, rfl⟩
abbrev main_v264 : Ref sig .tc := ⟨.hbm, 271, rfl⟩
abbrev main_v265 : Ref sig .tc := ⟨.hbm, 272, rfl⟩
abbrev main_v266 : Ref sig .tc := ⟨.hbm, 273, rfl⟩
abbrev main_v267 : Ref sig .tc := ⟨.hbm, 274, rfl⟩
abbrev main_v268 : Ref sig .tc := ⟨.hbm, 275, rfl⟩
abbrev main_v269 : Ref sig .tc := ⟨.hbm, 276, rfl⟩
abbrev main_v270 : Ref sig .tc := ⟨.hbm, 277, rfl⟩
abbrev main_v271 : Ref sig .tc := ⟨.hbm, 278, rfl⟩
abbrev main_v272 : Ref sig .tc := ⟨.hbm, 279, rfl⟩
abbrev main_v273 : Ref sig .tc := ⟨.hbm, 280, rfl⟩
abbrev main_v274 : Ref sig .tc := ⟨.hbm, 281, rfl⟩
abbrev main_v275 : Ref sig .tc := ⟨.hbm, 282, rfl⟩
abbrev main_v276 : Ref sig .tc := ⟨.hbm, 283, rfl⟩
abbrev main_v277 : Ref sig .tc := ⟨.hbm, 284, rfl⟩
abbrev main_v278 : Ref sig .tc := ⟨.hbm, 285, rfl⟩
abbrev main_v279 : Ref sig .tc := ⟨.hbm, 286, rfl⟩
abbrev main_v280 : Ref sig .tc := ⟨.hbm, 287, rfl⟩
abbrev main_v281 : Ref sig .tc := ⟨.hbm, 288, rfl⟩
abbrev main_v282 : Ref sig .tc := ⟨.hbm, 289, rfl⟩
abbrev main_v283 : Ref sig .tc := ⟨.hbm, 290, rfl⟩
abbrev main_v284 : Ref sig .tc := ⟨.hbm, 291, rfl⟩
abbrev main_v285 : Ref sig .tc := ⟨.hbm, 292, rfl⟩
abbrev main_v286 : Ref sig .tc := ⟨.hbm, 293, rfl⟩
abbrev main_v287 : Ref sig .tc := ⟨.hbm, 294, rfl⟩
abbrev main_v288 : Ref sig .tc := ⟨.hbm, 295, rfl⟩
abbrev main_v289 : Ref sig .tc := ⟨.hbm, 296, rfl⟩
abbrev main_v290 : Ref sig .tc := ⟨.hbm, 297, rfl⟩
abbrev main_v291 : Ref sig .tc := ⟨.hbm, 298, rfl⟩
abbrev main_v292 : Ref sig .tc := ⟨.hbm, 299, rfl⟩
abbrev main_v293 : Ref sig .tc := ⟨.hbm, 300, rfl⟩
abbrev main_v294 : Ref sig .tc := ⟨.hbm, 301, rfl⟩
abbrev main_v295 : Ref sig .tc := ⟨.hbm, 302, rfl⟩
abbrev main_v296 : Ref sig .tc := ⟨.hbm, 303, rfl⟩
abbrev main_v297 : Ref sig .tc := ⟨.hbm, 304, rfl⟩
abbrev main_v298 : Ref sig .tc := ⟨.hbm, 305, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S2048x2048_S2048x2048_1_0 : S2048x2048.Transposes [1, 0] S2048x2048
  bitsLt_bf16_f32 : FTy.bits .bf16 < FTy.bits .f32
  bcast_S_S2048x2048 : S_.BroadcastsInDim S2048x2048 (![] : Fin 0 → Fin S2048x2048.rank)
  slices_S11x1024_S1x1024_0_0 : S11x1024.Slices ![0, 0] S1x1024
  shapeCasts_S1x1024_S1024 : S1x1024.ShapeCasts S1024
  bcast_S1024_S1x1024x1_1 : S1024.BroadcastsInDim S1x1024x1 (![1] : Fin 1 → Fin S1x1024x1.rank)
  shapeCasts_S2048x2048_S2048x1024x2x1 : S2048x2048.ShapeCasts S2048x1024x2x1
  slices_S2048x1024x2x1_S2048x1024x1x1_0_0_0_0 : S2048x1024x2x1.Slices ![0, 0, 0, 0] S2048x1024x1x1
  shapeCasts_S2048x1024x1x1_S2048x1024x1 : S2048x1024x1x1.ShapeCasts S2048x1024x1
  slices_S2048x1024x2x1_S2048x1024x1x1_0_0_1_0 : S2048x1024x2x1.Slices ![0, 0, 1, 0] S2048x1024x1x1
  bcast_S1x1024x1_S2048x1024x1_0_1_2 : S1x1024x1.BroadcastsInDim S2048x1024x1 (![0, 1, 2] : Fin 3 → Fin S2048x1024x1.rank)
  bcast_S2048x1024x1_S2048x1024x1x1_0_1_3 : S2048x1024x1.BroadcastsInDim S2048x1024x1x1 (![0, 1, 3] : Fin 3 → Fin S2048x1024x1x1.rank)
  concatenates_S2048x1024x1x1_S2048x1024x1x1_S2048x1024x2x1_d2 : Shape.Concatenates [S2048x1024x1x1, S2048x1024x1x1] S2048x1024x2x1 2
  shapeCasts_S2048x1024x2x1_S2048x2048 : S2048x1024x2x1.ShapeCasts S2048x2048
  slices_S11x1024_S1x512_1_0 : S11x1024.Slices ![1, 0] S1x512
  shapeCasts_S1x512_S512 : S1x512.ShapeCasts S512
  bcast_S512_S1x512x1_1 : S512.BroadcastsInDim S1x512x1 (![1] : Fin 1 → Fin S1x512x1.rank)
  shapeCasts_S2048x2048_S2048x512x2x2 : S2048x2048.ShapeCasts S2048x512x2x2
  slices_S2048x512x2x2_S2048x512x1x2_0_0_0_0 : S2048x512x2x2.Slices ![0, 0, 0, 0] S2048x512x1x2
  shapeCasts_S2048x512x1x2_S2048x512x2 : S2048x512x1x2.ShapeCasts S2048x512x2
  slices_S2048x512x2x2_S2048x512x1x2_0_0_1_0 : S2048x512x2x2.Slices ![0, 0, 1, 0] S2048x512x1x2
  bcast_S1x512x1_S2048x512x2_0_1_2 : S1x512x1.BroadcastsInDim S2048x512x2 (![0, 1, 2] : Fin 3 → Fin S2048x512x2.rank)
  bcast_S2048x512x2_S2048x512x1x2_0_1_3 : S2048x512x2.BroadcastsInDim S2048x512x1x2 (![0, 1, 3] : Fin 3 → Fin S2048x512x1x2.rank)
  concatenates_S2048x512x1x2_S2048x512x1x2_S2048x512x2x2_d2 : Shape.Concatenates [S2048x512x1x2, S2048x512x1x2] S2048x512x2x2 2
  shapeCasts_S2048x512x2x2_S2048x2048 : S2048x512x2x2.ShapeCasts S2048x2048
  slices_S11x1024_S1x256_2_0 : S11x1024.Slices ![2, 0] S1x256
  shapeCasts_S1x256_S256 : S1x256.ShapeCasts S256
  bcast_S256_S1x256x1_1 : S256.BroadcastsInDim S1x256x1 (![1] : Fin 1 → Fin S1x256x1.rank)
  shapeCasts_S2048x2048_S2048x256x2x4 : S2048x2048.ShapeCasts S2048x256x2x4
  slices_S2048x256x2x4_S2048x256x1x4_0_0_0_0 : S2048x256x2x4.Slices ![0, 0, 0, 0] S2048x256x1x4
  shapeCasts_S2048x256x1x4_S2048x256x4 : S2048x256x1x4.ShapeCasts S2048x256x4
  slices_S2048x256x2x4_S2048x256x1x4_0_0_1_0 : S2048x256x2x4.Slices ![0, 0, 1, 0] S2048x256x1x4
  bcast_S1x256x1_S2048x256x4_0_1_2 : S1x256x1.BroadcastsInDim S2048x256x4 (![0, 1, 2] : Fin 3 → Fin S2048x256x4.rank)
  bcast_S2048x256x4_S2048x256x1x4_0_1_3 : S2048x256x4.BroadcastsInDim S2048x256x1x4 (![0, 1, 3] : Fin 3 → Fin S2048x256x1x4.rank)
  concatenates_S2048x256x1x4_S2048x256x1x4_S2048x256x2x4_d2 : Shape.Concatenates [S2048x256x1x4, S2048x256x1x4] S2048x256x2x4 2
  shapeCasts_S2048x256x2x4_S2048x2048 : S2048x256x2x4.ShapeCasts S2048x2048
  slices_S11x1024_S1x128_3_0 : S11x1024.Slices ![3, 0] S1x128
  shapeCasts_S1x128_S128 : S1x128.ShapeCasts S128
  bcast_S128_S1x128x1_1 : S128.BroadcastsInDim S1x128x1 (![1] : Fin 1 → Fin S1x128x1.rank)
  shapeCasts_S2048x2048_S2048x128x2x8 : S2048x2048.ShapeCasts S2048x128x2x8
  slices_S2048x128x2x8_S2048x128x1x8_0_0_0_0 : S2048x128x2x8.Slices ![0, 0, 0, 0] S2048x128x1x8
  shapeCasts_S2048x128x1x8_S2048x128x8 : S2048x128x1x8.ShapeCasts S2048x128x8
  slices_S2048x128x2x8_S2048x128x1x8_0_0_1_0 : S2048x128x2x8.Slices ![0, 0, 1, 0] S2048x128x1x8
  bcast_S1x128x1_S2048x128x8_0_1_2 : S1x128x1.BroadcastsInDim S2048x128x8 (![0, 1, 2] : Fin 3 → Fin S2048x128x8.rank)
  bcast_S2048x128x8_S2048x128x1x8_0_1_3 : S2048x128x8.BroadcastsInDim S2048x128x1x8 (![0, 1, 3] : Fin 3 → Fin S2048x128x1x8.rank)
  concatenates_S2048x128x1x8_S2048x128x1x8_S2048x128x2x8_d2 : Shape.Concatenates [S2048x128x1x8, S2048x128x1x8] S2048x128x2x8 2
  shapeCasts_S2048x128x2x8_S2048x2048 : S2048x128x2x8.ShapeCasts S2048x2048
  slices_S11x1024_S1x64_4_0 : S11x1024.Slices ![4, 0] S1x64
  shapeCasts_S1x64_S64 : S1x64.ShapeCasts S64
  bcast_S64_S1x64x1_1 : S64.BroadcastsInDim S1x64x1 (![1] : Fin 1 → Fin S1x64x1.rank)
  shapeCasts_S2048x2048_S2048x64x2x16 : S2048x2048.ShapeCasts S2048x64x2x16
  slices_S2048x64x2x16_S2048x64x1x16_0_0_0_0 : S2048x64x2x16.Slices ![0, 0, 0, 0] S2048x64x1x16
  shapeCasts_S2048x64x1x16_S2048x64x16 : S2048x64x1x16.ShapeCasts S2048x64x16
  slices_S2048x64x2x16_S2048x64x1x16_0_0_1_0 : S2048x64x2x16.Slices ![0, 0, 1, 0] S2048x64x1x16
  bcast_S1x64x1_S2048x64x16_0_1_2 : S1x64x1.BroadcastsInDim S2048x64x16 (![0, 1, 2] : Fin 3 → Fin S2048x64x16.rank)
  bcast_S2048x64x16_S2048x64x1x16_0_1_3 : S2048x64x16.BroadcastsInDim S2048x64x1x16 (![0, 1, 3] : Fin 3 → Fin S2048x64x1x16.rank)
  concatenates_S2048x64x1x16_S2048x64x1x16_S2048x64x2x16_d2 : Shape.Concatenates [S2048x64x1x16, S2048x64x1x16] S2048x64x2x16 2
  shapeCasts_S2048x64x2x16_S2048x2048 : S2048x64x2x16.ShapeCasts S2048x2048
  slices_S11x1024_S1x32_5_0 : S11x1024.Slices ![5, 0] S1x32
  shapeCasts_S1x32_S32 : S1x32.ShapeCasts S32
  bcast_S32_S1x32x1_1 : S32.BroadcastsInDim S1x32x1 (![1] : Fin 1 → Fin S1x32x1.rank)
  shapeCasts_S2048x2048_S2048x32x2x32 : S2048x2048.ShapeCasts S2048x32x2x32
  slices_S2048x32x2x32_S2048x32x1x32_0_0_0_0 : S2048x32x2x32.Slices ![0, 0, 0, 0] S2048x32x1x32
  shapeCasts_S2048x32x1x32_S2048x32x32 : S2048x32x1x32.ShapeCasts S2048x32x32
  slices_S2048x32x2x32_S2048x32x1x32_0_0_1_0 : S2048x32x2x32.Slices ![0, 0, 1, 0] S2048x32x1x32
  bcast_S1x32x1_S2048x32x32_0_1_2 : S1x32x1.BroadcastsInDim S2048x32x32 (![0, 1, 2] : Fin 3 → Fin S2048x32x32.rank)
  bcast_S2048x32x32_S2048x32x1x32_0_1_3 : S2048x32x32.BroadcastsInDim S2048x32x1x32 (![0, 1, 3] : Fin 3 → Fin S2048x32x1x32.rank)
  concatenates_S2048x32x1x32_S2048x32x1x32_S2048x32x2x32_d2 : Shape.Concatenates [S2048x32x1x32, S2048x32x1x32] S2048x32x2x32 2
  shapeCasts_S2048x32x2x32_S2048x2048 : S2048x32x2x32.ShapeCasts S2048x2048
  slices_S11x1024_S1x16_6_0 : S11x1024.Slices ![6, 0] S1x16
  shapeCasts_S1x16_S16 : S1x16.ShapeCasts S16
  bcast_S16_S1x16x1_1 : S16.BroadcastsInDim S1x16x1 (![1] : Fin 1 → Fin S1x16x1.rank)
  shapeCasts_S2048x2048_S2048x16x2x64 : S2048x2048.ShapeCasts S2048x16x2x64
  slices_S2048x16x2x64_S2048x16x1x64_0_0_0_0 : S2048x16x2x64.Slices ![0, 0, 0, 0] S2048x16x1x64
  shapeCasts_S2048x16x1x64_S2048x16x64 : S2048x16x1x64.ShapeCasts S2048x16x64
  slices_S2048x16x2x64_S2048x16x1x64_0_0_1_0 : S2048x16x2x64.Slices ![0, 0, 1, 0] S2048x16x1x64
  bcast_S1x16x1_S2048x16x64_0_1_2 : S1x16x1.BroadcastsInDim S2048x16x64 (![0, 1, 2] : Fin 3 → Fin S2048x16x64.rank)
  bcast_S2048x16x64_S2048x16x1x64_0_1_3 : S2048x16x64.BroadcastsInDim S2048x16x1x64 (![0, 1, 3] : Fin 3 → Fin S2048x16x1x64.rank)
  concatenates_S2048x16x1x64_S2048x16x1x64_S2048x16x2x64_d2 : Shape.Concatenates [S2048x16x1x64, S2048x16x1x64] S2048x16x2x64 2
  shapeCasts_S2048x16x2x64_S2048x2048 : S2048x16x2x64.ShapeCasts S2048x2048
  slices_S11x1024_S1x8_7_0 : S11x1024.Slices ![7, 0] S1x8
  shapeCasts_S1x8_S8 : S1x8.ShapeCasts S8
  bcast_S8_S1x8x1_1 : S8.BroadcastsInDim S1x8x1 (![1] : Fin 1 → Fin S1x8x1.rank)
  shapeCasts_S2048x2048_S2048x8x2x128 : S2048x2048.ShapeCasts S2048x8x2x128
  slices_S2048x8x2x128_S2048x8x1x128_0_0_0_0 : S2048x8x2x128.Slices ![0, 0, 0, 0] S2048x8x1x128
  shapeCasts_S2048x8x1x128_S2048x8x128 : S2048x8x1x128.ShapeCasts S2048x8x128
  slices_S2048x8x2x128_S2048x8x1x128_0_0_1_0 : S2048x8x2x128.Slices ![0, 0, 1, 0] S2048x8x1x128
  bcast_S1x8x1_S2048x8x128_0_1_2 : S1x8x1.BroadcastsInDim S2048x8x128 (![0, 1, 2] : Fin 3 → Fin S2048x8x128.rank)
  bcast_S2048x8x128_S2048x8x1x128_0_1_3 : S2048x8x128.BroadcastsInDim S2048x8x1x128 (![0, 1, 3] : Fin 3 → Fin S2048x8x1x128.rank)
  concatenates_S2048x8x1x128_S2048x8x1x128_S2048x8x2x128_d2 : Shape.Concatenates [S2048x8x1x128, S2048x8x1x128] S2048x8x2x128 2
  shapeCasts_S2048x8x2x128_S2048x2048 : S2048x8x2x128.ShapeCasts S2048x2048
  slices_S11x1024_S1x4_8_0 : S11x1024.Slices ![8, 0] S1x4
  shapeCasts_S1x4_S4 : S1x4.ShapeCasts S4
  bcast_S4_S1x4x1_1 : S4.BroadcastsInDim S1x4x1 (![1] : Fin 1 → Fin S1x4x1.rank)
  shapeCasts_S2048x2048_S2048x4x2x256 : S2048x2048.ShapeCasts S2048x4x2x256
  slices_S2048x4x2x256_S2048x4x1x256_0_0_0_0 : S2048x4x2x256.Slices ![0, 0, 0, 0] S2048x4x1x256
  shapeCasts_S2048x4x1x256_S2048x4x256 : S2048x4x1x256.ShapeCasts S2048x4x256
  slices_S2048x4x2x256_S2048x4x1x256_0_0_1_0 : S2048x4x2x256.Slices ![0, 0, 1, 0] S2048x4x1x256
  bcast_S1x4x1_S2048x4x256_0_1_2 : S1x4x1.BroadcastsInDim S2048x4x256 (![0, 1, 2] : Fin 3 → Fin S2048x4x256.rank)
  bcast_S2048x4x256_S2048x4x1x256_0_1_3 : S2048x4x256.BroadcastsInDim S2048x4x1x256 (![0, 1, 3] : Fin 3 → Fin S2048x4x1x256.rank)
  concatenates_S2048x4x1x256_S2048x4x1x256_S2048x4x2x256_d2 : Shape.Concatenates [S2048x4x1x256, S2048x4x1x256] S2048x4x2x256 2
  shapeCasts_S2048x4x2x256_S2048x2048 : S2048x4x2x256.ShapeCasts S2048x2048
  slices_S11x1024_S1x2_9_0 : S11x1024.Slices ![9, 0] S1x2
  shapeCasts_S1x2_S2 : S1x2.ShapeCasts S2
  bcast_S2_S1x2x1_1 : S2.BroadcastsInDim S1x2x1 (![1] : Fin 1 → Fin S1x2x1.rank)
  shapeCasts_S2048x2048_S2048x2x2x512 : S2048x2048.ShapeCasts S2048x2x2x512
  slices_S2048x2x2x512_S2048x2x1x512_0_0_0_0 : S2048x2x2x512.Slices ![0, 0, 0, 0] S2048x2x1x512
  shapeCasts_S2048x2x1x512_S2048x2x512 : S2048x2x1x512.ShapeCasts S2048x2x512
  slices_S2048x2x2x512_S2048x2x1x512_0_0_1_0 : S2048x2x2x512.Slices ![0, 0, 1, 0] S2048x2x1x512
  bcast_S1x2x1_S2048x2x512_0_1_2 : S1x2x1.BroadcastsInDim S2048x2x512 (![0, 1, 2] : Fin 3 → Fin S2048x2x512.rank)
  bcast_S2048x2x512_S2048x2x1x512_0_1_3 : S2048x2x512.BroadcastsInDim S2048x2x1x512 (![0, 1, 3] : Fin 3 → Fin S2048x2x1x512.rank)
  concatenates_S2048x2x1x512_S2048x2x1x512_S2048x2x2x512_d2 : Shape.Concatenates [S2048x2x1x512, S2048x2x1x512] S2048x2x2x512 2
  shapeCasts_S2048x2x2x512_S2048x2048 : S2048x2x2x512.ShapeCasts S2048x2048
  slices_S11x1024_S1x1_10_0 : S11x1024.Slices ![10, 0] S1x1
  shapeCasts_S1x1_S1 : S1x1.ShapeCasts S1
  bcast_S1_S1x1x1_1 : S1.BroadcastsInDim S1x1x1 (![1] : Fin 1 → Fin S1x1x1.rank)
  shapeCasts_S2048x2048_S2048x1x2x1024 : S2048x2048.ShapeCasts S2048x1x2x1024
  slices_S2048x1x2x1024_S2048x1x1x1024_0_0_0_0 : S2048x1x2x1024.Slices ![0, 0, 0, 0] S2048x1x1x1024
  shapeCasts_S2048x1x1x1024_S2048x1x1024 : S2048x1x1x1024.ShapeCasts S2048x1x1024
  slices_S2048x1x2x1024_S2048x1x1x1024_0_0_1_0 : S2048x1x2x1024.Slices ![0, 0, 1, 0] S2048x1x1x1024
  bcast_S1x1x1_S2048x1x1024_0_1_2 : S1x1x1.BroadcastsInDim S2048x1x1024 (![0, 1, 2] : Fin 3 → Fin S2048x1x1024.rank)
  bcast_S2048x1x1024_S2048x1x1x1024_0_1_3 : S2048x1x1024.BroadcastsInDim S2048x1x1x1024 (![0, 1, 3] : Fin 3 → Fin S2048x1x1x1024.rank)
  concatenates_S2048x1x1x1024_S2048x1x1x1024_S2048x1x2x1024_d2 : Shape.Concatenates [S2048x1x1x1024, S2048x1x1x1024] S2048x1x2x1024 2
  shapeCasts_S2048x1x2x1024_S2048x2048 : S2048x1x2x1024.ShapeCasts S2048x2048
  shapeCasts_S2048_S1x2048 : S2048.ShapeCasts S1x2048
  inb_S256x2048_S256x2048_0_0 : ∀ a, (![0, 0] : Fin 2 → Nat) a + S256x2048.size a ≤ S256x2048.size a
  h_S256x2048 : 0 < S256x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  dot_S2048x2048_S2048x2048_S2048x2048_1_0_0_1_n_n_wf : DotDims.WF S2048x2048 S2048x2048 S2048x2048 [1] [0] [0] [1] [] []
  dot_S256x2048_S2048x2048_S256x2048_1_0_0_1_n_n_wf : DotDims.WF S256x2048 S2048x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S16384x2048.size a
  hwx0_0 : ∀ i : grid0.Coords, EltTy.bits .f32 = 32 ∨ (Rect.block (s := S16384x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .bf16 = 32 ∨ (Rect.block (s := S2048x2048) S2048x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S16384x2048.size a
  hwx0_4 : ∀ i : grid0.Coords, EltTy.bits .f32 = 32 ∨ (Rect.block (s := S16384x2048) S256x2048.size (cc0_transform_4 i) (hinb0_4 i)).WholeWords (EltTy.packing .f32)

variable [Facts₀]

def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf
def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v296) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v297) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v298) S256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S2048x2048 : Shape := ⟨2, ![2048, 2048]⟩
abbrev S2048 : Shape := ⟨1, ![2048]⟩
abbrev S11x1024 : Shape := ⟨2, ![11, 1024]⟩
abbrev S1x1024 : Shape := ⟨2, ![1, 1024]⟩
abbrev S1024 : Shape := ⟨1, ![1024]⟩
abbrev S1x1024x1 : Shape := ⟨3, ![1, 1024, 1]⟩
abbrev S16384x1024x2x1 : Shape := ⟨4, ![16384, 1024, 2, 1]⟩
abbrev S16384x1024x1x1 : Shape := ⟨4, ![16384, 1024, 1, 1]⟩
abbrev S16384x1024x1 : Shape := ⟨3, ![16384, 1024, 1]⟩
abbrev S1x512 : Shape := ⟨2, ![1, 512]⟩
abbrev S512 : Shape := ⟨1, ![512]⟩
abbrev S1x512x1 : Shape := ⟨3, ![1, 512, 1]⟩
abbrev S16384x512x2x2 : Shape := ⟨4, ![16384, 512, 2, 2]⟩
abbrev S16384x512x1x2 : Shape := ⟨4, ![16384, 512, 1, 2]⟩
abbrev S16384x512x2 : Shape := ⟨3, ![16384, 512, 2]⟩
abbrev S1x256 : Shape := ⟨2, ![1, 256]⟩
abbrev S256 : Shape := ⟨1, ![256]⟩
abbrev S1x256x1 : Shape := ⟨3, ![1, 256, 1]⟩
abbrev S16384x256x2x4 : Shape := ⟨4, ![16384, 256, 2, 4]⟩
abbrev S16384x256x1x4 : Shape := ⟨4, ![16384, 256, 1, 4]⟩
abbrev S16384x256x4 : Shape := ⟨3, ![16384, 256, 4]⟩
abbrev S1x128 : Shape := ⟨2, ![1, 128]⟩
abbrev S128 : Shape := ⟨1, ![128]⟩
abbrev S1x128x1 : Shape := ⟨3, ![1, 128, 1]⟩
abbrev S16384x128x2x8 : Shape := ⟨4, ![16384, 128, 2, 8]⟩
abbrev S16384x128x1x8 : Shape := ⟨4, ![16384, 128, 1, 8]⟩
abbrev S16384x128x8 : Shape := ⟨3, ![16384, 128, 8]⟩
abbrev S1x64 : Shape := ⟨2, ![1, 64]⟩
abbrev S64 : Shape := ⟨1, ![64]⟩
abbrev S1x64x1 : Shape := ⟨3, ![1, 64, 1]⟩
abbrev S16384x64x2x16 : Shape := ⟨4, ![16384, 64, 2, 16]⟩
abbrev S16384x64x1x16 : Shape := ⟨4, ![16384, 64, 1, 16]⟩
abbrev S16384x64x16 : Shape := ⟨3, ![16384, 64, 16]⟩
abbrev S1x32 : Shape := ⟨2, ![1, 32]⟩
abbrev S32 : Shape := ⟨1, ![32]⟩
abbrev S1x32x1 : Shape := ⟨3, ![1, 32, 1]⟩
abbrev S16384x32x2x32 : Shape := ⟨4, ![16384, 32, 2, 32]⟩
abbrev S16384x32x1x32 : Shape := ⟨4, ![16384, 32, 1, 32]⟩
abbrev S16384x32x32 : Shape := ⟨3, ![16384, 32, 32]⟩
abbrev S1x16 : Shape := ⟨2, ![1, 16]⟩
abbrev S16 : Shape := ⟨1, ![16]⟩
abbrev S1x16x1 : Shape := ⟨3, ![1, 16, 1]⟩
abbrev S16384x16x2x64 : Shape := ⟨4, ![16384, 16, 2, 64]⟩
abbrev S16384x16x1x64 : Shape := ⟨4, ![16384, 16, 1, 64]⟩
abbrev S16384x16x64 : Shape := ⟨3, ![16384, 16, 64]⟩
abbrev S1x8 : Shape := ⟨2, ![1, 8]⟩
abbrev S8 : Shape := ⟨1, ![8]⟩
abbrev S1x8x1 : Shape := ⟨3, ![1, 8, 1]⟩
abbrev S16384x8x2x128 : Shape := ⟨4, ![16384, 8, 2, 128]⟩
abbrev S16384x8x1x128 : Shape := ⟨4, ![16384, 8, 1, 128]⟩
abbrev S16384x8x128 : Shape := ⟨3, ![16384, 8, 128]⟩
abbrev S1x4 : Shape := ⟨2, ![1, 4]⟩
abbrev S4 : Shape := ⟨1, ![4]⟩
abbrev S1x4x1 : Shape := ⟨3, ![1, 4, 1]⟩
abbrev S16384x4x2x256 : Shape := ⟨4, ![16384, 4, 2, 256]⟩
abbrev S16384x4x1x256 : Shape := ⟨4, ![16384, 4, 1, 256]⟩
abbrev S16384x4x256 : Shape := ⟨3, ![16384, 4, 256]⟩
abbrev S1x2 : Shape := ⟨2, ![1, 2]⟩
abbrev S2 : Shape := ⟨1, ![2]⟩
abbrev S1x2x1 : Shape := ⟨3, ![1, 2, 1]⟩
abbrev S16384x2x2x512 : Shape := ⟨4, ![16384, 2, 2, 512]⟩
abbrev S16384x2x1x512 : Shape := ⟨4, ![16384, 2, 1, 512]⟩
abbrev S16384x2x512 : Shape := ⟨3, ![16384, 2, 512]⟩
abbrev S1x1 : Shape := ⟨2, ![1, 1]⟩
abbrev S1 : Shape := ⟨1, ![1]⟩
abbrev S1x1x1 : Shape := ⟨3, ![1, 1, 1]⟩
abbrev S16384x1x2x1024 : Shape := ⟨4, ![16384, 1, 2, 1024]⟩
abbrev S16384x1x1x1024 : Shape := ⟨4, ![16384, 1, 1, 1024]⟩
abbrev S16384x1x1024 : Shape := ⟨3, ![16384, 1, 1024]⟩
abbrev S1x2048 : Shape := ⟨2, ![1, 2048]⟩

abbrev nBuf : Space → Nat
  | .hbm => 299
  | .vmem => 0
  | .smem => 0
  | _ => 0

abbrev hbmTy0_0 (i : Nat) : BufTy := match i % 128 with
  | 0 => ⟨S16384x2048, .f32⟩
  | 1 => ⟨S2048x2048, .f32⟩
  | 2 => ⟨S2048x2048, .f32⟩
  | 3 => ⟨S2048, .f32⟩
  | 4 => ⟨S11x1024, .f32⟩
  | 5 => ⟨S11x1024, .f32⟩
  | 6 => ⟨S2048x2048, .f32⟩
  | 7 => ⟨S16384x2048, .f32⟩
  | 8 => ⟨S1x1024, .f32⟩
  | 9 => ⟨S1024, .f32⟩
  | 10 => ⟨S1x1024x1, .f32⟩
  | 11 => ⟨S1x1024, .f32⟩
  | 12 => ⟨S1024, .f32⟩
  | 13 => ⟨S1x1024x1, .f32⟩
  | 14 => ⟨S16384x1024x2x1, .f32⟩
  | 15 => ⟨S16384x1024x1x1, .f32⟩
  | 16 => ⟨S16384x1024x1, .f32⟩
  | 17 => ⟨S16384x1024x1x1, .f32⟩
  | 18 => ⟨S16384x1024x1, .f32⟩
  | 19 => ⟨S16384x1024x1, .f32⟩
  | 20 => ⟨S16384x1024x1, .f32⟩
  | 21 => ⟨S16384x1024x1, .f32⟩
  | 22 => ⟨S16384x1024x1, .f32⟩
  | 23 => ⟨S16384x1024x1, .f32⟩
  | 24 => ⟨S1x1024x1, .f32⟩
  | 25 => ⟨S16384x1024x1, .f32⟩
  | 26 => ⟨S16384x1024x1, .f32⟩
  | 27 => ⟨S16384x1024x1, .f32⟩
  | 28 => ⟨S16384x1024x1, .f32⟩
  | 29 => ⟨S16384x1024x1, .f32⟩
  | 30 => ⟨S16384x1024x1x1, .f32⟩
  | 31 => ⟨S16384x1024x1x1, .f32⟩
  | 32 => ⟨S16384x1024x2x1, .f32⟩
  | 33 => ⟨S16384x2048, .f32⟩
  | 34 => ⟨S1x512, .f32⟩
  | 35 => ⟨S512, .f32⟩
  | 36 => ⟨S1x512x1, .f32⟩
  | 37 => ⟨S1x512, .f32⟩
  | 38 => ⟨S512, .f32⟩
  | 39 => ⟨S1x512x1, .f32⟩
  | 40 => ⟨S16384x512x2x2, .f32⟩
  | 41 => ⟨S16384x512x1x2, .f32⟩
  | 42 => ⟨S16384x512x2, .f32⟩
  | 43 => ⟨S16384x512x1x2, .f32⟩
  | 44 => ⟨S16384x512x2, .f32⟩
  | 45 => ⟨S16384x512x2, .f32⟩
  | 46 => ⟨S16384x512x2, .f32⟩
  | 47 => ⟨S16384x512x2, .f32⟩
  | 48 => ⟨S16384x512x2, .f32⟩
  | 49 => ⟨S16384x512x2, .f32⟩
  | 50 => ⟨S1x512x1, .f32⟩
  | 51 => ⟨S16384x512x2, .f32⟩
  | 52 => ⟨S16384x512x2, .f32⟩
  | 53 => ⟨S16384x512x2, .f32⟩
  | 54 => ⟨S16384x512x2, .f32⟩
  | 55 => ⟨S16384x512x2, .f32⟩
  | 56 => ⟨S16384x512x1x2, .f32⟩
  | 57 => ⟨S16384x512x1x2, .f32⟩
  | 58 => ⟨S16384x512x2x2, .f32⟩
  | 59 => ⟨S16384x2048, .f32⟩
  | 60 => ⟨S1x256, .f32⟩
  | 61 => ⟨S256, .f32⟩
  | 62 => ⟨S1x256x1, .f32⟩
  | 63 => ⟨S1x256, .f32⟩
  | 64 => ⟨S256, .f32⟩
  | 65 => ⟨S1x256x1, .f32⟩
  | 66 => ⟨S16384x256x2x4, .f32⟩
  | 67 => ⟨S16384x256x1x4, .f32⟩
  | 68 => ⟨S16384x256x4, .f32⟩
  | 69 => ⟨S16384x256x1x4, .f32⟩
  | 70 => ⟨S16384x256x4, .f32⟩
  | 71 => ⟨S16384x256x4, .f32⟩
  | 72 => ⟨S16384x256x4, .f32⟩
  | 73 => ⟨S16384x256x4, .f32⟩
  | 74 => ⟨S16384x256x4, .f32⟩
  | 75 => ⟨S16384x256x4, .f32⟩
  | 76 => ⟨S1x256x1, .f32⟩
  | 77 => ⟨S16384x256x4, .f32⟩
  | 78 => ⟨S16384x256x4, .f32⟩
  | 79 => ⟨S16384x256x4, .f32⟩
  | 80 => ⟨S16384x256x4, .f32⟩
  | 81 => ⟨S16384x256x4, .f32⟩
  | 82 => ⟨S16384x256x1x4, .f32⟩
  | 83 => ⟨S16384x256x1x4, .f32⟩
  | 84 => ⟨S16384x256x2x4, .f32⟩
  | 85 => ⟨S16384x2048, .f32⟩
  | 86 => ⟨S1x128, .f32⟩
  | 87 => ⟨S128, .f32⟩
  | 88 => ⟨S1x128x1, .f32⟩
  | 89 => ⟨S1x128, .f32⟩
  | 90 => ⟨S128, .f32⟩
  | 91 => ⟨S1x128x1, .f32⟩
  | 92 => ⟨S16384x128x2x8, .f32⟩
  | 93 => ⟨S16384x128x1x8, .f32⟩
  | 94 => ⟨S16384x128x8, .f32⟩
  | 95 => ⟨S16384x128x1x8, .f32⟩
  | 96 => ⟨S16384x128x8, .f32⟩
  | 97 => ⟨S16384x128x8, .f32⟩
  | 98 => ⟨S16384x128x8, .f32⟩
  | 99 => ⟨S16384x128x8, .f32⟩
  | 100 => ⟨S16384x128x8, .f32⟩
  | 101 => ⟨S16384x128x8, .f32⟩
  | 102 => ⟨S1x128x1, .f32⟩
  | 103 => ⟨S16384x128x8, .f32⟩
  | 104 => ⟨S16384x128x8, .f32⟩
  | 105 => ⟨S16384x128x8, .f32⟩
  | 106 => ⟨S16384x128x8, .f32⟩
  | 107 => ⟨S16384x128x8, .f32⟩
  | 108 => ⟨S16384x128x1x8, .f32⟩
  | 109 => ⟨S16384x128x1x8, .f32⟩
  | 110 => ⟨S16384x128x2x8, .f32⟩
  | 111 => ⟨S16384x2048, .f32⟩
  | 112 => ⟨S1x64, .f32⟩
  | 113 => ⟨S64, .f32⟩
  | 114 => ⟨S1x64x1, .f32⟩
  | 115 => ⟨S1x64, .f32⟩
  | 116 => ⟨S64, .f32⟩
  | 117 => ⟨S1x64x1, .f32⟩
  | 118 => ⟨S16384x64x2x16, .f32⟩
  | 119 => ⟨S16384x64x1x16, .f32⟩
  | 120 => ⟨S16384x64x16, .f32⟩
  | 121 => ⟨S16384x64x1x16, .f32⟩
  | 122 => ⟨S16384x64x16, .f32⟩
  | 123 => ⟨S16384x64x16, .f32⟩
  | 124 => ⟨S16384x64x16, .f32⟩
  | 125 => ⟨S16384x64x16, .f32⟩
  | 126 => ⟨S16384x64x16, .f32⟩
  | 127 => ⟨S16384x64x16, .f32⟩
  | _ => ⟨S16384x2048, .f32⟩

abbrev hbmTy0_1 (i : Nat) : BufTy := match i % 128 with
  | 0 => ⟨S1x64x1, .f32⟩
  | 1 => ⟨S16384x64x16, .f32⟩
  | 2 => ⟨S16384x64x16, .f32⟩
  | 3 => ⟨S16384x64x16, .f32⟩
  | 4 => ⟨S16384x64x16, .f32⟩
  | 5 => ⟨S16384x64x16, .f32⟩
  | 6 => ⟨S16384x64x1x16, .f32⟩
  | 7 => ⟨S16384x64x1x16, .f32⟩
  | 8 => ⟨S16384x64x2x16, .f32⟩
  | 9 => ⟨S16384x2048, .f32⟩
  | 10 => ⟨S1x32, .f32⟩
  | 11 => ⟨S32, .f32⟩
  | 12 => ⟨S1x32x1, .f32⟩
  | 13 => ⟨S1x32, .f32⟩
  | 14 => ⟨S32, .f32⟩
  | 15 => ⟨S1x32x1, .f32⟩
  | 16 => ⟨S16384x32x2x32, .f32⟩
  | 17 => ⟨S16384x32x1x32, .f32⟩
  | 18 => ⟨S16384x32x32, .f32⟩
  | 19 => ⟨S16384x32x1x32, .f32⟩
  | 20 => ⟨S16384x32x32, .f32⟩
  | 21 => ⟨S16384x32x32, .f32⟩
  | 22 => ⟨S16384x32x32, .f32⟩
  | 23 => ⟨S16384x32x32, .f32⟩
  | 24 => ⟨S16384x32x32, .f32⟩
  | 25 => ⟨S16384x32x32, .f32⟩
  | 26 => ⟨S1x32x1, .f32⟩
  | 27 => ⟨S16384x32x32, .f32⟩
  | 28 => ⟨S16384x32x32, .f32⟩
  | 29 => ⟨S16384x32x32, .f32⟩
  | 30 => ⟨S16384x32x32, .f32⟩
  | 31 => ⟨S16384x32x32, .f32⟩
  | 32 => ⟨S16384x32x1x32, .f32⟩
  | 33 => ⟨S16384x32x1x32, .f32⟩
  | 34 => ⟨S16384x32x2x32, .f32⟩
  | 35 => ⟨S16384x2048, .f32⟩
  | 36 => ⟨S1x16, .f32⟩
  | 37 => ⟨S16, .f32⟩
  | 38 => ⟨S1x16x1, .f32⟩
  | 39 => ⟨S1x16, .f32⟩
  | 40 => ⟨S16, .f32⟩
  | 41 => ⟨S1x16x1, .f32⟩
  | 42 => ⟨S16384x16x2x64, .f32⟩
  | 43 => ⟨S16384x16x1x64, .f32⟩
  | 44 => ⟨S16384x16x64, .f32⟩
  | 45 => ⟨S16384x16x1x64, .f32⟩
  | 46 => ⟨S16384x16x64, .f32⟩
  | 47 => ⟨S16384x16x64, .f32⟩
  | 48 => ⟨S16384x16x64, .f32⟩
  | 49 => ⟨S16384x16x64, .f32⟩
  | 50 => ⟨S16384x16x64, .f32⟩
  | 51 => ⟨S16384x16x64, .f32⟩
  | 52 => ⟨S1x16x1, .f32⟩
  | 53 => ⟨S16384x16x64, .f32⟩
  | 54 => ⟨S16384x16x64, .f32⟩
  | 55 => ⟨S16384x16x64, .f32⟩
  | 56 => ⟨S16384x16x64, .f32⟩
  | 57 => ⟨S16384x16x64, .f32⟩
  | 58 => ⟨S16384x16x1x64, .f32⟩
  | 59 => ⟨S16384x16x1x64, .f32⟩
  | 60 => ⟨S16384x16x2x64, .f32⟩
  | 61 => ⟨S16384x2048, .f32⟩
  | 62 => ⟨S1x8, .f32⟩
  | 63 => ⟨S8, .f32⟩
  | 64 => ⟨S1x8x1, .f32⟩
  | 65 => ⟨S1x8, .f32⟩
  | 66 => ⟨S8, .f32⟩
  | 67 => ⟨S1x8x1, .f32⟩
  | 68 => ⟨S16384x8x2x128, .f32⟩
  | 69 => ⟨S16384x8x1x128, .f32⟩
  | 70 => ⟨S16384x8x128, .f32⟩
  | 71 => ⟨S16384x8x1x128, .f32⟩
  | 72 => ⟨S16384x8x128, .f32⟩
  | 73 => ⟨S16384x8x128, .f32⟩
  | 74 => ⟨S16384x8x128, .f32⟩
  | 75 => ⟨S16384x8x128, .f32⟩
  | 76 => ⟨S16384x8x128, .f32⟩
  | 77 => ⟨S16384x8x128, .f32⟩
  | 78 => ⟨S1x8x1, .f32⟩
  | 79 => ⟨S16384x8x128, .f32⟩
  | 80 => ⟨S16384x8x128, .f32⟩
  | 81 => ⟨S16384x8x128, .f32⟩
  | 82 => ⟨S16384x8x128, .f32⟩
  | 83 => ⟨S16384x8x128, .f32⟩
  | 84 => ⟨S16384x8x1x128, .f32⟩
  | 85 => ⟨S16384x8x1x128, .f32⟩
  | 86 => ⟨S16384x8x2x128, .f32⟩
  | 87 => ⟨S16384x2048, .f32⟩
  | 88 => ⟨S1x4, .f32⟩
  | 89 => ⟨S4, .f32⟩
  | 90 => ⟨S1x4x1, .f32⟩
  | 91 => ⟨S1x4, .f32⟩
  | 92 => ⟨S4, .f32⟩
  | 93 => ⟨S1x4x1, .f32⟩
  | 94 => ⟨S16384x4x2x256, .f32⟩
  | 95 => ⟨S16384x4x1x256, .f32⟩
  | 96 => ⟨S16384x4x256, .f32⟩
  | 97 => ⟨S16384x4x1x256, .f32⟩
  | 98 => ⟨S16384x4x256, .f32⟩
  | 99 => ⟨S16384x4x256, .f32⟩
  | 100 => ⟨S16384x4x256, .f32⟩
  | 101 => ⟨S16384x4x256, .f32⟩
  | 102 => ⟨S16384x4x256, .f32⟩
  | 103 => ⟨S16384x4x256, .f32⟩
  | 104 => ⟨S1x4x1, .f32⟩
  | 105 => ⟨S16384x4x256, .f32⟩
  | 106 => ⟨S16384x4x256, .f32⟩
  | 107 => ⟨S16384x4x256, .f32⟩
  | 108 => ⟨S16384x4x256, .f32⟩
  | 109 => ⟨S16384x4x256, .f32⟩
  | 110 => ⟨S16384x4x1x256, .f32⟩
  | 111 => ⟨S16384x4x1x256, .f32⟩
  | 112 => ⟨S16384x4x2x256, .f32⟩
  | 113 => ⟨S16384x2048, .f32⟩
  | 114 => ⟨S1x2, .f32⟩
  | 115 => ⟨S2, .f32⟩
  | 116 => ⟨S1x2x1, .f32⟩
  | 117 => ⟨S1x2, .f32⟩
  | 118 => ⟨S2, .f32⟩
  | 119 => ⟨S1x2x1, .f32⟩
  | 120 => ⟨S16384x2x2x512, .f32⟩
  | 121 => ⟨S16384x2x1x512, .f32⟩
  | 122 => ⟨S16384x2x512, .f32⟩
  | 123 => ⟨S16384x2x1x512, .f32⟩
  | 124 => ⟨S16384x2x512, .f32⟩
  | 125 => ⟨S16384x2x512, .f32⟩
  | 126 => ⟨S16384x2x512, .f32⟩
  | 127 => ⟨S16384x2x512, .f32⟩
  | _ => ⟨S16384x2048, .f32⟩

abbrev hbmTy0_2 (i : Nat) : BufTy := match i % 128 with
  | 0 => ⟨S16384x2x512, .f32⟩
  | 1 => ⟨S16384x2x512, .f32⟩
  | 2 => ⟨S1x2x1, .f32⟩
  | 3 => ⟨S16384x2x512, .f32⟩
  | 4 => ⟨S16384x2x512, .f32⟩
  | 5 => ⟨S16384x2x512, .f32⟩
  | 6 => ⟨S16384x2x512, .f32⟩
  | 7 => ⟨S16384x2x512, .f32⟩
  | 8 => ⟨S16384x2x1x512, .f32⟩
  | 9 => ⟨S16384x2x1x512, .f32⟩
  | 10 => ⟨S16384x2x2x512, .f32⟩
  | 11 => ⟨S16384x2048, .f32⟩
  | 12 => ⟨S1x1, .f32⟩
  | 13 => ⟨S1, .f32⟩
  | 14 => ⟨S1x1x1, .f32⟩
  | 15 => ⟨S1x1, .f32⟩
  | 16 => ⟨S1, .f32⟩
  | 17 => ⟨S1x1x1, .f32⟩
  | 18 => ⟨S16384x1x2x1024, .f32⟩
  | 19 => ⟨S16384x1x1x1024, .f32⟩
  | 20 => ⟨S16384x1x1024, .f32⟩
  | 21 => ⟨S16384x1x1x1024, .f32⟩
  | 22 => ⟨S16384x1x1024, .f32⟩
  | 23 => ⟨S16384x1x1024, .f32⟩
  | 24 => ⟨S16384x1x1024, .f32⟩
  | 25 => ⟨S16384x1x1024, .f32⟩
  | 26 => ⟨S16384x1x1024, .f32⟩
  | 27 => ⟨S16384x1x1024, .f32⟩
  | 28 => ⟨S1x1x1, .f32⟩
  | 29 => ⟨S16384x1x1024, .f32⟩
  | 30 => ⟨S16384x1x1024, .f32⟩
  | 31 => ⟨S16384x1x1024, .f32⟩
  | 32 => ⟨S16384x1x1024, .f32⟩
  | 33 => ⟨S16384x1x1024, .f32⟩
  | 34 => ⟨S16384x1x1x1024, .f32⟩
  | 35 => ⟨S16384x1x1x1024, .f32⟩
  | 36 => ⟨S16384x1x2x1024, .f32⟩
  | 37 => ⟨S16384x2048, .f32⟩
  | 38 => ⟨S2048x2048, .f32⟩
  | 39 => ⟨S16384x2048, .f32⟩
  | 40 => ⟨S1x2048, .f32⟩
  | 41 => ⟨S16384x2048, .f32⟩
  | 42 => ⟨S16384x2048, .f32⟩
  | _ => ⟨S16384x2048, .f32⟩

abbrev hbmTy (i : Nat) : BufTy := match i / 128 with
  | 0 => hbmTy0_0 i
  | 1 => hbmTy0_1 i
  | 2 => hbmTy0_2 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩
abbrev main_v90 : Ref sig .tc := ⟨.hbm, 96, rfl⟩
abbrev main_v91 : Ref sig .tc := ⟨.hbm, 97, rfl⟩
abbrev main_v92 : Ref sig .tc := ⟨.hbm, 98, rfl⟩
abbrev main_v93 : Ref sig .tc := ⟨.hbm, 99, rfl⟩
abbrev main_v94 : Ref sig .tc := ⟨.hbm, 100, rfl⟩
abbrev main_v95 : Ref sig .tc := ⟨.hbm, 101, rfl⟩
abbrev main_v96 : Ref sig .tc := ⟨.hbm, 102, rfl⟩
abbrev main_v97 : Ref sig .tc := ⟨.hbm, 103, rfl⟩
abbrev main_v98 : Ref sig .tc := ⟨.hbm, 104, rfl⟩
abbrev main_v99 : Ref sig .tc := ⟨.hbm, 105, rfl⟩
abbrev main_v100 : Ref sig .tc := ⟨.hbm, 106, rfl⟩
abbrev main_v101 : Ref sig .tc := ⟨.hbm, 107, rfl⟩
abbrev main_v102 : Ref sig .tc := ⟨.hbm, 108, rfl⟩
abbrev main_v103 : Ref sig .tc := ⟨.hbm, 109, rfl⟩
abbrev main_v104 : Ref sig .tc := ⟨.hbm, 110, rfl⟩
abbrev main_v105 : Ref sig .tc := ⟨.hbm, 111, rfl⟩
abbrev main_v106 : Ref sig .tc := ⟨.hbm, 112, rfl⟩
abbrev main_v107 : Ref sig .tc := ⟨.hbm, 113, rfl⟩
abbrev main_v108 : Ref sig .tc := ⟨.hbm, 114, rfl⟩
abbrev main_v109 : Ref sig .tc := ⟨.hbm, 115, rfl⟩
abbrev main_v110 : Ref sig .tc := ⟨.hbm, 116, rfl⟩
abbrev main_v111 : Ref sig .tc := ⟨.hbm, 117, rfl⟩
abbrev main_v112 : Ref sig .tc := ⟨.hbm, 118, rfl⟩
abbrev main_v113 : Ref sig .tc := ⟨.hbm, 119, rfl⟩
abbrev main_v114 : Ref sig .tc := ⟨.hbm, 120, rfl⟩
abbrev main_v115 : Ref sig .tc := ⟨.hbm, 121, rfl⟩
abbrev main_v116 : Ref sig .tc := ⟨.hbm, 122, rfl⟩
abbrev main_v117 : Ref sig .tc := ⟨.hbm, 123, rfl⟩
abbrev main_v118 : Ref sig .tc := ⟨.hbm, 124, rfl⟩
abbrev main_v119 : Ref sig .tc := ⟨.hbm, 125, rfl⟩
abbrev main_v120 : Ref sig .tc := ⟨.hbm, 126, rfl⟩
abbrev main_v121 : Ref sig .tc := ⟨.hbm, 127, rfl⟩
abbrev main_v122 : Ref sig .tc := ⟨.hbm, 128, rfl⟩
abbrev main_v123 : Ref sig .tc := ⟨.hbm, 129, rfl⟩
abbrev main_v124 : Ref sig .tc := ⟨.hbm, 130, rfl⟩
abbrev main_v125 : Ref sig .tc := ⟨.hbm, 131, rfl⟩
abbrev main_v126 : Ref sig .tc := ⟨.hbm, 132, rfl⟩
abbrev main_v127 : Ref sig .tc := ⟨.hbm, 133, rfl⟩
abbrev main_v128 : Ref sig .tc := ⟨.hbm, 134, rfl⟩
abbrev main_v129 : Ref sig .tc := ⟨.hbm, 135, rfl⟩
abbrev main_v130 : Ref sig .tc := ⟨.hbm, 136, rfl⟩
abbrev main_v131 : Ref sig .tc := ⟨.hbm, 137, rfl⟩
abbrev main_v132 : Ref sig .tc := ⟨.hbm, 138, rfl⟩
abbrev main_v133 : Ref sig .tc := ⟨.hbm, 139, rfl⟩
abbrev main_v134 : Ref sig .tc := ⟨.hbm, 140, rfl⟩
abbrev main_v135 : Ref sig .tc := ⟨.hbm, 141, rfl⟩
abbrev main_v136 : Ref sig .tc := ⟨.hbm, 142, rfl⟩
abbrev main_v137 : Ref sig .tc := ⟨.hbm, 143, rfl⟩
abbrev main_v138 : Ref sig .tc := ⟨.hbm, 144, rfl⟩
abbrev main_v139 : Ref sig .tc := ⟨.hbm, 145, rfl⟩
abbrev main_v140 : Ref sig .tc := ⟨.hbm, 146, rfl⟩
abbrev main_v141 : Ref sig .tc := ⟨.hbm, 147, rfl⟩
abbrev main_v142 : Ref sig .tc := ⟨.hbm, 148, rfl⟩
abbrev main_v143 : Ref sig .tc := ⟨.hbm, 149, rfl⟩
abbrev main_v144 : Ref sig .tc := ⟨.hbm, 150, rfl⟩
abbrev main_v145 : Ref sig .tc := ⟨.hbm, 151, rfl⟩
abbrev main_v146 : Ref sig .tc := ⟨.hbm, 152, rfl⟩
abbrev main_v147 : Ref sig .tc := ⟨.hbm, 153, rfl⟩
abbrev main_v148 : Ref sig .tc := ⟨.hbm, 154, rfl⟩
abbrev main_v149 : Ref sig .tc := ⟨.hbm, 155, rfl⟩
abbrev main_v150 : Ref sig .tc := ⟨.hbm, 156, rfl⟩
abbrev main_v151 : Ref sig .tc := ⟨.hbm, 157, rfl⟩
abbrev main_v152 : Ref sig .tc := ⟨.hbm, 158, rfl⟩
abbrev main_v153 : Ref sig .tc := ⟨.hbm, 159, rfl⟩
abbrev main_v154 : Ref sig .tc := ⟨.hbm, 160, rfl⟩
abbrev main_v155 : Ref sig .tc := ⟨.hbm, 161, rfl⟩
abbrev main_v156 : Ref sig .tc := ⟨.hbm, 162, rfl⟩
abbrev main_v157 : Ref sig .tc := ⟨.hbm, 163, rfl⟩
abbrev main_v158 : Ref sig .tc := ⟨.hbm, 164, rfl⟩
abbrev main_v159 : Ref sig .tc := ⟨.hbm, 165, rfl⟩
abbrev main_v160 : Ref sig .tc := ⟨.hbm, 166, rfl⟩
abbrev main_v161 : Ref sig .tc := ⟨.hbm, 167, rfl⟩
abbrev main_v162 : Ref sig .tc := ⟨.hbm, 168, rfl⟩
abbrev main_v163 : Ref sig .tc := ⟨.hbm, 169, rfl⟩
abbrev main_v164 : Ref sig .tc := ⟨.hbm, 170, rfl⟩
abbrev main_v165 : Ref sig .tc := ⟨.hbm, 171, rfl⟩
abbrev main_v166 : Ref sig .tc := ⟨.hbm, 172, rfl⟩
abbrev main_v167 : Ref sig .tc := ⟨.hbm, 173, rfl⟩
abbrev main_v168 : Ref sig .tc := ⟨.hbm, 174, rfl⟩
abbrev main_v169 : Ref sig .tc := ⟨.hbm, 175, rfl⟩
abbrev main_v170 : Ref sig .tc := ⟨.hbm, 176, rfl⟩
abbrev main_v171 : Ref sig .tc := ⟨.hbm, 177, rfl⟩
abbrev main_v172 : Ref sig .tc := ⟨.hbm, 178, rfl⟩
abbrev main_v173 : Ref sig .tc := ⟨.hbm, 179, rfl⟩
abbrev main_v174 : Ref sig .tc := ⟨.hbm, 180, rfl⟩
abbrev main_v175 : Ref sig .tc := ⟨.hbm, 181, rfl⟩
abbrev main_v176 : Ref sig .tc := ⟨.hbm, 182, rfl⟩
abbrev main_v177 : Ref sig .tc := ⟨.hbm, 183, rfl⟩
abbrev main_v178 : Ref sig .tc := ⟨.hbm, 184, rfl⟩
abbrev main_v179 : Ref sig .tc := ⟨.hbm, 185, rfl⟩
abbrev main_v180 : Ref sig .tc := ⟨.hbm, 186, rfl⟩
abbrev main_v181 : Ref sig .tc := ⟨.hbm, 187, rfl⟩
abbrev main_v182 : Ref sig .tc := ⟨.hbm, 188, rfl⟩
abbrev main_v183 : Ref sig .tc := ⟨.hbm, 189, rfl⟩
abbrev main_v184 : Ref sig .tc := ⟨.hbm, 190, rfl⟩
abbrev main_v185 : Ref sig .tc := ⟨.hbm, 191, rfl⟩
abbrev main_v186 : Ref sig .tc := ⟨.hbm, 192, rfl⟩
abbrev main_v187 : Ref sig .tc := ⟨.hbm, 193, rfl⟩
abbrev main_v188 : Ref sig .tc := ⟨.hbm, 194, rfl⟩
abbrev main_v189 : Ref sig .tc := ⟨.hbm, 195, rfl⟩
abbrev main_v190 : Ref sig .tc := ⟨.hbm, 196, rfl⟩
abbrev main_v191 : Ref sig .tc := ⟨.hbm, 197, rfl⟩
abbrev main_v192 : Ref sig .tc := ⟨.hbm, 198, rfl⟩
abbrev main_v193 : Ref sig .tc := ⟨.hbm, 199, rfl⟩
abbrev main_v194 : Ref sig .tc := ⟨.hbm, 200, rfl⟩
abbrev main_v195 : Ref sig .tc := ⟨.hbm, 201, rfl⟩
abbrev main_v196 : Ref sig .tc := ⟨.hbm, 202, rfl⟩
abbrev main_v197 : Ref sig .tc := ⟨.hbm, 203, rfl⟩
abbrev main_v198 : Ref sig .tc := ⟨.hbm, 204, rfl⟩
abbrev main_v199 : Ref sig .tc := ⟨.hbm, 205, rfl⟩
abbrev main_v200 : Ref sig .tc := ⟨.hbm, 206, rfl⟩
abbrev main_v201 : Ref sig .tc := ⟨.hbm, 207, rfl⟩
abbrev main_v202 : Ref sig .tc := ⟨.hbm, 208, rfl⟩
abbrev main_v203 : Ref sig .tc := ⟨.hbm, 209, rfl⟩
abbrev main_v204 : Ref sig .tc := ⟨.hbm, 210, rfl⟩
abbrev main_v205 : Ref sig .tc := ⟨.hbm, 211, rfl⟩
abbrev main_v206 : Ref sig .tc := ⟨.hbm, 212, rfl⟩
abbrev main_v207 : Ref sig .tc := ⟨.hbm, 213, rfl⟩
abbrev main_v208 : Ref sig .tc := ⟨.hbm, 214, rfl⟩
abbrev main_v209 : Ref sig .tc := ⟨.hbm, 215, rfl⟩
abbrev main_v210 : Ref sig .tc := ⟨.hbm, 216, rfl⟩
abbrev main_v211 : Ref sig .tc := ⟨.hbm, 217, rfl⟩
abbrev main_v212 : Ref sig .tc := ⟨.hbm, 218, rfl⟩
abbrev main_v213 : Ref sig .tc := ⟨.hbm, 219, rfl⟩
abbrev main_v214 : Ref sig .tc := ⟨.hbm, 220, rfl⟩
abbrev main_v215 : Ref sig .tc := ⟨.hbm, 221, rfl⟩
abbrev main_v216 : Ref sig .tc := ⟨.hbm, 222, rfl⟩
abbrev main_v217 : Ref sig .tc := ⟨.hbm, 223, rfl⟩
abbrev main_v218 : Ref sig .tc := ⟨.hbm, 224, rfl⟩
abbrev main_v219 : Ref sig .tc := ⟨.hbm, 225, rfl⟩
abbrev main_v220 : Ref sig .tc := ⟨.hbm, 226, rfl⟩
abbrev main_v221 : Ref sig .tc := ⟨.hbm, 227, rfl⟩
abbrev main_v222 : Ref sig .tc := ⟨.hbm, 228, rfl⟩
abbrev main_v223 : Ref sig .tc := ⟨.hbm, 229, rfl⟩
abbrev main_v224 : Ref sig .tc := ⟨.hbm, 230, rfl⟩
abbrev main_v225 : Ref sig .tc := ⟨.hbm, 231, rfl⟩
abbrev main_v226 : Ref sig .tc := ⟨.hbm, 232, rfl⟩
abbrev main_v227 : Ref sig .tc := ⟨.hbm, 233, rfl⟩
abbrev main_v228 : Ref sig .tc := ⟨.hbm, 234, rfl⟩
abbrev main_v229 : Ref sig .tc := ⟨.hbm, 235, rfl⟩
abbrev main_v230 : Ref sig .tc := ⟨.hbm, 236, rfl⟩
abbrev main_v231 : Ref sig .tc := ⟨.hbm, 237, rfl⟩
abbrev main_v232 : Ref sig .tc := ⟨.hbm, 238, rfl⟩
abbrev main_v233 : Ref sig .tc := ⟨.hbm, 239, rfl⟩
abbrev main_v234 : Ref sig .tc := ⟨.hbm, 240, rfl⟩
abbrev main_v235 : Ref sig .tc := ⟨.hbm, 241, rfl⟩
abbrev main_v236 : Ref sig .tc := ⟨.hbm, 242, rfl⟩
abbrev main_v237 : Ref sig .tc := ⟨.hbm, 243, rfl⟩
abbrev main_v238 : Ref sig .tc := ⟨.hbm, 244, rfl⟩
abbrev main_v239 : Ref sig .tc := ⟨.hbm, 245, rfl⟩
abbrev main_v240 : Ref sig .tc := ⟨.hbm, 246, rfl⟩
abbrev main_v241 : Ref sig .tc := ⟨.hbm, 247, rfl⟩
abbrev main_v242 : Ref sig .tc := ⟨.hbm, 248, rfl⟩
abbrev main_v243 : Ref sig .tc := ⟨.hbm, 249, rfl⟩
abbrev main_v244 : Ref sig .tc := ⟨.hbm, 250, rfl⟩
abbrev main_v245 : Ref sig .tc := ⟨.hbm, 251, rfl⟩
abbrev main_v246 : Ref sig .tc := ⟨.hbm, 252, rfl⟩
abbrev main_v247 : Ref sig .tc := ⟨.hbm, 253, rfl⟩
abbrev main_v248 : Ref sig .tc := ⟨.hbm, 254, rfl⟩
abbrev main_v249 : Ref sig .tc := ⟨.hbm, 255, rfl⟩
abbrev main_v250 : Ref sig .tc := ⟨.hbm, 256, rfl⟩
abbrev main_v251 : Ref sig .tc := ⟨.hbm, 257, rfl⟩
abbrev main_v252 : Ref sig .tc := ⟨.hbm, 258, rfl⟩
abbrev main_v253 : Ref sig .tc := ⟨.hbm, 259, rfl⟩
abbrev main_v254 : Ref sig .tc := ⟨.hbm, 260, rfl⟩
abbrev main_v255 : Ref sig .tc := ⟨.hbm, 261, rfl⟩
abbrev main_v256 : Ref sig .tc := ⟨.hbm, 262, rfl⟩
abbrev main_v257 : Ref sig .tc := ⟨.hbm, 263, rfl⟩
abbrev main_v258 : Ref sig .tc := ⟨.hbm, 264, rfl⟩
abbrev main_v259 : Ref sig .tc := ⟨.hbm, 265, rfl⟩
abbrev main_v260 : Ref sig .tc := ⟨.hbm, 266, rfl⟩
abbrev main_v261 : Ref sig .tc := ⟨.hbm, 267, rfl⟩
abbrev main_v262 : Ref sig .tc := ⟨.hbm, 268, rfl⟩
abbrev main_v263 : Ref sig .tc := ⟨.hbm, 269, rfl⟩
abbrev main_v264 : Ref sig .tc := ⟨.hbm, 270, rfl⟩
abbrev main_v265 : Ref sig .tc := ⟨.hbm, 271, rfl⟩
abbrev main_v266 : Ref sig .tc := ⟨.hbm, 272, rfl⟩
abbrev main_v267 : Ref sig .tc := ⟨.hbm, 273, rfl⟩
abbrev main_v268 : Ref sig .tc := ⟨.hbm, 274, rfl⟩
abbrev main_v269 : Ref sig .tc := ⟨.hbm, 275, rfl⟩
abbrev main_v270 : Ref sig .tc := ⟨.hbm, 276, rfl⟩
abbrev main_v271 : Ref sig .tc := ⟨.hbm, 277, rfl⟩
abbrev main_v272 : Ref sig .tc := ⟨.hbm, 278, rfl⟩
abbrev main_v273 : Ref sig .tc := ⟨.hbm, 279, rfl⟩
abbrev main_v274 : Ref sig .tc := ⟨.hbm, 280, rfl⟩
abbrev main_v275 : Ref sig .tc := ⟨.hbm, 281, rfl⟩
abbrev main_v276 : Ref sig .tc := ⟨.hbm, 282, rfl⟩
abbrev main_v277 : Ref sig .tc := ⟨.hbm, 283, rfl⟩
abbrev main_v278 : Ref sig .tc := ⟨.hbm, 284, rfl⟩
abbrev main_v279 : Ref sig .tc := ⟨.hbm, 285, rfl⟩
abbrev main_v280 : Ref sig .tc := ⟨.hbm, 286, rfl⟩
abbrev main_v281 : Ref sig .tc := ⟨.hbm, 287, rfl⟩
abbrev main_v282 : Ref sig .tc := ⟨.hbm, 288, rfl⟩
abbrev main_v283 : Ref sig .tc := ⟨.hbm, 289, rfl⟩
abbrev main_v284 : Ref sig .tc := ⟨.hbm, 290, rfl⟩
abbrev main_v285 : Ref sig .tc := ⟨.hbm, 291, rfl⟩
abbrev main_v286 : Ref sig .tc := ⟨.hbm, 292, rfl⟩
abbrev main_v287 : Ref sig .tc := ⟨.hbm, 293, rfl⟩
abbrev main_v288 : Ref sig .tc := ⟨.hbm, 294, rfl⟩
abbrev main_v289 : Ref sig .tc := ⟨.hbm, 295, rfl⟩
abbrev main_v290 : Ref sig .tc := ⟨.hbm, 296, rfl⟩
abbrev main_v291 : Ref sig .tc := ⟨.hbm, 297, rfl⟩
abbrev main_v292 : Ref sig .tc := ⟨.hbm, 298, rfl⟩

abbrev nD : Nat := 1
abbrev τ : Topo := Topo.v7x

variable {F : FTy → Type} [FloatOps F]

class Facts₀ : Prop where
  transposes_S2048x2048_S2048x2048_1_0 : S2048x2048.Transposes [1, 0] S2048x2048
  slices_S11x1024_S1x1024_0_0 : S11x1024.Slices ![0, 0] S1x1024
  shapeCasts_S1x1024_S1024 : S1x1024.ShapeCasts S1024
  bcast_S1024_S1x1024x1_1 : S1024.BroadcastsInDim S1x1024x1 (![1] : Fin 1 → Fin S1x1024x1.rank)
  shapeCasts_S16384x2048_S16384x1024x2x1 : S16384x2048.ShapeCasts S16384x1024x2x1
  slices_S16384x1024x2x1_S16384x1024x1x1_0_0_0_0 : S16384x1024x2x1.Slices ![0, 0, 0, 0] S16384x1024x1x1
  shapeCasts_S16384x1024x1x1_S16384x1024x1 : S16384x1024x1x1.ShapeCasts S16384x1024x1
  slices_S16384x1024x2x1_S16384x1024x1x1_0_0_1_0 : S16384x1024x2x1.Slices ![0, 0, 1, 0] S16384x1024x1x1
  bcast_S1x1024x1_S16384x1024x1_0_1_2 : S1x1024x1.BroadcastsInDim S16384x1024x1 (![0, 1, 2] : Fin 3 → Fin S16384x1024x1.rank)
  bcast_S16384x1024x1_S16384x1024x1x1_0_1_3 : S16384x1024x1.BroadcastsInDim S16384x1024x1x1 (![0, 1, 3] : Fin 3 → Fin S16384x1024x1x1.rank)
  concatenates_S16384x1024x1x1_S16384x1024x1x1_S16384x1024x2x1_d2 : Shape.Concatenates [S16384x1024x1x1, S16384x1024x1x1] S16384x1024x2x1 2
  shapeCasts_S16384x1024x2x1_S16384x2048 : S16384x1024x2x1.ShapeCasts S16384x2048
  slices_S11x1024_S1x512_1_0 : S11x1024.Slices ![1, 0] S1x512
  shapeCasts_S1x512_S512 : S1x512.ShapeCasts S512
  bcast_S512_S1x512x1_1 : S512.BroadcastsInDim S1x512x1 (![1] : Fin 1 → Fin S1x512x1.rank)
  shapeCasts_S16384x2048_S16384x512x2x2 : S16384x2048.ShapeCasts S16384x512x2x2
  slices_S16384x512x2x2_S16384x512x1x2_0_0_0_0 : S16384x512x2x2.Slices ![0, 0, 0, 0] S16384x512x1x2
  shapeCasts_S16384x512x1x2_S16384x512x2 : S16384x512x1x2.ShapeCasts S16384x512x2
  slices_S16384x512x2x2_S16384x512x1x2_0_0_1_0 : S16384x512x2x2.Slices ![0, 0, 1, 0] S16384x512x1x2
  bcast_S1x512x1_S16384x512x2_0_1_2 : S1x512x1.BroadcastsInDim S16384x512x2 (![0, 1, 2] : Fin 3 → Fin S16384x512x2.rank)
  bcast_S16384x512x2_S16384x512x1x2_0_1_3 : S16384x512x2.BroadcastsInDim S16384x512x1x2 (![0, 1, 3] : Fin 3 → Fin S16384x512x1x2.rank)
  concatenates_S16384x512x1x2_S16384x512x1x2_S16384x512x2x2_d2 : Shape.Concatenates [S16384x512x1x2, S16384x512x1x2] S16384x512x2x2 2
  shapeCasts_S16384x512x2x2_S16384x2048 : S16384x512x2x2.ShapeCasts S16384x2048
  slices_S11x1024_S1x256_2_0 : S11x1024.Slices ![2, 0] S1x256
  shapeCasts_S1x256_S256 : S1x256.ShapeCasts S256
  bcast_S256_S1x256x1_1 : S256.BroadcastsInDim S1x256x1 (![1] : Fin 1 → Fin S1x256x1.rank)
  shapeCasts_S16384x2048_S16384x256x2x4 : S16384x2048.ShapeCasts S16384x256x2x4
  slices_S16384x256x2x4_S16384x256x1x4_0_0_0_0 : S16384x256x2x4.Slices ![0, 0, 0, 0] S16384x256x1x4
  shapeCasts_S16384x256x1x4_S16384x256x4 : S16384x256x1x4.ShapeCasts S16384x256x4
  slices_S16384x256x2x4_S16384x256x1x4_0_0_1_0 : S16384x256x2x4.Slices ![0, 0, 1, 0] S16384x256x1x4
  bcast_S1x256x1_S16384x256x4_0_1_2 : S1x256x1.BroadcastsInDim S16384x256x4 (![0, 1, 2] : Fin 3 → Fin S16384x256x4.rank)
  bcast_S16384x256x4_S16384x256x1x4_0_1_3 : S16384x256x4.BroadcastsInDim S16384x256x1x4 (![0, 1, 3] : Fin 3 → Fin S16384x256x1x4.rank)
  concatenates_S16384x256x1x4_S16384x256x1x4_S16384x256x2x4_d2 : Shape.Concatenates [S16384x256x1x4, S16384x256x1x4] S16384x256x2x4 2
  shapeCasts_S16384x256x2x4_S16384x2048 : S16384x256x2x4.ShapeCasts S16384x2048
  slices_S11x1024_S1x128_3_0 : S11x1024.Slices ![3, 0] S1x128
  shapeCasts_S1x128_S128 : S1x128.ShapeCasts S128
  bcast_S128_S1x128x1_1 : S128.BroadcastsInDim S1x128x1 (![1] : Fin 1 → Fin S1x128x1.rank)
  shapeCasts_S16384x2048_S16384x128x2x8 : S16384x2048.ShapeCasts S16384x128x2x8
  slices_S16384x128x2x8_S16384x128x1x8_0_0_0_0 : S16384x128x2x8.Slices ![0, 0, 0, 0] S16384x128x1x8
  shapeCasts_S16384x128x1x8_S16384x128x8 : S16384x128x1x8.ShapeCasts S16384x128x8
  slices_S16384x128x2x8_S16384x128x1x8_0_0_1_0 : S16384x128x2x8.Slices ![0, 0, 1, 0] S16384x128x1x8
  bcast_S1x128x1_S16384x128x8_0_1_2 : S1x128x1.BroadcastsInDim S16384x128x8 (![0, 1, 2] : Fin 3 → Fin S16384x128x8.rank)
  bcast_S16384x128x8_S16384x128x1x8_0_1_3 : S16384x128x8.BroadcastsInDim S16384x128x1x8 (![0, 1, 3] : Fin 3 → Fin S16384x128x1x8.rank)
  concatenates_S16384x128x1x8_S16384x128x1x8_S16384x128x2x8_d2 : Shape.Concatenates [S16384x128x1x8, S16384x128x1x8] S16384x128x2x8 2
  shapeCasts_S16384x128x2x8_S16384x2048 : S16384x128x2x8.ShapeCasts S16384x2048
  slices_S11x1024_S1x64_4_0 : S11x1024.Slices ![4, 0] S1x64
  shapeCasts_S1x64_S64 : S1x64.ShapeCasts S64
  bcast_S64_S1x64x1_1 : S64.BroadcastsInDim S1x64x1 (![1] : Fin 1 → Fin S1x64x1.rank)
  shapeCasts_S16384x2048_S16384x64x2x16 : S16384x2048.ShapeCasts S16384x64x2x16
  slices_S16384x64x2x16_S16384x64x1x16_0_0_0_0 : S16384x64x2x16.Slices ![0, 0, 0, 0] S16384x64x1x16
  shapeCasts_S16384x64x1x16_S16384x64x16 : S16384x64x1x16.ShapeCasts S16384x64x16
  slices_S16384x64x2x16_S16384x64x1x16_0_0_1_0 : S16384x64x2x16.Slices ![0, 0, 1, 0] S16384x64x1x16
  bcast_S1x64x1_S16384x64x16_0_1_2 : S1x64x1.BroadcastsInDim S16384x64x16 (![0, 1, 2] : Fin 3 → Fin S16384x64x16.rank)
  bcast_S16384x64x16_S16384x64x1x16_0_1_3 : S16384x64x16.BroadcastsInDim S16384x64x1x16 (![0, 1, 3] : Fin 3 → Fin S16384x64x1x16.rank)
  concatenates_S16384x64x1x16_S16384x64x1x16_S16384x64x2x16_d2 : Shape.Concatenates [S16384x64x1x16, S16384x64x1x16] S16384x64x2x16 2
  shapeCasts_S16384x64x2x16_S16384x2048 : S16384x64x2x16.ShapeCasts S16384x2048
  slices_S11x1024_S1x32_5_0 : S11x1024.Slices ![5, 0] S1x32
  shapeCasts_S1x32_S32 : S1x32.ShapeCasts S32
  bcast_S32_S1x32x1_1 : S32.BroadcastsInDim S1x32x1 (![1] : Fin 1 → Fin S1x32x1.rank)
  shapeCasts_S16384x2048_S16384x32x2x32 : S16384x2048.ShapeCasts S16384x32x2x32
  slices_S16384x32x2x32_S16384x32x1x32_0_0_0_0 : S16384x32x2x32.Slices ![0, 0, 0, 0] S16384x32x1x32
  shapeCasts_S16384x32x1x32_S16384x32x32 : S16384x32x1x32.ShapeCasts S16384x32x32
  slices_S16384x32x2x32_S16384x32x1x32_0_0_1_0 : S16384x32x2x32.Slices ![0, 0, 1, 0] S16384x32x1x32
  bcast_S1x32x1_S16384x32x32_0_1_2 : S1x32x1.BroadcastsInDim S16384x32x32 (![0, 1, 2] : Fin 3 → Fin S16384x32x32.rank)
  bcast_S16384x32x32_S16384x32x1x32_0_1_3 : S16384x32x32.BroadcastsInDim S16384x32x1x32 (![0, 1, 3] : Fin 3 → Fin S16384x32x1x32.rank)
  concatenates_S16384x32x1x32_S16384x32x1x32_S16384x32x2x32_d2 : Shape.Concatenates [S16384x32x1x32, S16384x32x1x32] S16384x32x2x32 2
  shapeCasts_S16384x32x2x32_S16384x2048 : S16384x32x2x32.ShapeCasts S16384x2048
  slices_S11x1024_S1x16_6_0 : S11x1024.Slices ![6, 0] S1x16
  shapeCasts_S1x16_S16 : S1x16.ShapeCasts S16
  bcast_S16_S1x16x1_1 : S16.BroadcastsInDim S1x16x1 (![1] : Fin 1 → Fin S1x16x1.rank)
  shapeCasts_S16384x2048_S16384x16x2x64 : S16384x2048.ShapeCasts S16384x16x2x64
  slices_S16384x16x2x64_S16384x16x1x64_0_0_0_0 : S16384x16x2x64.Slices ![0, 0, 0, 0] S16384x16x1x64
  shapeCasts_S16384x16x1x64_S16384x16x64 : S16384x16x1x64.ShapeCasts S16384x16x64
  slices_S16384x16x2x64_S16384x16x1x64_0_0_1_0 : S16384x16x2x64.Slices ![0, 0, 1, 0] S16384x16x1x64
  bcast_S1x16x1_S16384x16x64_0_1_2 : S1x16x1.BroadcastsInDim S16384x16x64 (![0, 1, 2] : Fin 3 → Fin S16384x16x64.rank)
  bcast_S16384x16x64_S16384x16x1x64_0_1_3 : S16384x16x64.BroadcastsInDim S16384x16x1x64 (![0, 1, 3] : Fin 3 → Fin S16384x16x1x64.rank)
  concatenates_S16384x16x1x64_S16384x16x1x64_S16384x16x2x64_d2 : Shape.Concatenates [S16384x16x1x64, S16384x16x1x64] S16384x16x2x64 2
  shapeCasts_S16384x16x2x64_S16384x2048 : S16384x16x2x64.ShapeCasts S16384x2048
  slices_S11x1024_S1x8_7_0 : S11x1024.Slices ![7, 0] S1x8
  shapeCasts_S1x8_S8 : S1x8.ShapeCasts S8
  bcast_S8_S1x8x1_1 : S8.BroadcastsInDim S1x8x1 (![1] : Fin 1 → Fin S1x8x1.rank)
  shapeCasts_S16384x2048_S16384x8x2x128 : S16384x2048.ShapeCasts S16384x8x2x128
  slices_S16384x8x2x128_S16384x8x1x128_0_0_0_0 : S16384x8x2x128.Slices ![0, 0, 0, 0] S16384x8x1x128
  shapeCasts_S16384x8x1x128_S16384x8x128 : S16384x8x1x128.ShapeCasts S16384x8x128
  slices_S16384x8x2x128_S16384x8x1x128_0_0_1_0 : S16384x8x2x128.Slices ![0, 0, 1, 0] S16384x8x1x128
  bcast_S1x8x1_S16384x8x128_0_1_2 : S1x8x1.BroadcastsInDim S16384x8x128 (![0, 1, 2] : Fin 3 → Fin S16384x8x128.rank)
  bcast_S16384x8x128_S16384x8x1x128_0_1_3 : S16384x8x128.BroadcastsInDim S16384x8x1x128 (![0, 1, 3] : Fin 3 → Fin S16384x8x1x128.rank)
  concatenates_S16384x8x1x128_S16384x8x1x128_S16384x8x2x128_d2 : Shape.Concatenates [S16384x8x1x128, S16384x8x1x128] S16384x8x2x128 2
  shapeCasts_S16384x8x2x128_S16384x2048 : S16384x8x2x128.ShapeCasts S16384x2048
  slices_S11x1024_S1x4_8_0 : S11x1024.Slices ![8, 0] S1x4
  shapeCasts_S1x4_S4 : S1x4.ShapeCasts S4
  bcast_S4_S1x4x1_1 : S4.BroadcastsInDim S1x4x1 (![1] : Fin 1 → Fin S1x4x1.rank)
  shapeCasts_S16384x2048_S16384x4x2x256 : S16384x2048.ShapeCasts S16384x4x2x256
  slices_S16384x4x2x256_S16384x4x1x256_0_0_0_0 : S16384x4x2x256.Slices ![0, 0, 0, 0] S16384x4x1x256
  shapeCasts_S16384x4x1x256_S16384x4x256 : S16384x4x1x256.ShapeCasts S16384x4x256
  slices_S16384x4x2x256_S16384x4x1x256_0_0_1_0 : S16384x4x2x256.Slices ![0, 0, 1, 0] S16384x4x1x256
  bcast_S1x4x1_S16384x4x256_0_1_2 : S1x4x1.BroadcastsInDim S16384x4x256 (![0, 1, 2] : Fin 3 → Fin S16384x4x256.rank)
  bcast_S16384x4x256_S16384x4x1x256_0_1_3 : S16384x4x256.BroadcastsInDim S16384x4x1x256 (![0, 1, 3] : Fin 3 → Fin S16384x4x1x256.rank)
  concatenates_S16384x4x1x256_S16384x4x1x256_S16384x4x2x256_d2 : Shape.Concatenates [S16384x4x1x256, S16384x4x1x256] S16384x4x2x256 2
  shapeCasts_S16384x4x2x256_S16384x2048 : S16384x4x2x256.ShapeCasts S16384x2048
  slices_S11x1024_S1x2_9_0 : S11x1024.Slices ![9, 0] S1x2
  shapeCasts_S1x2_S2 : S1x2.ShapeCasts S2
  bcast_S2_S1x2x1_1 : S2.BroadcastsInDim S1x2x1 (![1] : Fin 1 → Fin S1x2x1.rank)
  shapeCasts_S16384x2048_S16384x2x2x512 : S16384x2048.ShapeCasts S16384x2x2x512
  slices_S16384x2x2x512_S16384x2x1x512_0_0_0_0 : S16384x2x2x512.Slices ![0, 0, 0, 0] S16384x2x1x512
  shapeCasts_S16384x2x1x512_S16384x2x512 : S16384x2x1x512.ShapeCasts S16384x2x512
  slices_S16384x2x2x512_S16384x2x1x512_0_0_1_0 : S16384x2x2x512.Slices ![0, 0, 1, 0] S16384x2x1x512
  bcast_S1x2x1_S16384x2x512_0_1_2 : S1x2x1.BroadcastsInDim S16384x2x512 (![0, 1, 2] : Fin 3 → Fin S16384x2x512.rank)
  bcast_S16384x2x512_S16384x2x1x512_0_1_3 : S16384x2x512.BroadcastsInDim S16384x2x1x512 (![0, 1, 3] : Fin 3 → Fin S16384x2x1x512.rank)
  concatenates_S16384x2x1x512_S16384x2x1x512_S16384x2x2x512_d2 : Shape.Concatenates [S16384x2x1x512, S16384x2x1x512] S16384x2x2x512 2
  shapeCasts_S16384x2x2x512_S16384x2048 : S16384x2x2x512.ShapeCasts S16384x2048
  slices_S11x1024_S1x1_10_0 : S11x1024.Slices ![10, 0] S1x1
  shapeCasts_S1x1_S1 : S1x1.ShapeCasts S1
  bcast_S1_S1x1x1_1 : S1.BroadcastsInDim S1x1x1 (![1] : Fin 1 → Fin S1x1x1.rank)
  shapeCasts_S16384x2048_S16384x1x2x1024 : S16384x2048.ShapeCasts S16384x1x2x1024
  slices_S16384x1x2x1024_S16384x1x1x1024_0_0_0_0 : S16384x1x2x1024.Slices ![0, 0, 0, 0] S16384x1x1x1024
  shapeCasts_S16384x1x1x1024_S16384x1x1024 : S16384x1x1x1024.ShapeCasts S16384x1x1024
  slices_S16384x1x2x1024_S16384x1x1x1024_0_0_1_0 : S16384x1x2x1024.Slices ![0, 0, 1, 0] S16384x1x1x1024
  bcast_S1x1x1_S16384x1x1024_0_1_2 : S1x1x1.BroadcastsInDim S16384x1x1024 (![0, 1, 2] : Fin 3 → Fin S16384x1x1024.rank)
  bcast_S16384x1x1024_S16384x1x1x1024_0_1_3 : S16384x1x1024.BroadcastsInDim S16384x1x1x1024 (![0, 1, 3] : Fin 3 → Fin S16384x1x1x1024.rank)
  concatenates_S16384x1x1x1024_S16384x1x1x1024_S16384x1x2x1024_d2 : Shape.Concatenates [S16384x1x1x1024, S16384x1x1x1024] S16384x1x2x1024 2
  shapeCasts_S16384x1x2x1024_S16384x2048 : S16384x1x2x1024.ShapeCasts S16384x2048
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  dot_S16384x2048_S2048x2048_S16384x2048_1_0_0_1_n_n_wf : DotDims.WF S16384x2048 S2048x2048 S16384x2048 [1] [0] [0] [1] [] []

variable [Facts₀]

def dot_S16384x2048_S2048x2048_S16384x2048_1_0_0_1_n_n : DotDims S16384x2048 S2048x2048 S16384x2048 where
  lhsContracting := [1]
  rhsContracting := [0]
  lhsNonContracting := [0]
  rhsNonContracting := [1]
  lhsBatch := []
  rhsBatch := []
  wf := dot_S16384x2048_S2048x2048_S16384x2048_1_0_0_1_n_n_wf

class Facts : Prop extends Facts₀ where

variable [Facts]
-- ==== Proof.Finite.lean ====
/-
  From "every float input is finite" to real witnesses of the six argument arrays.

  The precondition is the conjunction of six statements  all (|a| < +∞),  one per argument array a.  At the ideal
  instance an entry is an extended real y, |y| is max y (-y), and +∞ is ⊤; max y (-y) < ⊤ excludes y = ⊤ (then
  max y (-y) = ⊤) and y = ⊥ (then -y = ⊤), so y is the image of a real number.  Choosing that real at every index
  gives, per array, a real-valued function whose image in the extended reals is the array.
-/
import proofs.«426409_j59322088292569_3_alg».proof.Defs
import proofs.«426409_j59322088292569_3_alg».proof.Proof.Gen.Pre_finite_inputs
import Idealize.ShloMosaic.Lib.ReduceAll
import Idealize.ShloMosaic.Lib.ValueIdx
import Idealize.ShloMosaic.PureOps.Ideal

noncomputable section

namespace Cert.Finite

open Idealize.ShloMosaic Idealize.SL.Sem

/-- The scalar shape has one index. -/
instance : Subsingleton Cert.Pre_finite_inputs.S_.Idx := ⟨fun a b => funext fun d => d.elim0⟩

/-- An extended real whose absolute value max y (-y) compares below +∞ is a real number. -/
theorem real_of_abs_lt (y : EReal)
    (h : Ideal.cmp .olt (max y (-y)) (Ideal.ofBits .f32 0x7F800000#32) = 1#1) : ∃ r : ℝ, y = (r : EReal) := by
  have htop : Ideal.ofBits .f32 0x7F800000#32 = (⊤ : EReal) := by simp [Ideal.ofBits, Ideal.ieee]
  rw [htop] at h
  induction y using EReal.rec with
  | bot => simp [Ideal.cmp] at h
  | top => simp [Ideal.cmp] at h
  | coe r => exact ⟨r, rfl⟩

/-- One conjunct of the precondition, for an array of any shape: if  all (|a| < +∞)  holds then a is the image of a
    real-valued function. -/
theorem real_of_all {s : Shape} {axes : List (Fin s.rank)} (a : FVec Ideal s .f32)
    (bc : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
          (cmpf .olt (Host.absf a)
            (broadcastInDim s ![] bc (constant (F := Ideal) Cert.Pre_finite_inputs.S_ .f32 0x7F800000#32)))
          (constantI Cert.Pre_finite_inputs.S_ 1 1#1) hr hu j = 1#1) :
    ∃ r : s.Idx → ℝ, (a : s.Idx → EReal) = fun i => ((r i : ℝ) : EReal) := by
  have hall : ∀ i : s.Idx, ∃ r : ℝ, (a i : EReal) = (r : EReal) := fun i =>
    real_of_abs_lt (a i) (Host.reduce_andi_all _ _ hr hu j e i)
  choose r hr' using hall
  exact ⟨r, funext hr'⟩

/-- The precondition read back: on every device each of the six argument arrays is the image of a real-valued array. -/
theorem real_args [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∃ (x : Cert.KernelIdeal.S16384x2048.Idx → ℝ) (w1 w2 : Cert.KernelIdeal.S2048x2048.Idx → ℝ)
      (b : Cert.KernelIdeal.S2048.Idx → ℝ) (pa pb : Cert.KernelIdeal.S11x1024.Idx → ℝ),
      (m ((c.tc : Thread Cert.KernelIdeal.nD Cert.KernelIdeal.τ).loc Cert.KernelIdeal.main_arg0) : Cert.KernelIdeal.S16384x2048.Idx → EReal) = (fun i => ((x i : ℝ) : EReal))
      ∧ (m ((c.tc : Thread Cert.KernelIdeal.nD Cert.KernelIdeal.τ).loc Cert.KernelIdeal.main_arg1) : Cert.KernelIdeal.S2048x2048.Idx → EReal) = (fun i => ((w1 i : ℝ) : EReal))
      ∧ (m ((c.tc : Thread Cert.KernelIdeal.nD Cert.KernelIdeal.τ).loc Cert.KernelIdeal.main_arg2) : Cert.KernelIdeal.S2048x2048.Idx → EReal) = (fun i => ((w2 i : ℝ) : EReal))
      ∧ (m ((c.tc : Thread Cert.KernelIdeal.nD Cert.KernelIdeal.τ).loc Cert.KernelIdeal.main_arg3) : Cert.KernelIdeal.S2048.Idx → EReal) = (fun i => ((b i : ℝ) : EReal))
      ∧ (m ((c.tc : Thread Cert.KernelIdeal.nD Cert.KernelIdeal.τ).loc Cert.KernelIdeal.main_arg4) : Cert.KernelIdeal.S11x1024.Idx → EReal) = (fun i => ((pa i : ℝ) : EReal))
      ∧ (m ((c.tc : Thread Cert.KernelIdeal.nD Cert.KernelIdeal.τ).loc Cert.KernelIdeal.main_arg5) : Cert.KernelIdeal.S11x1024.Idx → EReal) = (fun i => ((pb i : ℝ) : EReal)) := by
  have e := congrFun (h c) ValueIdx.ix0
  dsimp only [Cert.Pre_finite_inputs.fn, Cert.Pre_finite_inputs.fn_part1, andi] at e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  obtain ⟨x, hx⟩ := real_of_all _ _ _ _ _ e0
  obtain ⟨w1, hw1⟩ := real_of_all _ _ _ _ _ e1
  obtain ⟨w2, hw2⟩ := real_of_all _ _ _ _ _ e2
  obtain ⟨b, hb⟩ := real_of_all _ _ _ _ _ e3
  obtain ⟨pa, hpa⟩ := real_of_all _ _ _ _ _ e4
  obtain ⟨pb, hpb⟩ := real_of_all _ _ _ _ _ e5
  exact ⟨x, w1, w2, b, pa, pb, hx, hw1, hw2, hb, hpa, hpb⟩

end Cert.Finite
-- ==== Proof.Stage.lean ====
/-
  One butterfly stage as the two programs spell it, and what it computes at an index.

  A stage with `nb` blocks of width `2 * bs` (`nb * 2 * bs = 2048`) views a [B, 2048] array as [B, nb, 2, bs], takes the
  two halves x0 = view[:, :, 0, :] and x1 = view[:, :, 1, :], the coefficient rows a = Pa[l, :nb] and b = Pb[l, :nb]
  as [1, nb, 1] columns, and lays  top = a * x0 + b * x1  and  bot = (-b) * x0 + a * x1  back side by side along the
  third axis, viewed [B, 2048] again.  Column p = (blk * 2 + s) * bs + off of the result therefore combines the two
  columns q0 = (blk * 2) * bs + off and q1 = (blk * 2 + 1) * bs + off of the SAME row: with coefficients (a, b) in the
  top half (s = 0) and (-b, a) in the bottom half (s = 1).  Nothing in this depends on the number of rows B.
-/
import Idealize.ShloMosaic.PureOps.Ideal
import Idealize.ShloMosaic.Lib.ValueIdx
import Idealize.ShloMosaic.Lib.Pipeline.Value

noncomputable section

namespace Cert.Butterfly

open Idealize.ShloMosaic Idealize.ShloMosaic.ValueIdx

/-! ## The shapes of a stage -/

abbrev Mat (B : Nat) : Shape := ⟨2, ![B, 2048]⟩
abbrev Tab : Shape := ⟨2, ![11, 1024]⟩
abbrev Row (nb : Nat) : Shape := ⟨2, ![1, nb]⟩
abbrev Vec1 (nb : Nat) : Shape := ⟨1, ![nb]⟩
abbrev Col (nb : Nat) : Shape := ⟨3, ![1, nb, 1]⟩
abbrev Blk4 (B nb k bs : Nat) : Shape := ⟨4, ![B, nb, k, bs]⟩
abbrev Blk3 (B nb bs : Nat) : Shape := ⟨3, ![B, nb, bs]⟩

/-- The shape relations the operations of stage `l` (`nb` blocks of half-width `bs`, on `B` rows) are stated under. -/
structure Ev (B nb bs l : Nat) : Prop where
  tabSlice : Tab.Slices ![l, 0] (Row nb)
  rowCast : (Row nb).ShapeCasts (Vec1 nb)
  vecBcast : (Vec1 nb).BroadcastsInDim (Col nb) ![1]
  matCast : (Mat B).ShapeCasts (Blk4 B nb 2 bs)
  slice0 : (Blk4 B nb 2 bs).Slices ![0, 0, 0, 0] (Blk4 B nb 1 bs)
  slice1 : (Blk4 B nb 2 bs).Slices ![0, 0, 1, 0] (Blk4 B nb 1 bs)
  halfCast : (Blk4 B nb 1 bs).ShapeCasts (Blk3 B nb bs)
  colBcast : (Col nb).BroadcastsInDim (Blk3 B nb bs) ![0, 1, 2]
  upBcast : (Blk3 B nb bs).BroadcastsInDim (Blk4 B nb 1 bs) ![0, 1, 3]
  cat : Shape.Concatenates [Blk4 B nb 1 bs, Blk4 B nb 1 bs] (Blk4 B nb 2 bs) 2
  backCast : (Blk4 B nb 2 bs).ShapeCasts (Mat B)

section Ops
variable {F : FTy → Type} [FloatOps F] {B nb bs l : Nat}

/-- Row `l` of a coefficient table, its first `nb` entries, as a [1, nb, 1] column. -/
def coefCol (ev : Ev B nb bs l) (P : FVec F Tab .f32) : FVec F (Col nb) .f32 :=
  broadcastInDim (Col nb) ![1] ev.vecBcast
    (shapeCast (Vec1 nb) (extractStridedSlice (Row nb) ![l, 0] P ev.tabSlice) ev.rowCast)

/-- The first half of every block: view[:, :, 0, :]. -/
def half0 (ev : Ev B nb bs l) (X : FVec F (Mat B) .f32) : FVec F (Blk3 B nb bs) .f32 :=
  shapeCast (Blk3 B nb bs)
    (extractStridedSlice (Blk4 B nb 1 bs) ![0, 0, 0, 0] (shapeCast (Blk4 B nb 2 bs) X ev.matCast) ev.slice0) ev.halfCast

/-- The second half of every block: view[:, :, 1, :]. -/
def half1 (ev : Ev B nb bs l) (X : FVec F (Mat B) .f32) : FVec F (Blk3 B nb bs) .f32 :=
  shapeCast (Blk3 B nb bs)
    (extractStridedSlice (Blk4 B nb 1 bs) ![0, 0, 1, 0] (shapeCast (Blk4 B nb 2 bs) X ev.matCast) ev.slice1) ev.halfCast

/-- The stage: `stack([a * x0 + b * x1, (-b) * x0 + a * x1], axis = 2)` viewed [B, 2048]. -/
def stage (ev : Ev B nb bs l) (Pa Pb : FVec F Tab .f32) (X : FVec F (Mat B) .f32) : FVec F (Mat B) .f32 :=
  shapeCast (Mat B) (concatenate (Blk4 B nb 2 bs) 2
    [⟨Blk4 B nb 1 bs, broadcastInDim (Blk4 B nb 1 bs) ![0, 1, 3] ev.upBcast
        (addf (mulf (broadcastInDim (Blk3 B nb bs) ![0, 1, 2] ev.colBcast (coefCol ev Pa)) (half0 ev X))
              (mulf (broadcastInDim (Blk3 B nb bs) ![0, 1, 2] ev.colBcast (coefCol ev Pb)) (half1 ev X)))⟩,
     ⟨Blk4 B nb 1 bs, broadcastInDim (Blk4 B nb 1 bs) ![0, 1, 3] ev.upBcast
        (addf (mulf (broadcastInDim (Blk3 B nb bs) ![0, 1, 2] ev.colBcast (Host.negf (coefCol ev Pb))) (half0 ev X))
              (mulf (broadcastInDim (Blk3 B nb bs) ![0, 1, 2] ev.colBcast (coefCol ev Pa)) (half1 ev X)))⟩]
    ev.cat) ev.backCast

end Ops

/-! ## A stage read at an index, over the extended reals -/

section Read
variable {B nb bs l : Nat}

/-- The coefficient column at block `blk` is entry `(l, blk)` of the table. -/
theorem coefCol_apply (ev : Ev B nb bs l) (P : FVec Ideal Tab .f32) (z z' : Fin 1) (blk : Fin nb)
    (li : Fin 11) (hli : li.val = l) (bi : Fin 1024) (hbi : bi.val = blk.val) :
    coefCol ev P (ix3 z blk z') = P (ix2 li bi) := by
  have hb := blk.isLt
  unfold coefCol
  refine (broadcastInDim_apply _ _ _ _ (ix1 blk) (fun a => match a with
    | ⟨0, _⟩ => by
      show blk.val = if nb = 1 then 0 else blk.val
      split <;> omega)).trans ?_
  refine (shapeCast_apply _ _ _ (ix2 (0 : Fin 1) blk) (by
    rw [Shape.rowMajor_val_two, Shape.rowMajor_val_one]
    show 0 * nb + blk.val = blk.val
    omega)).trans ?_
  exact extractStridedSlice_apply _ _ _ _ (ix2 li bi) (fun a => match a with
    | ⟨0, _⟩ => by show li.val = l + 0; omega
    | ⟨1, _⟩ => by show bi.val = 0 + blk.val; omega)

/-- The first half at `(r, blk, off)` is the array at row `r`, column `(blk * 2) * bs + off`. -/
theorem half0_apply (ev : Ev B nb bs l) (hW : nb * 2 * bs = 2048) (X : FVec Ideal (Mat B) .f32)
    (r : Fin B) (blk : Fin nb) (off : Fin bs) (q : Fin 2048) (hq : q.val = (blk.val * 2 + 0) * bs + off.val) :
    half0 ev X (ix3 r blk off) = X (ix2 r q) := by
  unfold half0
  refine (shapeCast_apply _ _ _ (ix4 r blk (0 : Fin 1) off) (by
    rw [Shape.rowMajor_val_four, Shape.rowMajor_val_three]
    show ((r.val * nb + blk.val) * 1 + 0) * bs + off.val = (r.val * nb + blk.val) * bs + off.val
    ring)).trans ?_
  refine (extractStridedSlice_apply _ _ _ _ (ix4 r blk (0 : Fin 2) off) (fun a => match a with
    | ⟨0, _⟩ => by show r.val = 0 + r.val; omega
    | ⟨1, _⟩ => by show blk.val = 0 + blk.val; omega
    | ⟨2, _⟩ => by show 0 = 0 + 0; omega
    | ⟨3, _⟩ => by show off.val = 0 + off.val; omega)).trans ?_
  exact shapeCast_apply _ _ _ (ix2 r q) (by
    rw [Shape.rowMajor_val_two, Shape.rowMajor_val_four]
    show r.val * 2048 + q.val = ((r.val * nb + blk.val) * 2 + 0) * bs + off.val
    rw [hq, ← hW]; ring)

/-- The second half at `(r, blk, off)` is the array at row `r`, column `(blk * 2 + 1) * bs + off`. -/
theorem half1_apply (ev : Ev B nb bs l) (hW : nb * 2 * bs = 2048) (X : FVec Ideal (Mat B) .f32)
    (r : Fin B) (blk : Fin nb) (off : Fin bs) (q : Fin 2048) (hq : q.val = (blk.val * 2 + 1) * bs + off.val) :
    half1 ev X (ix3 r blk off) = X (ix2 r q) := by
  unfold half1
  refine (shapeCast_apply _ _ _ (ix4 r blk (0 : Fin 1) off) (by
    rw [Shape.rowMajor_val_four, Shape.rowMajor_val_three]
    show ((r.val * nb + blk.val) * 1 + 0) * bs + off.val = (r.val * nb + blk.val) * bs + off.val
    ring)).trans ?_
  refine (extractStridedSlice_apply _ _ _ _ (ix4 r blk (1 : Fin 2) off) (fun a => match a with
    | ⟨0, _⟩ => by show r.val = 0 + r.val; omega
    | ⟨1, _⟩ => by show blk.val = 0 + blk.val; omega
    | ⟨2, _⟩ => by show 1 = 1 + 0; omega
    | ⟨3, _⟩ => by show off.val = 0 + off.val; omega)).trans ?_
  exact shapeCast_apply _ _ _ (ix2 r q) (by
    rw [Shape.rowMajor_val_two, Shape.rowMajor_val_four]
    show r.val * 2048 + q.val = ((r.val * nb + blk.val) * 2 + 1) * bs + off.val
    rw [hq, ← hW]; ring)

/-- A [1, nb, 1] column stretched over the halves reads the column at the block. -/
theorem colBcast_apply (ev : Ev B nb bs l) (a : FVec Ideal (Col nb) .f32) (r : Fin B) (blk : Fin nb) (off : Fin bs) :
    broadcastInDim (Blk3 B nb bs) ![0, 1, 2] ev.colBcast a (ix3 r blk off) = a (ix3 (0 : Fin 1) blk (0 : Fin 1)) := by
  have hb := blk.isLt
  exact broadcastInDim_apply _ _ _ _ (ix3 (0 : Fin 1) blk (0 : Fin 1)) (fun a => match a with
    | ⟨0, _⟩ => by show 0 = if 1 = 1 then 0 else r.val; rfl
    | ⟨1, _⟩ => by
      show blk.val = if nb = 1 then 0 else blk.val
      split <;> omega
    | ⟨2, _⟩ => by show 0 = if 1 = 1 then 0 else off.val; rfl)

end Read

theorem hostNegf_apply {s : Shape} {φ : FTy} (a : FVec Ideal s φ) (i : s.Idx) : (Host.negf a : FVec Ideal s φ) i = -(a i) := rfl

section Read2
variable {B nb bs l : Nat}

/-- A stage at row `r`, column `p = (blk * 2 + s) * bs + off`: the two columns `q0`, `q1` of the block's halves in the same
    row, combined with the coefficients `(a, b)` in the top half and `(-b, a)` in the bottom half, `a = Pa[l, blk]`,
    `b = Pb[l, blk]`. -/
theorem stage_apply (ev : Ev B nb bs l) (hW : nb * 2 * bs = 2048) (Pa Pb : FVec Ideal Tab .f32) (X : FVec Ideal (Mat B) .f32)
    (r : Fin B) (blk : Fin nb) (s : Fin 2) (off : Fin bs) (p q0 q1 : Fin 2048)
    (hp : p.val = (blk.val * 2 + s.val) * bs + off.val)
    (hq0 : q0.val = (blk.val * 2 + 0) * bs + off.val) (hq1 : q1.val = (blk.val * 2 + 1) * bs + off.val)
    (li : Fin 11) (hli : li.val = l) (bi : Fin 1024) (hbi : bi.val = blk.val) :
    stage ev Pa Pb X (ix2 r p) =
      if s.val = 0 then Pa (ix2 li bi) * X (ix2 r q0) + Pb (ix2 li bi) * X (ix2 r q1)
      else -(Pb (ix2 li bi)) * X (ix2 r q0) + Pa (ix2 li bi) * X (ix2 r q1) := by
  have hr := r.isLt
  have hb := blk.isLt
  have ho := off.isLt
  have hs2 := s.isLt
  unfold stage
  refine (shapeCast_apply _ _ _ (ix4 r blk s off) (by
    rw [Shape.rowMajor_val_four, Shape.rowMajor_val_two]
    show ((r.val * nb + blk.val) * 2 + s.val) * bs + off.val = r.val * 2048 + p.val
    rw [hp, ← hW]; ring)).trans ?_
  by_cases hs : s.val = 0
  · rw [if_pos hs]
    refine (concatenate_pair_apply_left _ _ _ ev.cat _ rfl (ix4 r blk (0 : Fin 1) off) (fun b => match b with
      | ⟨0, _⟩ => rfl
      | ⟨1, _⟩ => rfl
      | ⟨2, _⟩ => by show 0 = s.val; omega
      | ⟨3, _⟩ => rfl)).trans ?_
    refine (broadcastInDim_apply _ _ _ _ (ix3 r blk off) (fun a => match a with
      | ⟨0, _⟩ => by show r.val = if B = 1 then 0 else r.val; split <;> omega
      | ⟨1, _⟩ => by show blk.val = if nb = 1 then 0 else blk.val; split <;> omega
      | ⟨2, _⟩ => by show off.val = if bs = 1 then 0 else off.val; split <;> omega)).trans ?_
    rw [addf_apply, mulf_apply, mulf_apply, colBcast_apply ev, colBcast_apply ev,
      coefCol_apply ev Pa 0 0 blk li hli bi hbi, coefCol_apply ev Pb 0 0 blk li hli bi hbi,
      half0_apply ev hW X r blk off q0 hq0, half1_apply ev hW X r blk off q1 hq1]
  · rw [if_neg hs]
    refine (concatenate_pair_apply_right _ _ _ ev.cat _ rfl rfl (ix4 r blk (0 : Fin 1) off) (fun b hb' => match b, hb' with
      | ⟨0, _⟩, _ => rfl
      | ⟨1, _⟩, _ => rfl
      | ⟨2, _⟩, hb' => absurd rfl hb'
      | ⟨3, _⟩, _ => rfl) (by show 0 + 1 = s.val; omega)).trans ?_
    refine (broadcastInDim_apply _ _ _ _ (ix3 r blk off) (fun a => match a with
      | ⟨0, _⟩ => by show r.val = if B = 1 then 0 else r.val; split <;> omega
      | ⟨1, _⟩ => by show blk.val = if nb = 1 then 0 else blk.val; split <;> omega
      | ⟨2, _⟩ => by show off.val = if bs = 1 then 0 else off.val; split <;> omega)).trans ?_
    rw [addf_apply, mulf_apply, mulf_apply, colBcast_apply ev, colBcast_apply ev, hostNegf_apply,
      coefCol_apply ev Pa 0 0 blk li hli bi hbi, coefCol_apply ev Pb 0 0 blk li hli bi hbi,
      half0_apply ev hW X r blk off q0 hq0, half1_apply ev hW X r blk off q1 hq1]

end Read2

end Cert.Butterfly

end
-- ==== Proof.RefChain.lean ====
/- GENERATED by: python3 scratch/gen_refchain.py chain > proof/Proof/RefChain.lean (run in the unit directory). Template: the
   hand-written stage-0 text inside the script; substitutions: per stage l = 0..10, nb = 1024 / 2^l, bs = 2^l, and the
   reference program's buffer numbers 4+26l, 7+26l, 8+26l, 10+26l, 12+26l.

   The reference's butterfly as a chain of stages.  The rows start at Y0 = x · w_inᵀ; stage l sends Y_l to
   Y_{l+1} = stage_l(Y_l) (the stage function of Stage.lean at 16384 rows, nb = 1024 / 2^l blocks of half-width 2^l);
   the program's named intermediate that views the rows for stage l is the [16384, nb, 2, bs] view of Y_l, and its
   result is  Y11 · w_outᵀ + b_out. -/
import proofs.«426409_j59322088292569_3_alg».proof.Proof.Gen.ReferenceIdeal.Run
import proofs.«426409_j59322088292569_3_alg».proof.Proof.Stage

noncomputable section

namespace Cert.ReferenceIdeal.RefChain

open Cert.ReferenceIdeal Cert.ReferenceIdeal.Gen Cert.ReferenceIdeal.Value Cert.Butterfly
open Idealize.ShloMosaic Idealize.ShloMosaic.TcCoe Idealize.SL.Sem Idealize.ShloMosaic.StableHlo

variable {F : FTy → Type} [FloatOps F]

/-! ## The shape relations of the eleven stages, from the program's own facts -/

theorem rev0 : Ev 16384 1024 1 0 := ⟨slices_S11x1024_S1x1024_0_0, shapeCasts_S1x1024_S1024, bcast_S1024_S1x1024x1_1,
  shapeCasts_S16384x2048_S16384x1024x2x1, slices_S16384x1024x2x1_S16384x1024x1x1_0_0_0_0, slices_S16384x1024x2x1_S16384x1024x1x1_0_0_1_0,
  shapeCasts_S16384x1024x1x1_S16384x1024x1, bcast_S1x1024x1_S16384x1024x1_0_1_2, bcast_S16384x1024x1_S16384x1024x1x1_0_1_3,
  concatenates_S16384x1024x1x1_S16384x1024x1x1_S16384x1024x2x1_d2, shapeCasts_S16384x1024x2x1_S16384x2048⟩

theorem rev1 : Ev 16384 512 2 1 := ⟨slices_S11x1024_S1x512_1_0, shapeCasts_S1x512_S512, bcast_S512_S1x512x1_1,
  shapeCasts_S16384x2048_S16384x512x2x2, slices_S16384x512x2x2_S16384x512x1x2_0_0_0_0, slices_S16384x512x2x2_S16384x512x1x2_0_0_1_0,
  shapeCasts_S16384x512x1x2_S16384x512x2, bcast_S1x512x1_S16384x512x2_0_1_2, bcast_S16384x512x2_S16384x512x1x2_0_1_3,
  concatenates_S16384x512x1x2_S16384x512x1x2_S16384x512x2x2_d2, shapeCasts_S16384x512x2x2_S16384x2048⟩

theorem rev2 : Ev 16384 256 4 2 := ⟨slices_S11x1024_S1x256_2_0, shapeCasts_S1x256_S256, bcast_S256_S1x256x1_1,
  shapeCasts_S16384x2048_S16384x256x2x4, slices_S16384x256x2x4_S16384x256x1x4_0_0_0_0, slices_S16384x256x2x4_S16384x256x1x4_0_0_1_0,
  shapeCasts_S16384x256x1x4_S16384x256x4, bcast_S1x256x1_S16384x256x4_0_1_2, bcast_S16384x256x4_S16384x256x1x4_0_1_3,
  concatenates_S16384x256x1x4_S16384x256x1x4_S16384x256x2x4_d2, shapeCasts_S16384x256x2x4_S16384x2048⟩

theorem rev3 : Ev 16384 128 8 3 := ⟨slices_S11x1024_S1x128_3_0, shapeCasts_S1x128_S128, bcast_S128_S1x128x1_1,
  shapeCasts_S16384x2048_S16384x128x2x8, slices_S16384x128x2x8_S16384x128x1x8_0_0_0_0, slices_S16384x128x2x8_S16384x128x1x8_0_0_1_0,
  shapeCasts_S16384x128x1x8_S16384x128x8, bcast_S1x128x1_S16384x128x8_0_1_2, bcast_S16384x128x8_S16384x128x1x8_0_1_3,
  concatenates_S16384x128x1x8_S16384x128x1x8_S16384x128x2x8_d2, shapeCasts_S16384x128x2x8_S16384x2048⟩

theorem rev4 : Ev 16384 64 16 4 := ⟨slices_S11x1024_S1x64_4_0, shapeCasts_S1x64_S64, bcast_S64_S1x64x1_1,
  shapeCasts_S16384x2048_S16384x64x2x16, slices_S16384x64x2x16_S16384x64x1x16_0_0_0_0, slices_S16384x64x2x16_S16384x64x1x16_0_0_1_0,
  shapeCasts_S16384x64x1x16_S16384x64x16, bcast_S1x64x1_S16384x64x16_0_1_2, bcast_S16384x64x16_S16384x64x1x16_0_1_3,
  concatenates_S16384x64x1x16_S16384x64x1x16_S16384x64x2x16_d2, shapeCasts_S16384x64x2x16_S16384x2048⟩

theorem rev5 : Ev 16384 32 32 5 := ⟨slices_S11x1024_S1x32_5_0, shapeCasts_S1x32_S32, bcast_S32_S1x32x1_1,
  shapeCasts_S16384x2048_S16384x32x2x32, slices_S16384x32x2x32_S16384x32x1x32_0_0_0_0, slices_S16384x32x2x32_S16384x32x1x32_0_0_1_0,
  shapeCasts_S16384x32x1x32_S16384x32x32, bcast_S1x32x1_S16384x32x32_0_1_2, bcast_S16384x32x32_S16384x32x1x32_0_1_3,
  concatenates_S16384x32x1x32_S16384x32x1x32_S16384x32x2x32_d2, shapeCasts_S16384x32x2x32_S16384x2048⟩

theorem rev6 : Ev 16384 16 64 6 := ⟨slices_S11x1024_S1x16_6_0, shapeCasts_S1x16_S16, bcast_S16_S1x16x1_1,
  shapeCasts_S16384x2048_S16384x16x2x64, slices_S16384x16x2x64_S16384x16x1x64_0_0_0_0, slices_S16384x16x2x64_S16384x16x1x64_0_0_1_0,
  shapeCasts_S16384x16x1x64_S16384x16x64, bcast_S1x16x1_S16384x16x64_0_1_2, bcast_S16384x16x64_S16384x16x1x64_0_1_3,
  concatenates_S16384x16x1x64_S16384x16x1x64_S16384x16x2x64_d2, shapeCasts_S16384x16x2x64_S16384x2048⟩

theorem rev7 : Ev 16384 8 128 7 := ⟨slices_S11x1024_S1x8_7_0, shapeCasts_S1x8_S8, bcast_S8_S1x8x1_1,
  shapeCasts_S16384x2048_S16384x8x2x128, slices_S16384x8x2x128_S16384x8x1x128_0_0_0_0, slices_S16384x8x2x128_S16384x8x1x128_0_0_1_0,
  shapeCasts_S16384x8x1x128_S16384x8x128, bcast_S1x8x1_S16384x8x128_0_1_2, bcast_S16384x8x128_S16384x8x1x128_0_1_3,
  concatenates_S16384x8x1x128_S16384x8x1x128_S16384x8x2x128_d2, shapeCasts_S16384x8x2x128_S16384x2048⟩

theorem rev8 : Ev 16384 4 256 8 := ⟨slices_S11x1024_S1x4_8_0, shapeCasts_S1x4_S4, bcast_S4_S1x4x1_1,
  shapeCasts_S16384x2048_S16384x4x2x256, slices_S16384x4x2x256_S16384x4x1x256_0_0_0_0, slices_S16384x4x2x256_S16384x4x1x256_0_0_1_0,
  shapeCasts_S16384x4x1x256_S16384x4x256, bcast_S1x4x1_S16384x4x256_0_1_2, bcast_S16384x4x256_S16384x4x1x256_0_1_3,
  concatenates_S16384x4x1x256_S16384x4x1x256_S16384x4x2x256_d2, shapeCasts_S16384x4x2x256_S16384x2048⟩

theorem rev9 : Ev 16384 2 512 9 := ⟨slices_S11x1024_S1x2_9_0, shapeCasts_S1x2_S2, bcast_S2_S1x2x1_1,
  shapeCasts_S16384x2048_S16384x2x2x512, slices_S16384x2x2x512_S16384x2x1x512_0_0_0_0, slices_S16384x2x2x512_S16384x2x1x512_0_0_1_0,
  shapeCasts_S16384x2x1x512_S16384x2x512, bcast_S1x2x1_S16384x2x512_0_1_2, bcast_S16384x2x512_S16384x2x1x512_0_1_3,
  concatenates_S16384x2x1x512_S16384x2x1x512_S16384x2x2x512_d2, shapeCasts_S16384x2x2x512_S16384x2048⟩

theorem rev10 : Ev 16384 1 1024 10 := ⟨slices_S11x1024_S1x1_10_0, shapeCasts_S1x1_S1, bcast_S1_S1x1x1_1,
  shapeCasts_S16384x2048_S16384x1x2x1024, slices_S16384x1x2x1024_S16384x1x1x1024_0_0_0_0, slices_S16384x1x2x1024_S16384x1x1x1024_0_0_1_0,
  shapeCasts_S16384x1x1x1024_S16384x1x1024, bcast_S1x1x1_S16384x1x1024_0_1_2, bcast_S16384x1x1024_S16384x1x1x1024_0_1_3,
  concatenates_S16384x1x1x1024_S16384x1x1x1024_S16384x1x2x1024_d2, shapeCasts_S16384x1x2x1024_S16384x2048⟩

/-! ## The rows after each stage -/

/-- The rows the butterfly starts from: x · w_inᵀ. -/
def Y0 (V0 : Valuation τ sig (Elt F)) : FVec F (Mat 16384) .f32 :=
  Host.dotGeneral dot_S16384x2048_S2048x2048_S16384x2048_1_0_0_1_n_n none (V0 (Proc.devRef .tc main_arg0))
    (transpose S2048x2048 [1, 0] (V0 (Proc.devRef .tc main_arg1)) transposes_S2048x2048_S2048x2048_1_0)

/-- The rows after stage 0. -/
def Y1 (V0 : Valuation τ sig (Elt F)) : FVec F (Mat 16384) .f32 :=
  stage rev0 (V0 (Proc.devRef .tc main_arg4)) (V0 (Proc.devRef .tc main_arg5)) (Y0 V0)

/-- The rows after stage 1. -/
def Y2 (V0 : Valuation τ sig (Elt F)) : FVec F (Mat 16384) .f32 :=
  stage rev1 (V0 (Proc.devRef .tc main_arg4)) (V0 (Proc.devRef .tc main_arg5)) (Y1 V0)

/-- The rows after stage 2. -/
def Y3 (V0 : Valuation τ sig (Elt F)) : FVec F (Mat 16384) .f32 :=
  stage rev2 (V0 (Proc.devRef .tc main_arg4)) (V0 (Proc.devRef .tc main_arg5)) (Y2 V0)

/-- The rows after stage 3. -/
def Y4 (V0 : Valuation τ sig (Elt F)) : FVec F (Mat 16384) .f32 :=
  stage rev3 (V0 (Proc.devRef .tc main_arg4)) (V0 (Proc.devRef .tc main_arg5)) (Y3 V0)

/-- The rows after stage 4. -/
def Y5 (V0 : Valuation τ sig (Elt F)) : FVec F (Mat 16384) .f32 :=
  stage rev4 (V0 (Proc.devRef .tc main_arg4)) (V0 (Proc.devRef .tc main_arg5)) (Y4 V0)

/-- The rows after stage 5. -/
def Y6 (V0 : Valuation τ sig (Elt F)) : FVec F (Mat 16384) .f32 :=
  stage rev5 (V0 (Proc.devRef .tc main_arg4)) (V0 (Proc.devRef .tc main_arg5)) (Y5 V0)

/-- The rows after stage 6. -/
def Y7 (V0 : Valuation τ sig (Elt F)) : FVec F (Mat 16384) .f32 :=
  stage rev6 (V0 (Proc.devRef .tc main_arg4)) (V0 (Proc.devRef .tc main_arg5)) (Y6 V0)

/-- The rows after stage 7. -/
def Y8 (V0 : Valuation τ sig (Elt F)) : FVec F (Mat 16384) .f32 :=
  stage rev7 (V0 (Proc.devRef .tc main_arg4)) (V0 (Proc.devRef .tc main_arg5)) (Y7 V0)

/-- The rows after stage 8. -/
def Y9 (V0 : Valuation τ sig (Elt F)) : FVec F (Mat 16384) .f32 :=
  stage rev8 (V0 (Proc.devRef .tc main_arg4)) (V0 (Proc.devRef .tc main_arg5)) (Y8 V0)

/-- The rows after stage 9. -/
def Y10 (V0 : Valuation τ sig (Elt F)) : FVec F (Mat 16384) .f32 :=
  stage rev9 (V0 (Proc.devRef .tc main_arg4)) (V0 (Proc.devRef .tc main_arg5)) (Y9 V0)

/-- The rows after stage 10. -/
def Y11 (V0 : Valuation τ sig (Elt F)) : FVec F (Mat 16384) .f32 :=
  stage rev10 (V0 (Proc.devRef .tc main_arg4)) (V0 (Proc.devRef .tc main_arg5)) (Y10 V0)

/-! ## The program's view of the rows before each stage -/

set_option maxHeartbeats 400000 in
theorem view0 (V0 : Valuation τ sig (Elt F)) : res_main_v8 V0 = shapeCast (Blk4 16384 1024 2 1) (Y0 V0) rev0.matCast := rfl

set_option maxHeartbeats 400000 in
theorem view1 (V0 : Valuation τ sig (Elt F)) : res_main_v34 V0 = shapeCast (Blk4 16384 512 2 2) (Y1 V0) rev1.matCast := by
  unfold res_main_v34 res_main_v10 res_main_v12
  rw [view0]
  unfold res_main_v4 res_main_v7
  rfl

set_option maxHeartbeats 400000 in
theorem view2 (V0 : Valuation τ sig (Elt F)) : res_main_v60 V0 = shapeCast (Blk4 16384 256 2 4) (Y2 V0) rev2.matCast := by
  unfold res_main_v60 res_main_v36 res_main_v38
  rw [view1]
  unfold res_main_v30 res_main_v33
  rfl

set_option maxHeartbeats 400000 in
theorem view3 (V0 : Valuation τ sig (Elt F)) : res_main_v86 V0 = shapeCast (Blk4 16384 128 2 8) (Y3 V0) rev3.matCast := by
  unfold res_main_v86 res_main_v62 res_main_v64
  rw [view2]
  unfold res_main_v56 res_main_v59
  rfl

set_option maxHeartbeats 400000 in
theorem view4 (V0 : Valuation τ sig (Elt F)) : res_main_v112 V0 = shapeCast (Blk4 16384 64 2 16) (Y4 V0) rev4.matCast := by
  unfold res_main_v112 res_main_v88 res_main_v90
  rw [view3]
  unfold res_main_v82 res_main_v85
  rfl

set_option maxHeartbeats 400000 in
theorem view5 (V0 : Valuation τ sig (Elt F)) : res_main_v138 V0 = shapeCast (Blk4 16384 32 2 32) (Y5 V0) rev5.matCast := by
  unfold res_main_v138 res_main_v114 res_main_v116
  rw [view4]
  unfold res_main_v108 res_main_v111
  rfl

set_option maxHeartbeats 400000 in
theorem view6 (V0 : Valuation τ sig (Elt F)) : res_main_v164 V0 = shapeCast (Blk4 16384 16 2 64) (Y6 V0) rev6.matCast := by
  unfold res_main_v164 res_main_v140 res_main_v142
  rw [view5]
  unfold res_main_v134 res_main_v137
  rfl

set_option maxHeartbeats 400000 in
theorem view7 (V0 : Valuation τ sig (Elt F)) : res_main_v190 V0 = shapeCast (Blk4 16384 8 2 128) (Y7 V0) rev7.matCast := by
  unfold res_main_v190 res_main_v166 res_main_v168
  rw [view6]
  unfold res_main_v160 res_main_v163
  rfl

set_option maxHeartbeats 400000 in
theorem view8 (V0 : Valuation τ sig (Elt F)) : res_main_v216 V0 = shapeCast (Blk4 16384 4 2 256) (Y8 V0) rev8.matCast := by
  unfold res_main_v216 res_main_v192 res_main_v194
  rw [view7]
  unfold res_main_v186 res_main_v189
  rfl

set_option maxHeartbeats 400000 in
theorem view9 (V0 : Valuation τ sig (Elt F)) : res_main_v242 V0 = shapeCast (Blk4 16384 2 2 512) (Y9 V0) rev9.matCast := by
  unfold res_main_v242 res_main_v218 res_main_v220
  rw [view8]
  unfold res_main_v212 res_main_v215
  rfl

set_option maxHeartbeats 400000 in
theorem view10 (V0 : Valuation τ sig (Elt F)) : res_main_v268 V0 = shapeCast (Blk4 16384 1 2 1024) (Y10 V0) rev10.matCast := by
  unfold res_main_v268 res_main_v244 res_main_v246
  rw [view9]
  unfold res_main_v238 res_main_v241
  rfl

/-! ## The result -/

/-- The reference's result: Y11 · w_outᵀ + b_out. -/
def result (V0 : Valuation τ sig (Elt F)) : FVec F (Mat 16384) .f32 :=
  addf (Host.dotGeneral dot_S16384x2048_S2048x2048_S16384x2048_1_0_0_1_n_n none (Y11 V0)
      (transpose S2048x2048 [1, 0] (V0 (Proc.devRef .tc main_arg2)) transposes_S2048x2048_S2048x2048_1_0))
    (broadcastInDim S16384x2048 ![0, 1] bcast_S1x2048_S16384x2048_0_1 (broadcastInDim S1x2048 ![1] bcast_S2048_S1x2048_1 (V0 (Proc.devRef .tc main_arg3))))

set_option maxHeartbeats 400000 in
theorem val5_result (V0 : Valuation τ sig (Elt F)) : val5 V0 (Proc.devRef .tc main_v292) = result V0 := by
  refine (val5_main_v292 V0).trans ?_
  unfold res_main_v270 res_main_v272
  rw [view10]
  unfold res_main_v264 res_main_v267
  rfl

end Cert.ReferenceIdeal.RefChain

end
-- ==== Proof.Algebra.lean ====
/-
  The butterfly over the reals, and why it commutes with a matrix product.

  One stage sends a family of rows X to the rows whose entry p = (blk * 2 + s) * bs + off is a combination of the two
  entries q0 = (blk * 2) * bs + off and q1 = (blk * 2 + 1) * bs + off of the SAME row, with coefficients (a, b) when
  s = 0 and (-b, a) when s = 1, a = a[l, blk], b = b[l, blk].  Every stage is therefore linear in the row and acts on
  each row alone, and so is their composition: applied to rows X it is X times the matrix obtained by applying it to
  the rows of the identity.  Associativity of the matrix product then moves the butterfly from the left factor to the
  right factor of a product.
-/
import Mathlib.Algebra.BigOperators.Ring.Finset
import Mathlib.Algebra.BigOperators.Group.Finset.Basic
import Mathlib.Algebra.BigOperators.Group.Finset.Sigma
import Mathlib.Data.Real.Basic
import Mathlib.Tactic.Ring

noncomputable section

namespace Cert.Butterfly

open Finset

/-! ## Where a column sits in a stage of half-width `bs` -/

/-- The first-half partner of column `p`: the same block and offset, half 0. -/
def q0 (bs : Nat) (p : Fin 2048) : Fin 2048 := ⟨((p.val / bs / 2 * 2 + 0) * bs + p.val % bs) % 2048, Nat.mod_lt _ (by norm_num)⟩
/-- The second-half partner of column `p`: the same block and offset, half 1. -/
def q1 (bs : Nat) (p : Fin 2048) : Fin 2048 := ⟨((p.val / bs / 2 * 2 + 1) * bs + p.val % bs) % 2048, Nat.mod_lt _ (by norm_num)⟩
/-- The table row of stage `l`. -/
def rowIx (l : Nat) : Fin 11 := ⟨l % 11, Nat.mod_lt _ (by norm_num)⟩
/-- The table column of column `p`'s block. -/
def blkIx (bs : Nat) (p : Fin 2048) : Fin 1024 := ⟨(p.val / bs / 2) % 1024, Nat.mod_lt _ (by norm_num)⟩

/-- One stage on a family of rows. -/
def stageR (bs l : Nat) (a b : Fin 11 → Fin 1024 → ℝ) {ι : Type} (X : ι → Fin 2048 → ℝ) : ι → Fin 2048 → ℝ := fun r p =>
  if p.val / bs % 2 = 0 then a (rowIx l) (blkIx bs p) * X r (q0 bs p) + b (rowIx l) (blkIx bs p) * X r (q1 bs p)
  else -(b (rowIx l) (blkIx bs p)) * X r (q0 bs p) + a (rowIx l) (blkIx bs p) * X r (q1 bs p)

/-- The first `n` stages, stage `l` of half-width `2 ^ l`. -/
def bfly (a b : Fin 11 → Fin 1024 → ℝ) {ι : Type} : Nat → (ι → Fin 2048 → ℝ) → (ι → Fin 2048 → ℝ)
  | 0, X => X
  | n + 1, X => stageR (2 ^ n) n a b (bfly a b n X)

/-- The identity matrix. -/
def idM : Fin 2048 → Fin 2048 → ℝ := fun j p => if j = p then 1 else 0

/-- A stage applied to rows that are combinations `X · M` of the rows of `M` is the same combinations of the stage's rows. -/
theorem stageR_linear (bs l : Nat) (a b : Fin 11 → Fin 1024 → ℝ) {ι : Type} (X : ι → Fin 2048 → ℝ) (M : Fin 2048 → Fin 2048 → ℝ)
    (r : ι) (p : Fin 2048) :
    stageR bs l a b (fun r p => ∑ j, X r j * M j p) r p = ∑ j, X r j * stageR bs l a b M j p := by
  unfold stageR
  split
  · simp only [Finset.mul_sum, ← Finset.sum_add_distrib]
    exact Finset.sum_congr rfl fun j _ => by ring
  · simp only [Finset.mul_sum, ← Finset.sum_add_distrib]
    exact Finset.sum_congr rfl fun j _ => by ring

/-- The butterfly of rows `X` is `X` times the butterfly of the identity. -/
theorem bfly_linear (a b : Fin 11 → Fin 1024 → ℝ) {ι : Type} (n : Nat) (X : ι → Fin 2048 → ℝ) (r : ι) (p : Fin 2048) :
    bfly a b n X r p = ∑ j, X r j * bfly a b n idM j p := by
  induction n generalizing r p with
  | zero =>
    show X r p = ∑ j, X r j * idM j p
    simp [idM]
  | succ n ih =>
    show stageR (2 ^ n) n a b (bfly a b n X) r p = ∑ j, X r j * stageR (2 ^ n) n a b (bfly a b n idM) j p
    rw [← stageR_linear]
    congr 1
    funext r p
    exact ih r p

/-- The butterfly moves across a product: `butterfly(H) · W = H · (butterfly(I) · W)`, entry by entry. -/
theorem bfly_assoc (a b : Fin 11 → Fin 1024 → ℝ) {ι : Type} (n : Nat) (H : ι → Fin 2048 → ℝ) (W : Fin 2048 → ℝ) (r : ι) :
    ∑ i, bfly a b n H r i * W i = ∑ j, H r j * ∑ i, bfly a b n idM j i * W i := by
  simp only [bfly_linear a b n H, Finset.sum_mul, Finset.mul_sum]
  rw [Finset.sum_comm]
  exact Finset.sum_congr rfl fun j _ => Finset.sum_congr rfl fun i _ => by ring

end Cert.Butterfly

end
-- ==== Proof.StageCoe.lean ====
/-
  A butterfly stage on real-valued data is the real-valued stage.

  When the coefficient tables and the rows are images of real arrays, the stage over the extended reals, read at row r
  and column p, is the image of the real stage at (r, p): the column p splits as p = (blk * 2 + s) * bs + off with
  blk = p / bs / 2, s = p / bs % 2, off = p % bs, its two partners (blk * 2) * bs + off and (blk * 2 + 1) * bs + off lie
  below nb * 2 * bs = 2048, and sums, products and negations of reals commute with the embedding into the extended
  reals.
-/
import proofs.«426409_j59322088292569_3_alg».proof.Proof.Stage
import proofs.«426409_j59322088292569_3_alg».proof.Proof.Algebra
import Mathlib.Data.EReal.Basic
import Mathlib.Data.EReal.Operations

noncomputable section

namespace Cert.Butterfly

open Idealize.ShloMosaic Idealize.ShloMosaic.ValueIdx

/-- The stage over the extended reals on images of real arrays is the image of the real stage, entry by entry. -/
theorem stage_coe {B nb bs l : Nat} (ev : Ev B nb bs l) (hW : nb * 2 * bs = 2048)
    (Pa Pb : FVec Ideal Tab .f32) (X : FVec Ideal (Mat B) .f32)
    (a b : Fin 11 → Fin 1024 → ℝ) (Xr : Fin B → Fin 2048 → ℝ)
    (hPa : ∀ i j, Pa (ix2 i j) = ((a i j : ℝ) : EReal)) (hPb : ∀ i j, Pb (ix2 i j) = ((b i j : ℝ) : EReal))
    (hX : ∀ r p, X (ix2 r p) = ((Xr r p : ℝ) : EReal)) (r : Fin B) (p : Fin 2048) :
    stage ev Pa Pb X (ix2 r p) = ((stageR bs l a b Xr r p : ℝ) : EReal) := by
  have hp := p.isLt
  have hbs : 0 < bs := by
    rcases Nat.eq_zero_or_pos bs with h | h
    · rw [h] at hW; omega
    · exact h
  have hnb : 0 < nb := by
    rcases Nat.eq_zero_or_pos nb with h | h
    · rw [h] at hW; omega
    · exact h
  -- the table row and the block's table column are in range
  obtain ⟨_, hsl⟩ := ev.tabSlice
  have hl : l + 1 ≤ 11 := by
    have h := hsl ⟨0, by decide⟩
    exact h
  have hn : 0 + nb ≤ 1024 := by
    have h := hsl ⟨1, by decide⟩
    exact h
  -- the coordinates of column p
  have hdiv : p.val / bs < nb * 2 := by
    rw [Nat.div_lt_iff_lt_mul hbs]; omega
  have hblk : p.val / bs / 2 < nb := by omega
  have hs : p.val / bs % 2 < 2 := Nat.mod_lt _ (by norm_num)
  have hoff : p.val % bs < bs := Nat.mod_lt _ hbs
  have hdec : p.val = (p.val / bs / 2 * 2 + p.val / bs % 2) * bs + p.val % bs := by
    have h1 := Nat.div_add_mod p.val bs
    have h2 : p.val / bs / 2 * 2 + p.val / bs % 2 = p.val / bs := by omega
    rw [h2, Nat.mul_comm]; omega
  -- the partners lie below 2048
  have h3 : (p.val / bs / 2 * 2 + 2) * bs ≤ nb * 2 * bs := Nat.mul_le_mul_right bs (by omega)
  have h4 : (p.val / bs / 2 * 2 + 2) * bs = (p.val / bs / 2 * 2 + 1) * bs + bs := by ring
  have h5 : (p.val / bs / 2 * 2 + 0) * bs ≤ (p.val / bs / 2 * 2 + 1) * bs := Nat.mul_le_mul_right bs (by omega)
  have hq0v : (q0 bs p).val = (p.val / bs / 2 * 2 + 0) * bs + p.val % bs := Nat.mod_eq_of_lt (by omega)
  have hq1v : (q1 bs p).val = (p.val / bs / 2 * 2 + 1) * bs + p.val % bs := Nat.mod_eq_of_lt (by omega)
  have hli : (rowIx l).val = l := Nat.mod_eq_of_lt (by omega)
  have hbi : (blkIx bs p).val = p.val / bs / 2 := Nat.mod_eq_of_lt (by omega)
  rw [stage_apply ev hW Pa Pb X r ⟨p.val / bs / 2, hblk⟩ ⟨p.val / bs % 2, hs⟩ ⟨p.val % bs, hoff⟩ p (q0 bs p) (q1 bs p)
    hdec hq0v hq1v (rowIx l) hli (blkIx bs p) hbi, hPa, hPb, hX, hX]
  unfold stageR
  by_cases hc : p.val / bs % 2 = 0
  · rw [if_pos hc, if_pos hc, EReal.coe_add, EReal.coe_mul, EReal.coe_mul]
  · rw [if_neg hc, if_neg hc, EReal.coe_add, EReal.coe_mul, EReal.coe_mul, EReal.coe_neg]

end Cert.Butterfly
-- ==== Proof.LibPlainMatmul.lean ====
/-
  A plain matrix product [M, K] x [K, N] into the zero accumulator, read at an entry, over the extended reals.

  With dimension numbers "contract the left operand's axis 1 with the right operand's axis 0, no batch axes"
  (`DotDims.plain M K N`) the product's entry (r, c) is the sum over k of a (r, k) * b (k, c): the left operand is read at
  the output's row and the contraction coordinate, the right one at the contraction coordinate and the output's column.
  Stated at any extents, with indices written by their coordinates.
-/
import Idealize.ShloMosaic.Lib.ValueIdx
import Idealize.ShloMosaic.PureOps.Ideal.Laws

noncomputable section

namespace Cert.PlainMatmul

open Idealize.ShloMosaic Idealize.ShloMosaic.ValueIdx

variable {M K N : ℕ}

/-- The left operand's row coordinate is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (r, c) of the product into the zero accumulator is the sum over k of a (r, k) * b (k, c). -/
theorem apply (prec : Option ContractPrecision) {φ₁ φ₂ : FTy} (a : FVec Ideal ⟨2, ![M, K]⟩ φ₁) (b : FVec Ideal ⟨2, ![K, N]⟩ φ₂)
    (r : Fin M) (c : Fin N) :
    FloatOps.matmul (DotDims.plain M K N) prec a b (constant ⟨2, ![M, N]⟩ .f32 0x00000000#32) (ix2 r c)
      = ∑ k : Fin K, a (ix2 r k) * b (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun x => Fin.ext (by
      match x with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun x => Fin.ext (by
      match x with
      | ⟨0, _⟩ => exact (rhs_row _ _).trans hk
      | ⟨1, _⟩ => exact rhs_col _ _)
  rw [el, er]

end Cert.PlainMatmul

end
-- ==== Proof.LibHostDot.lean ====
/-
  Products and sums read at an entry.

  The host's `dot_general` with the plain dimension numbers (contract the left operand's axis 1 with the right operand's
  axis 0, no batch axes) has, at entry (r, c), the sum over k of a (r, k) * b (k, c) — the same sum as the kernel's matrix
  product into the zero accumulator.  A finite sum of reals, read in the extended reals, is the sum of the terms read
  there; so a sum of products of real entries is the real sum of products.
-/
import proofs.«426409_j59322088292569_3_alg».proof.Proof.LibPlainMatmul
import Mathlib.Data.EReal.Basic
import Mathlib.Algebra.BigOperators.Group.Finset.Basic

noncomputable section

namespace Cert.Dots

open Idealize.ShloMosaic Idealize.ShloMosaic.ValueIdx

/-- The real sum, read in the extended reals, is the sum of the terms read there. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A sum of products of real entries is the real sum of products. -/
theorem sum_coe_mul {ι : Type} [Fintype ι] (f g : ι → ℝ) :
    ∑ k, ((f k : ℝ) : EReal) * ((g k : ℝ) : EReal) = ((∑ k, f k * g k : ℝ) : EReal) := by
  rw [coe_sum]
  exact Finset.sum_congr rfl fun k _ => (EReal.coe_mul _ _).symm

variable {M K N : ℕ}

/-- Entry (r, c) of the host's plain product is the sum over k of a (r, k) * b (k, c). -/
theorem hostDot_apply (prec : Option ContractPrecision) {φ₁ φ₂ : FTy} (a : FVec Ideal ⟨2, ![M, K]⟩ φ₁) (b : FVec Ideal ⟨2, ![K, N]⟩ φ₂)
    (r : Fin M) (c : Fin N) :
    Host.dotGeneral (DotDims.plain M K N) prec a b (ix2 r c) = ∑ k : Fin K, a (ix2 r k) * b (ix2 k c) := by
  show FloatOps.dotGeneral (DotDims.plain M K N) prec .single a b (ix2 r c) = _
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun x => Fin.ext (by
      match x with
      | ⟨0, _⟩ => exact Cert.PlainMatmul.lhs_row _ _
      | ⟨1, _⟩ => exact (Cert.PlainMatmul.lhs_col _ _).trans hk)
  have er : (DotDims.plain M K N).rhsIdx (ix2 r c) ((contrEquiv1 (DotDims.plain M K N) K rfl rfl).symm k) = ix2 k c :=
    funext fun x => Fin.ext (by
      match x with
      | ⟨0, _⟩ => exact (Cert.PlainMatmul.rhs_row _ _).trans hk
      | ⟨1, _⟩ => exact Cert.PlainMatmul.rhs_col _ _)
  rw [el, er]

end Cert.Dots

end
-- ==== Proof.RefBase.lean ====
/-
  The reference's starting rows over the reals: with x and w_in real, h = x · w_inᵀ has the real entries
  h[r, j] = Σ_k x[r, k] · w_in[j, k].
-/
import proofs.«426409_j59322088292569_3_alg».proof.Proof.RefChain
import proofs.«426409_j59322088292569_3_alg».proof.Proof.StageCoe
import proofs.«426409_j59322088292569_3_alg».proof.Proof.LibHostDot
import Idealize.ShloMosaic.Lib.ValueLayout

noncomputable section

namespace Cert.ReferenceIdeal.RefValue

open Cert.ReferenceIdeal Cert.ReferenceIdeal.Gen Cert.ReferenceIdeal.RefChain Cert.Butterfly Cert.Dots
open Idealize.ShloMosaic Idealize.ShloMosaic.ValueIdx Idealize.ShloMosaic.TcCoe Idealize.ShloMosaic.StableHlo

/-- The rows the butterfly acts on: h[r, j] = Σ_k x[r, k] · w_in[j, k]. -/
def H (x : Fin 16384 → Fin 2048 → ℝ) (w1 : Fin 2048 → Fin 2048 → ℝ) : Fin 16384 → Fin 2048 → ℝ :=
  fun r j => ∑ k, x r k * w1 j k

section
variable (V0 : Valuation τ sig (Elt Ideal))
variable (x : Fin 16384 → Fin 2048 → ℝ) (w1 w2 : Fin 2048 → Fin 2048 → ℝ) (bo : Fin 2048 → ℝ) (a b : Fin 11 → Fin 1024 → ℝ)
variable (hx : ∀ r k, (V0 (Proc.devRef .tc main_arg0) : FVec Ideal (Mat 16384) .f32) (ix2 r k) = ((x r k : ℝ) : EReal))
variable (hw1 : ∀ j k, (V0 (Proc.devRef .tc main_arg1) : FVec Ideal (Mat 2048) .f32) (ix2 j k) = ((w1 j k : ℝ) : EReal))
variable (hw2 : ∀ o i, (V0 (Proc.devRef .tc main_arg2) : FVec Ideal (Mat 2048) .f32) (ix2 o i) = ((w2 o i : ℝ) : EReal))
variable (hbo : ∀ o, (V0 (Proc.devRef .tc main_arg3) : FVec Ideal S2048 .f32) (ix1 o) = ((bo o : ℝ) : EReal))
variable (ha : ∀ i j, (V0 (Proc.devRef .tc main_arg4) : FVec Ideal Tab .f32) (ix2 i j) = ((a i j : ℝ) : EReal))
variable (hb : ∀ i j, (V0 (Proc.devRef .tc main_arg5) : FVec Ideal Tab .f32) (ix2 i j) = ((b i j : ℝ) : EReal))

include hx hw1 in
/-- The starting rows are the real rows `H`. -/
theorem Y0_apply' (r : Fin 16384) (j : Fin 2048) : Y0 V0 (ix2 r j) = ((bfly a b 0 (H x w1) r j : ℝ) : EReal) := by
  show Host.dotGeneral (F := Ideal) (DotDims.plain 16384 2048 2048) none (V0 (Proc.devRef .tc main_arg0) : FVec Ideal (Mat 16384) .f32)
    (transpose S2048x2048 [1, 0] (V0 (Proc.devRef .tc main_arg1) : FVec Ideal (Mat 2048) .f32) transposes_S2048x2048_S2048x2048_1_0) (ix2 r j) = ((H x w1 r j : ℝ) : EReal)
  rw [hostDot_apply]
  unfold H
  rw [← sum_coe_mul]
  refine Finset.sum_congr rfl fun k _ => ?_
  rw [transpose_ix2_apply, hx, hw1]

include hx hw1 ha hb in
theorem Y0_apply (r : Fin 16384) (j : Fin 2048) : Y0 V0 (ix2 r j) = ((bfly a b 0 (H x w1) r j : ℝ) : EReal) :=
  Y0_apply' V0 x w1 a b hx hw1 r j

end

end Cert.ReferenceIdeal.RefValue

end
-- ==== Proof.RefRows.lean ====
/- GENERATED by: python3 scratch/gen_refchain.py rows > proof/Proof/RefRows.lean (run in the unit directory). Template: the
   hand-written stage-0 lemma inside the script; substitution: the stage number l = 0..10.

   The rows after each stage are real: stage l sends the real rows bfly l (H) to bfly (l+1) (H) (StageCoe.lean), so by
   eleven steps from the starting rows (RefBase.lean) the rows after the last stage are bfly 11 (H). -/
import proofs.«426409_j59322088292569_3_alg».proof.Proof.RefBase

noncomputable section

namespace Cert.ReferenceIdeal.RefValue

open Cert.ReferenceIdeal Cert.ReferenceIdeal.Gen Cert.ReferenceIdeal.RefChain Cert.Butterfly Cert.Dots
open Idealize.ShloMosaic Idealize.ShloMosaic.ValueIdx Idealize.ShloMosaic.TcCoe Idealize.ShloMosaic.StableHlo

section
variable (V0 : Valuation τ sig (Elt Ideal))
variable (x : Fin 16384 → Fin 2048 → ℝ) (w1 : Fin 2048 → Fin 2048 → ℝ) (a b : Fin 11 → Fin 1024 → ℝ)
variable (hx : ∀ r k, (V0 (Proc.devRef .tc main_arg0) : FVec Ideal (Mat 16384) .f32) (ix2 r k) = ((x r k : ℝ) : EReal))
variable (hw1 : ∀ j k, (V0 (Proc.devRef .tc main_arg1) : FVec Ideal (Mat 2048) .f32) (ix2 j k) = ((w1 j k : ℝ) : EReal))
variable (ha : ∀ i j, (V0 (Proc.devRef .tc main_arg4) : FVec Ideal Tab .f32) (ix2 i j) = ((a i j : ℝ) : EReal))
variable (hb : ∀ i j, (V0 (Proc.devRef .tc main_arg5) : FVec Ideal Tab .f32) (ix2 i j) = ((b i j : ℝ) : EReal))

include hx hw1 ha hb

theorem Y1_apply (r : Fin 16384) (p : Fin 2048) : Y1 V0 (ix2 r p) = ((bfly a b 1 (H x w1) r p : ℝ) : EReal) :=
  stage_coe rev0 (by norm_num) _ _ (Y0 V0) a b (bfly a b 0 (H x w1)) ha hb (Y0_apply V0 x w1 a b hx hw1 ha hb) r p

theorem Y2_apply (r : Fin 16384) (p : Fin 2048) : Y2 V0 (ix2 r p) = ((bfly a b 2 (H x w1) r p : ℝ) : EReal) :=
  stage_coe rev1 (by norm_num) _ _ (Y1 V0) a b (bfly a b 1 (H x w1)) ha hb (Y1_apply V0 x w1 a b hx hw1 ha hb) r p

theorem Y3_apply (r : Fin 16384) (p : Fin 2048) : Y3 V0 (ix2 r p) = ((bfly a b 3 (H x w1) r p : ℝ) : EReal) :=
  stage_coe rev2 (by norm_num) _ _ (Y2 V0) a b (bfly a b 2 (H x w1)) ha hb (Y2_apply V0 x w1 a b hx hw1 ha hb) r p

theorem Y4_apply (r : Fin 16384) (p : Fin 2048) : Y4 V0 (ix2 r p) = ((bfly a b 4 (H x w1) r p : ℝ) : EReal) :=
  stage_coe rev3 (by norm_num) _ _ (Y3 V0) a b (bfly a b 3 (H x w1)) ha hb (Y3_apply V0 x w1 a b hx hw1 ha hb) r p

theorem Y5_apply (r : Fin 16384) (p : Fin 2048) : Y5 V0 (ix2 r p) = ((bfly a b 5 (H x w1) r p : ℝ) : EReal) :=
  stage_coe rev4 (by norm_num) _ _ (Y4 V0) a b (bfly a b 4 (H x w1)) ha hb (Y4_apply V0 x w1 a b hx hw1 ha hb) r p

theorem Y6_apply (r : Fin 16384) (p : Fin 2048) : Y6 V0 (ix2 r p) = ((bfly a b 6 (H x w1) r p : ℝ) : EReal) :=
  stage_coe rev5 (by norm_num) _ _ (Y5 V0) a b (bfly a b 5 (H x w1)) ha hb (Y5_apply V0 x w1 a b hx hw1 ha hb) r p

theorem Y7_apply (r : Fin 16384) (p : Fin 2048) : Y7 V0 (ix2 r p) = ((bfly a b 7 (H x w1) r p : ℝ) : EReal) :=
  stage_coe rev6 (by norm_num) _ _ (Y6 V0) a b (bfly a b 6 (H x w1)) ha hb (Y6_apply V0 x w1 a b hx hw1 ha hb) r p

theorem Y8_apply (r : Fin 16384) (p : Fin 2048) : Y8 V0 (ix2 r p) = ((bfly a b 8 (H x w1) r p : ℝ) : EReal) :=
  stage_coe rev7 (by norm_num) _ _ (Y7 V0) a b (bfly a b 7 (H x w1)) ha hb (Y7_apply V0 x w1 a b hx hw1 ha hb) r p

theorem Y9_apply (r : Fin 16384) (p : Fin 2048) : Y9 V0 (ix2 r p) = ((bfly a b 9 (H x w1) r p : ℝ) : EReal) :=
  stage_coe rev8 (by norm_num) _ _ (Y8 V0) a b (bfly a b 8 (H x w1)) ha hb (Y8_apply V0 x w1 a b hx hw1 ha hb) r p

theorem Y10_apply (r : Fin 16384) (p : Fin 2048) : Y10 V0 (ix2 r p) = ((bfly a b 10 (H x w1) r p : ℝ) : EReal) :=
  stage_coe rev9 (by norm_num) _ _ (Y9 V0) a b (bfly a b 9 (H x w1)) ha hb (Y9_apply V0 x w1 a b hx hw1 ha hb) r p

theorem Y11_apply (r : Fin 16384) (p : Fin 2048) : Y11 V0 (ix2 r p) = ((bfly a b 11 (H x w1) r p : ℝ) : EReal) :=
  stage_coe rev10 (by norm_num) _ _ (Y10 V0) a b (bfly a b 10 (H x w1)) ha hb (Y10_apply V0 x w1 a b hx hw1 ha hb) r p

end

end Cert.ReferenceIdeal.RefValue

end
-- ==== Proof.RefValue.lean ====
/-
  The reference's result over the reals.

  With every input a real number, the rows  h = x · w_inᵀ  are real, each stage keeps them real (it is the real stage of
  Algebra.lean), and the result at (r, o) is the real number  Σ_i butterfly(h)[r, i] · w_out[o, i] + b_out[o].
-/
import proofs.«426409_j59322088292569_3_alg».proof.Proof.RefRows

noncomputable section

namespace Cert.ReferenceIdeal.RefValue

open Cert.ReferenceIdeal Cert.ReferenceIdeal.Gen Cert.ReferenceIdeal.RefChain Cert.Butterfly Cert.Dots
open Idealize.ShloMosaic Idealize.ShloMosaic.ValueIdx Idealize.ShloMosaic.TcCoe Idealize.ShloMosaic.StableHlo

section
variable (V0 : Valuation τ sig (Elt Ideal))
variable (x : Fin 16384 → Fin 2048 → ℝ) (w1 w2 : Fin 2048 → Fin 2048 → ℝ) (bo : Fin 2048 → ℝ) (a b : Fin 11 → Fin 1024 → ℝ)
variable (hx : ∀ r k, (V0 (Proc.devRef .tc main_arg0) : FVec Ideal (Mat 16384) .f32) (ix2 r k) = ((x r k : ℝ) : EReal))
variable (hw1 : ∀ j k, (V0 (Proc.devRef .tc main_arg1) : FVec Ideal (Mat 2048) .f32) (ix2 j k) = ((w1 j k : ℝ) : EReal))
variable (hw2 : ∀ o i, (V0 (Proc.devRef .tc main_arg2) : FVec Ideal (Mat 2048) .f32) (ix2 o i) = ((w2 o i : ℝ) : EReal))
variable (hbo : ∀ o, (V0 (Proc.devRef .tc main_arg3) : FVec Ideal S2048 .f32) (ix1 o) = ((bo o : ℝ) : EReal))
variable (ha : ∀ i j, (V0 (Proc.devRef .tc main_arg4) : FVec Ideal Tab .f32) (ix2 i j) = ((a i j : ℝ) : EReal))
variable (hb : ∀ i j, (V0 (Proc.devRef .tc main_arg5) : FVec Ideal Tab .f32) (ix2 i j) = ((b i j : ℝ) : EReal))

include hx hw1 ha hb

set_option maxRecDepth 16384 in
include hw2 hbo in
/-- The reference's result at (r, o). -/
theorem result_apply (r : Fin 16384) (o : Fin 2048) :
    result V0 (ix2 r o) = (((∑ i, bfly a b 11 (H x w1) r i * w2 o i) + bo o : ℝ) : EReal) := by
  unfold result
  rw [addf_apply]
  show Host.dotGeneral (F := Ideal) (DotDims.plain 16384 2048 2048) none (Y11 V0)
      (transpose S2048x2048 [1, 0] (V0 (Proc.devRef .tc main_arg2) : FVec Ideal (Mat 2048) .f32) transposes_S2048x2048_S2048x2048_1_0) (ix2 r o)
    + _ = _
  rw [hostDot_apply, EReal.coe_add, ← sum_coe_mul]
  refine congrArg₂ (· + ·) ?_ ?_
  · refine Finset.sum_congr rfl fun i _ => ?_
    rw [transpose_ix2_apply, Y11_apply V0 x w1 a b hx hw1 ha hb, hw2]
  · refine (broadcastInDim_apply _ _ _ _ (ix2 (0 : Fin 1) o) (fun c => match c with
      | ⟨0, _⟩ => rfl
      | ⟨1, _⟩ => rfl)).trans ?_
    refine (broadcastInDim_apply _ _ _ _ (ix1 o) (fun c => match c with
      | ⟨0, _⟩ => rfl)).trans (hbo o)

end

end Cert.ReferenceIdeal.RefValue

end
-- ==== Proof.KerHostBase.lean ====
/-
  The host operations before the launch, cut at the butterfly's stage boundaries.

  The 299 operations are, in order: the transpose of w_in and its change of format; seven that build the 2048 x 2048
  identity matrix; eleven butterfly stages of 26 operations each, stage l reading the result of stage l - 1 (the
  identity for l = 0) and row l of the two coefficient tables; and four that transpose w_out, multiply the butterfly
  of the identity by it, change the format of the product, and view the bias as a row.

  A stage uses its input array four times, so the composed term of the eleven stages is a tree of 4^11 nodes and is
  never written out.  The list is cut at the stage boundaries; each piece is read from an ARBITRARY starting
  valuation; and the pieces are chained through the valuations `Wk W0 l` that the earlier pieces leave, the
  untouched argument arrays carried along.  Here: the pieces, the valuations, what is never written, and the pieces
  before and after the stages.
-/
import proofs.«426409_j59322088292569_3_alg».proof.Proof.Gen.KernelIdeal.Frame
import proofs.«426409_j59322088292569_3_alg».proof.Proof.Stage
import Idealize.ShloMosaic.Lib.StableHlo.Run

set_option maxRecDepth 16384

noncomputable section

namespace Cert.KernelIdeal.KerHost

open Cert.KernelIdeal Cert.KernelIdeal.Gen Cert.Butterfly Idealize.ShloMosaic Idealize.ShloMosaic.TcCoe Idealize.ShloMosaic.StableHlo

variable {F : FTy → Type} [FloatOps F]

/-! ## The pieces of the list, and the tactics that read one -/

/-- The operations that come before the stages: w_in transposed and narrowed, and the identity matrix. -/
abbrev pre : List (HloOp τ sig (Elt F)) := hostOps0.take 9
/-- The 26 operations of stage `l`. -/
abbrev st (l : Nat) : List (HloOp τ sig (Elt F)) := (hostOps0.drop (9 + 26 * l)).take 26
/-- The operations that come after the stages. -/
abbrev post : List (HloOp τ sig (Elt F)) := hostOps0.drop 295

macro "results_rw" : tactic =>
  `(tactic| (repeat (first
     | rw [nullary_result] | rw [unary_result] | rw [binary_result] | rw [reshape_result]
     | (rw [nullary_result_ne]; rotate_left; decide)
     | (rw [unary_result_ne]; rotate_left; decide)
     | (rw [binary_result_ne]; rotate_left; decide)
     | (rw [reshape_result_ne]; rotate_left; decide))))

macro "chunk_explicit" : tactic =>
  `(tactic| simp only [pre, st, post, hostOps0, Nat.reduceMul, Nat.reduceAdd, List.drop_succ_cons, List.drop_zero, List.take_succ_cons, List.take_zero])

macro "stage_read" : tactic =>
  `(tactic| (chunk_explicit; after_results_simp; results_rw; unfold stage coefCol half0 half1; rfl))

/-! ## The identity matrix -/

/-- The 2048 x 2048 identity matrix, as the program builds it: row index plus zero compared with column index. -/
def eye : FVec F S2048x2048 .f32 :=
  uitofp .f32 (cmpi .eq (addi (iotaInDim S2048x2048 32 0) (broadcastInDim S2048x2048 ![] bcast_S_S2048x2048 (constantI S_ 32 0#32)))
    (iotaInDim S2048x2048 32 1))

/-! ## The list cut at the stage boundaries -/

/-- A line run is its first `n` operations run, then the rest. -/
theorem after_split (L : List (HloOp τ sig (Elt F))) (n : Nat) (W : Valuation τ sig (Elt F)) :
    after L W = after (L.drop n) (after (L.take n) W) := by
  rw [← after_append, List.take_append_drop]

/-- The contents after the operations before the stages (`0`), then after each stage in turn. -/
def Wk (W0 : Valuation τ sig (Elt F)) : Nat → Valuation τ sig (Elt F)
  | 0 => after pre W0
  | l + 1 => after (st l) (Wk W0 l)

theorem Wk_zero (W0 : Valuation τ sig (Elt F)) : Wk W0 0 = after pre W0 := rfl
theorem Wk_succ (W0 : Valuation τ sig (Elt F)) (l : Nat) : Wk W0 (l + 1) = after (st l) (Wk W0 l) := rfl

/-- The whole line is the operations from stage `l` on, run from the contents the earlier ones leave. -/
theorem after_tail (W0 : Valuation τ sig (Elt F)) : ∀ l, after hostOps0 W0 = after (hostOps0.drop (9 + 26 * l)) (Wk W0 l)
  | 0 => after_split hostOps0 9 W0
  | l + 1 => by
    have e : 9 + 26 * (l + 1) = 9 + 26 * l + 26 := by omega
    rw [after_tail W0 l, after_split (hostOps0.drop (9 + 26 * l)) 26 (Wk W0 l), List.drop_drop, Wk_succ, e]

theorem after_all (W0 : Valuation τ sig (Elt F)) : after hostOps0 W0 = after post (Wk W0 11) := after_tail W0 11

/-! ## What no operation writes -/

set_option maxHeartbeats 4000000 in
theorem nw_arg2 : ∀ op ∈ (hostOps0 : List (HloOp τ sig (Elt F))), (Proc.devRef .tc main_arg2 : DevRef τ sig) ∉ op.writes :=
  List.forall_iff_forall_mem.mp (by
    simp only [hostOps0, List.Forall, StableHlo.nullary_writes, StableHlo.unary_writes, StableHlo.binary_writes,
      StableHlo.reshape_writes, Finset.mem_singleton]
    repeat' apply And.intro
    all_goals exact StableHlo.devRef_ne_of_ne (by decide))
set_option maxHeartbeats 4000000 in
theorem nw_arg3 : ∀ op ∈ (hostOps0 : List (HloOp τ sig (Elt F))), (Proc.devRef .tc main_arg3 : DevRef τ sig) ∉ op.writes :=
  List.forall_iff_forall_mem.mp (by
    simp only [hostOps0, List.Forall, StableHlo.nullary_writes, StableHlo.unary_writes, StableHlo.binary_writes,
      StableHlo.reshape_writes, Finset.mem_singleton]
    repeat' apply And.intro
    all_goals exact StableHlo.devRef_ne_of_ne (by decide))
set_option maxHeartbeats 4000000 in
theorem nw_arg4 : ∀ op ∈ (hostOps0 : List (HloOp τ sig (Elt F))), (Proc.devRef .tc main_arg4 : DevRef τ sig) ∉ op.writes :=
  List.forall_iff_forall_mem.mp (by
    simp only [hostOps0, List.Forall, StableHlo.nullary_writes, StableHlo.unary_writes, StableHlo.binary_writes,
      StableHlo.reshape_writes, Finset.mem_singleton]
    repeat' apply And.intro
    all_goals exact StableHlo.devRef_ne_of_ne (by decide))
set_option maxHeartbeats 4000000 in
theorem nw_arg5 : ∀ op ∈ (hostOps0 : List (HloOp τ sig (Elt F))), (Proc.devRef .tc main_arg5 : DevRef τ sig) ∉ op.writes :=
  List.forall_iff_forall_mem.mp (by
    simp only [hostOps0, List.Forall, StableHlo.nullary_writes, StableHlo.unary_writes, StableHlo.binary_writes,
      StableHlo.reshape_writes, Finset.mem_singleton]
    repeat' apply And.intro
    all_goals exact StableHlo.devRef_ne_of_ne (by decide))
set_option maxHeartbeats 4000000 in
theorem nw9_v1 : ∀ op ∈ (hostOps0.drop 9 : List (HloOp τ sig (Elt F))), (Proc.devRef .tc main_v1 : DevRef τ sig) ∉ op.writes :=
  List.forall_iff_forall_mem.mp (by
    simp only [hostOps0, List.drop_succ_cons, List.drop_zero, List.Forall, StableHlo.nullary_writes, StableHlo.unary_writes, StableHlo.binary_writes,
      StableHlo.reshape_writes, Finset.mem_singleton]
    repeat' apply And.intro
    all_goals exact StableHlo.devRef_ne_of_ne (by decide))

theorem mem_st9 {l : Nat} {op : HloOp τ sig (Elt F)} (h : op ∈ st l) : op ∈ hostOps0.drop 9 := by
  have h1 := List.mem_of_mem_take h
  rw [← List.drop_drop] at h1
  exact List.mem_of_mem_drop h1

/-- A buffer no host operation writes is, after any number of stages, as it was. -/
theorem Wk_keep {r : Ref sig .tc} (hr : ∀ op ∈ (hostOps0 : List (HloOp τ sig (Elt F))), (Proc.devRef .tc r : DevRef τ sig) ∉ op.writes)
    (W0 : Valuation τ sig (Elt F)) : ∀ l, Wk W0 l (Proc.devRef .tc r) = W0 (Proc.devRef .tc r)
  | 0 => after_of_forall_not_mem pre W0 fun op h => hr op (List.mem_of_mem_take h)
  | l + 1 => (after_of_forall_not_mem (st l) (Wk W0 l) fun op h => hr op (List.mem_of_mem_drop (List.mem_of_mem_take h))).trans
      (Wk_keep hr W0 l)

/-! ## The pieces before and after the stages -/

set_option maxHeartbeats 1000000 in
theorem pre_v7 (W : Valuation τ sig (Elt F)) : after pre W (Proc.devRef .tc main_v7) = (eye : FVec F S2048x2048 .f32) := by
  chunk_explicit
  after_results_simp
  rfl

set_option maxHeartbeats 1000000 in
theorem pre_v1 (W : Valuation τ sig (Elt F)) : after pre W (Proc.devRef .tc main_v1)
    = truncf .bf16 (transpose S2048x2048 [1, 0] (W (Proc.devRef .tc main_arg1)) transposes_S2048x2048_S2048x2048_1_0) bitsLt_bf16_f32 := by
  chunk_explicit
  after_results_simp

set_option maxHeartbeats 1000000 in
theorem post_v296 (W : Valuation τ sig (Elt F)) : after post W (Proc.devRef .tc main_v296)
    = truncf .bf16 (Host.dotGeneral dot_S2048x2048_S2048x2048_S2048x2048_1_0_0_1_n_n none (W (Proc.devRef .tc main_v293))
        (transpose S2048x2048 [1, 0] (W (Proc.devRef .tc main_arg2)) transposes_S2048x2048_S2048x2048_1_0)) bitsLt_bf16_f32 := by
  chunk_explicit
  after_results_simp

set_option maxHeartbeats 1000000 in
theorem post_v297 (W : Valuation τ sig (Elt F)) : after post W (Proc.devRef .tc main_v297)
    = shapeCast S1x2048 (W (Proc.devRef .tc main_arg3)) shapeCasts_S2048_S1x2048 := by
  chunk_explicit
  after_results_simp
  rfl

set_option maxHeartbeats 1000000 in
theorem post_v1 (W : Valuation τ sig (Elt F)) : after post W (Proc.devRef .tc main_v1) = W (Proc.devRef .tc main_v1) := by
  chunk_explicit
  after_results_simp

/-- w_in transposed and narrowed is written before the stages and by no later operation. -/
theorem Wk_v1 (W0 : Valuation τ sig (Elt F)) : ∀ l, Wk W0 l (Proc.devRef .tc main_v1)
    = truncf .bf16 (transpose S2048x2048 [1, 0] (W0 (Proc.devRef .tc main_arg1)) transposes_S2048x2048_S2048x2048_1_0) bitsLt_bf16_f32
  | 0 => pre_v1 W0
  | l + 1 => (after_of_forall_not_mem (st l) (Wk W0 l) fun op h => nw9_v1 op (mem_st9 h)).trans (Wk_v1 W0 l)

end Cert.KernelIdeal.KerHost

end
-- ==== Proof.KerStages.lean ====
/- Stage l's 26 operations, run from ANY valuation W, leave in the stage's result buffer one application of `stage` to the two
   coefficient tables and the stage's input as W holds them.  Chained from the identity matrix, with the tables untouched by
   every operation, the result buffer of stage l holds M_{l+1} of the tables as launched.
-/
import proofs.«426409_j59322088292569_3_alg».proof.Proof.KerHostBase

set_option maxRecDepth 16384

noncomputable section

namespace Cert.KernelIdeal.KerHost

open Cert.KernelIdeal Cert.KernelIdeal.Gen Cert.Butterfly Idealize.ShloMosaic Idealize.ShloMosaic.TcCoe Idealize.ShloMosaic.StableHlo

variable {F : FTy → Type} [FloatOps F]

/-! ## The shape relations of the eleven stages, as the operations cite them -/

theorem kev0 : Ev 2048 1024 1 0 :=
  ⟨slices_S11x1024_S1x1024_0_0, shapeCasts_S1x1024_S1024, bcast_S1024_S1x1024x1_1, shapeCasts_S2048x2048_S2048x1024x2x1,
   slices_S2048x1024x2x1_S2048x1024x1x1_0_0_0_0, slices_S2048x1024x2x1_S2048x1024x1x1_0_0_1_0, shapeCasts_S2048x1024x1x1_S2048x1024x1,
   bcast_S1x1024x1_S2048x1024x1_0_1_2, bcast_S2048x1024x1_S2048x1024x1x1_0_1_3,
   concatenates_S2048x1024x1x1_S2048x1024x1x1_S2048x1024x2x1_d2, shapeCasts_S2048x1024x2x1_S2048x2048⟩

theorem kev1 : Ev 2048 512 2 1 :=
  ⟨slices_S11x1024_S1x512_1_0, shapeCasts_S1x512_S512, bcast_S512_S1x512x1_1, shapeCasts_S2048x2048_S2048x512x2x2,
   slices_S2048x512x2x2_S2048x512x1x2_0_0_0_0, slices_S2048x512x2x2_S2048x512x1x2_0_0_1_0, shapeCasts_S2048x512x1x2_S2048x512x2,
   bcast_S1x512x1_S2048x512x2_0_1_2, bcast_S2048x512x2_S2048x512x1x2_0_1_3,
   concatenates_S2048x512x1x2_S2048x512x1x2_S2048x512x2x2_d2, shapeCasts_S2048x512x2x2_S2048x2048⟩

theorem kev2 : Ev 2048 256 4 2 :=
  ⟨slices_S11x1024_S1x256_2_0, shapeCasts_S1x256_S256, bcast_S256_S1x256x1_1, shapeCasts_S2048x2048_S2048x256x2x4,
   slices_S2048x256x2x4_S2048x256x1x4_0_0_0_0, slices_S2048x256x2x4_S2048x256x1x4_0_0_1_0, shapeCasts_S2048x256x1x4_S2048x256x4,
   bcast_S1x256x1_S2048x256x4_0_1_2, bcast_S2048x256x4_S2048x256x1x4_0_1_3,
   concatenates_S2048x256x1x4_S2048x256x1x4_S2048x256x2x4_d2, shapeCasts_S2048x256x2x4_S2048x2048⟩

theorem kev3 : Ev 2048 128 8 3 :=
  ⟨slices_S11x1024_S1x128_3_0, shapeCasts_S1x128_S128, bcast_S128_S1x128x1_1, shapeCasts_S2048x2048_S2048x128x2x8,
   slices_S2048x128x2x8_S2048x128x1x8_0_0_0_0, slices_S2048x128x2x8_S2048x128x1x8_0_0_1_0, shapeCasts_S2048x128x1x8_S2048x128x8,
   bcast_S1x128x1_S2048x128x8_0_1_2, bcast_S2048x128x8_S2048x128x1x8_0_1_3,
   concatenates_S2048x128x1x8_S2048x128x1x8_S2048x128x2x8_d2, shapeCasts_S2048x128x2x8_S2048x2048⟩

theorem kev4 : Ev 2048 64 16 4 :=
  ⟨slices_S11x1024_S1x64_4_0, shapeCasts_S1x64_S64, bcast_S64_S1x64x1_1, shapeCasts_S2048x2048_S2048x64x2x16,
   slices_S2048x64x2x16_S2048x64x1x16_0_0_0_0, slices_S2048x64x2x16_S2048x64x1x16_0_0_1_0, shapeCasts_S2048x64x1x16_S2048x64x16,
   bcast_S1x64x1_S2048x64x16_0_1_2, bcast_S2048x64x16_S2048x64x1x16_0_1_3,
   concatenates_S2048x64x1x16_S2048x64x1x16_S2048x64x2x16_d2, shapeCasts_S2048x64x2x16_S2048x2048⟩

theorem kev5 : Ev 2048 32 32 5 :=
  ⟨slices_S11x1024_S1x32_5_0, shapeCasts_S1x32_S32, bcast_S32_S1x32x1_1, shapeCasts_S2048x2048_S2048x32x2x32,
   slices_S2048x32x2x32_S2048x32x1x32_0_0_0_0, slices_S2048x32x2x32_S2048x32x1x32_0_0_1_0, shapeCasts_S2048x32x1x32_S2048x32x32,
   bcast_S1x32x1_S2048x32x32_0_1_2, bcast_S2048x32x32_S2048x32x1x32_0_1_3,
   concatenates_S2048x32x1x32_S2048x32x1x32_S2048x32x2x32_d2, shapeCasts_S2048x32x2x32_S2048x2048⟩

theorem kev6 : Ev 2048 16 64 6 :=
  ⟨slices_S11x1024_S1x16_6_0, shapeCasts_S1x16_S16, bcast_S16_S1x16x1_1, shapeCasts_S2048x2048_S2048x16x2x64,
   slices_S2048x16x2x64_S2048x16x1x64_0_0_0_0, slices_S2048x16x2x64_S2048x16x1x64_0_0_1_0, shapeCasts_S2048x16x1x64_S2048x16x64,
   bcast_S1x16x1_S2048x16x64_0_1_2, bcast_S2048x16x64_S2048x16x1x64_0_1_3,
   concatenates_S2048x16x1x64_S2048x16x1x64_S2048x16x2x64_d2, shapeCasts_S2048x16x2x64_S2048x2048⟩

theorem kev7 : Ev 2048 8 128 7 :=
  ⟨slices_S11x1024_S1x8_7_0, shapeCasts_S1x8_S8, bcast_S8_S1x8x1_1, shapeCasts_S2048x2048_S2048x8x2x128,
   slices_S2048x8x2x128_S2048x8x1x128_0_0_0_0, slices_S2048x8x2x128_S2048x8x1x128_0_0_1_0, shapeCasts_S2048x8x1x128_S2048x8x128,
   bcast_S1x8x1_S2048x8x128_0_1_2, bcast_S2048x8x128_S2048x8x1x128_0_1_3,
   concatenates_S2048x8x1x128_S2048x8x1x128_S2048x8x2x128_d2, shapeCasts_S2048x8x2x128_S2048x2048⟩

theorem kev8 : Ev 2048 4 256 8 :=
  ⟨slices_S11x1024_S1x4_8_0, shapeCasts_S1x4_S4, bcast_S4_S1x4x1_1, shapeCasts_S2048x2048_S2048x4x2x256,
   slices_S2048x4x2x256_S2048x4x1x256_0_0_0_0, slices_S2048x4x2x256_S2048x4x1x256_0_0_1_0, shapeCasts_S2048x4x1x256_S2048x4x256,
   bcast_S1x4x1_S2048x4x256_0_1_2, bcast_S2048x4x256_S2048x4x1x256_0_1_3,
   concatenates_S2048x4x1x256_S2048x4x1x256_S2048x4x2x256_d2, shapeCasts_S2048x4x2x256_S2048x2048⟩

theorem kev9 : Ev 2048 2 512 9 :=
  ⟨slices_S11x1024_S1x2_9_0, shapeCasts_S1x2_S2, bcast_S2_S1x2x1_1, shapeCasts_S2048x2048_S2048x2x2x512,
   slices_S2048x2x2x512_S2048x2x1x512_0_0_0_0, slices_S2048x2x2x512_S2048x2x1x512_0_0_1_0, shapeCasts_S2048x2x1x512_S2048x2x512,
   bcast_S1x2x1_S2048x2x512_0_1_2, bcast_S2048x2x512_S2048x2x1x512_0_1_3,
   concatenates_S2048x2x1x512_S2048x2x1x512_S2048x2x2x512_d2, shapeCasts_S2048x2x2x512_S2048x2048⟩

theorem kev10 : Ev 2048 1 1024 10 :=
  ⟨slices_S11x1024_S1x1_10_0, shapeCasts_S1x1_S1, bcast_S1_S1x1x1_1, shapeCasts_S2048x2048_S2048x1x2x1024,
   slices_S2048x1x2x1024_S2048x1x1x1024_0_0_0_0, slices_S2048x1x2x1024_S2048x1x1x1024_0_0_1_0, shapeCasts_S2048x1x1x1024_S2048x1x1024,
   bcast_S1x1x1_S2048x1x1024_0_1_2, bcast_S2048x1x1024_S2048x1x1x1024_0_1_3,
   concatenates_S2048x1x1x1024_S2048x1x1x1024_S2048x1x2x1024_d2, shapeCasts_S2048x1x2x1024_S2048x2048⟩

/-! ## The butterfly of the identity, stage by stage -/

/-- The butterfly of the identity after no stage, -/
def M0 : FVec F S2048x2048 .f32 := eye

/-- after stage 0, -/
def M1 (Pa Pb : FVec F S11x1024 .f32) : FVec F S2048x2048 .f32 := stage kev0 Pa Pb (M0)

/-- after stage 1, -/
def M2 (Pa Pb : FVec F S11x1024 .f32) : FVec F S2048x2048 .f32 := stage kev1 Pa Pb (M1 Pa Pb)

/-- after stage 2, -/
def M3 (Pa Pb : FVec F S11x1024 .f32) : FVec F S2048x2048 .f32 := stage kev2 Pa Pb (M2 Pa Pb)

/-- after stage 3, -/
def M4 (Pa Pb : FVec F S11x1024 .f32) : FVec F S2048x2048 .f32 := stage kev3 Pa Pb (M3 Pa Pb)

/-- after stage 4, -/
def M5 (Pa Pb : FVec F S11x1024 .f32) : FVec F S2048x2048 .f32 := stage kev4 Pa Pb (M4 Pa Pb)

/-- after stage 5, -/
def M6 (Pa Pb : FVec F S11x1024 .f32) : FVec F S2048x2048 .f32 := stage kev5 Pa Pb (M5 Pa Pb)

/-- after stage 6, -/
def M7 (Pa Pb : FVec F S11x1024 .f32) : FVec F S2048x2048 .f32 := stage kev6 Pa Pb (M6 Pa Pb)

/-- after stage 7, -/
def M8 (Pa Pb : FVec F S11x1024 .f32) : FVec F S2048x2048 .f32 := stage kev7 Pa Pb (M7 Pa Pb)

/-- after stage 8, -/
def M9 (Pa Pb : FVec F S11x1024 .f32) : FVec F S2048x2048 .f32 := stage kev8 Pa Pb (M8 Pa Pb)

/-- after stage 9, -/
def M10 (Pa Pb : FVec F S11x1024 .f32) : FVec F S2048x2048 .f32 := stage kev9 Pa Pb (M9 Pa Pb)

/-- after stage 10, -/
def M11 (Pa Pb : FVec F S11x1024 .f32) : FVec F S2048x2048 .f32 := stage kev10 Pa Pb (M10 Pa Pb)

/-! ## One stage, from any starting valuation -/

set_option maxHeartbeats 1000000 in
theorem st0_val (W : Valuation τ sig (Elt F)) :
    after (st 0) W (Proc.devRef .tc main_v33)
      = stage kev0 (W (Proc.devRef .tc main_arg4)) (W (Proc.devRef .tc main_arg5)) (W (Proc.devRef .tc main_v7)) := by
  stage_read

set_option maxHeartbeats 1000000 in
theorem st1_val (W : Valuation τ sig (Elt F)) :
    after (st 1) W (Proc.devRef .tc main_v59)
      = stage kev1 (W (Proc.devRef .tc main_arg4)) (W (Proc.devRef .tc main_arg5)) (W (Proc.devRef .tc main_v33)) := by
  stage_read

set_option maxHeartbeats 1000000 in
theorem st2_val (W : Valuation τ sig (Elt F)) :
    after (st 2) W (Proc.devRef .tc main_v85)
      = stage kev2 (W (Proc.devRef .tc main_arg4)) (W (Proc.devRef .tc main_arg5)) (W (Proc.devRef .tc main_v59)) := by
  stage_read

set_option maxHeartbeats 1000000 in
theorem st3_val (W : Valuation τ sig (Elt F)) :
    after (st 3) W (Proc.devRef .tc main_v111)
      = stage kev3 (W (Proc.devRef .tc main_arg4)) (W (Proc.devRef .tc main_arg5)) (W (Proc.devRef .tc main_v85)) := by
  stage_read

set_option maxHeartbeats 1000000 in
theorem st4_val (W : Valuation τ sig (Elt F)) :
    after (st 4) W (Proc.devRef .tc main_v137)
      = stage kev4 (W (Proc.devRef .tc main_arg4)) (W (Proc.devRef .tc main_arg5)) (W (Proc.devRef .tc main_v111)) := by
  stage_read

set_option maxHeartbeats 1000000 in
theorem st5_val (W : Valuation τ sig (Elt F)) :
    after (st 5) W (Proc.devRef .tc main_v163)
      = stage kev5 (W (Proc.devRef .tc main_arg4)) (W (Proc.devRef .tc main_arg5)) (W (Proc.devRef .tc main_v137)) := by
  stage_read

set_option maxHeartbeats 1000000 in
theorem st6_val (W : Valuation τ sig (Elt F)) :
    after (st 6) W (Proc.devRef .tc main_v189)
      = stage kev6 (W (Proc.devRef .tc main_arg4)) (W (Proc.devRef .tc main_arg5)) (W (Proc.devRef .tc main_v163)) := by
  stage_read

set_option maxHeartbeats 1000000 in
theorem st7_val (W : Valuation τ sig (Elt F)) :
    after (st 7) W (Proc.devRef .tc main_v215)
      = stage kev7 (W (Proc.devRef .tc main_arg4)) (W (Proc.devRef .tc main_arg5)) (W (Proc.devRef .tc main_v189)) := by
  stage_read

set_option maxHeartbeats 1000000 in
theorem st8_val (W : Valuation τ sig (Elt F)) :
    after (st 8) W (Proc.devRef .tc main_v241)
      = stage kev8 (W (Proc.devRef .tc main_arg4)) (W (Proc.devRef .tc main_arg5)) (W (Proc.devRef .tc main_v215)) := by
  stage_read

set_option maxHeartbeats 1000000 in
theorem st9_val (W : Valuation τ sig (Elt F)) :
    after (st 9) W (Proc.devRef .tc main_v267)
      = stage kev9 (W (Proc.devRef .tc main_arg4)) (W (Proc.devRef .tc main_arg5)) (W (Proc.devRef .tc main_v241)) := by
  stage_read

set_option maxHeartbeats 1000000 in
theorem st10_val (W : Valuation τ sig (Elt F)) :
    after (st 10) W (Proc.devRef .tc main_v293)
      = stage kev10 (W (Proc.devRef .tc main_arg4)) (W (Proc.devRef .tc main_arg5)) (W (Proc.devRef .tc main_v267)) := by
  stage_read

/-! ## The stages chained -/

theorem Wk_M0 (W0 : Valuation τ sig (Elt F)) : Wk W0 0 (Proc.devRef .tc main_v7) = (M0 : FVec F S2048x2048 .f32) := pre_v7 W0

theorem Wk_M1 (W0 : Valuation τ sig (Elt F)) : Wk W0 1 (Proc.devRef .tc main_v33)
    = M1 (W0 (Proc.devRef .tc main_arg4)) (W0 (Proc.devRef .tc main_arg5)) :=
  (st0_val (Wk W0 0)).trans (by rw [Wk_keep nw_arg4 W0 0, Wk_keep nw_arg5 W0 0, Wk_M0 W0]; rfl)

theorem Wk_M2 (W0 : Valuation τ sig (Elt F)) : Wk W0 2 (Proc.devRef .tc main_v59)
    = M2 (W0 (Proc.devRef .tc main_arg4)) (W0 (Proc.devRef .tc main_arg5)) :=
  (st1_val (Wk W0 1)).trans (by rw [Wk_keep nw_arg4 W0 1, Wk_keep nw_arg5 W0 1, Wk_M1 W0]; rfl)

theorem Wk_M3 (W0 : Valuation τ sig (Elt F)) : Wk W0 3 (Proc.devRef .tc main_v85)
    = M3 (W0 (Proc.devRef .tc main_arg4)) (W0 (Proc.devRef .tc main_arg5)) :=
  (st2_val (Wk W0 2)).trans (by rw [Wk_keep nw_arg4 W0 2, Wk_keep nw_arg5 W0 2, Wk_M2 W0]; rfl)

theorem Wk_M4 (W0 : Valuation τ sig (Elt F)) : Wk W0 4 (Proc.devRef .tc main_v111)
    = M4 (W0 (Proc.devRef .tc main_arg4)) (W0 (Proc.devRef .tc main_arg5)) :=
  (st3_val (Wk W0 3)).trans (by rw [Wk_keep nw_arg4 W0 3, Wk_keep nw_arg5 W0 3, Wk_M3 W0]; rfl)

theorem Wk_M5 (W0 : Valuation τ sig (Elt F)) : Wk W0 5 (Proc.devRef .tc main_v137)
    = M5 (W0 (Proc.devRef .tc main_arg4)) (W0 (Proc.devRef .tc main_arg5)) :=
  (st4_val (Wk W0 4)).trans (by rw [Wk_keep nw_arg4 W0 4, Wk_keep nw_arg5 W0 4, Wk_M4 W0]; rfl)

theorem Wk_M6 (W0 : Valuation τ sig (Elt F)) : Wk W0 6 (Proc.devRef .tc main_v163)
    = M6 (W0 (Proc.devRef .tc main_arg4)) (W0 (Proc.devRef .tc main_arg5)) :=
  (st5_val (Wk W0 5)).trans (by rw [Wk_keep nw_arg4 W0 5, Wk_keep nw_arg5 W0 5, Wk_M5 W0]; rfl)

theorem Wk_M7 (W0 : Valuation τ sig (Elt F)) : Wk W0 7 (Proc.devRef .tc main_v189)
    = M7 (W0 (Proc.devRef .tc main_arg4)) (W0 (Proc.devRef .tc main_arg5)) :=
  (st6_val (Wk W0 6)).trans (by rw [Wk_keep nw_arg4 W0 6, Wk_keep nw_arg5 W0 6, Wk_M6 W0]; rfl)

theorem Wk_M8 (W0 : Valuation τ sig (Elt F)) : Wk W0 8 (Proc.devRef .tc main_v215)
    = M8 (W0 (Proc.devRef .tc main_arg4)) (W0 (Proc.devRef .tc main_arg5)) :=
  (st7_val (Wk W0 7)).trans (by rw [Wk_keep nw_arg4 W0 7, Wk_keep nw_arg5 W0 7, Wk_M7 W0]; rfl)

theorem Wk_M9 (W0 : Valuation τ sig (Elt F)) : Wk W0 9 (Proc.devRef .tc main_v241)
    = M9 (W0 (Proc.devRef .tc main_arg4)) (W0 (Proc.devRef .tc main_arg5)) :=
  (st8_val (Wk W0 8)).trans (by rw [Wk_keep nw_arg4 W0 8, Wk_keep nw_arg5 W0 8, Wk_M8 W0]; rfl)

theorem Wk_M10 (W0 : Valuation τ sig (Elt F)) : Wk W0 10 (Proc.devRef .tc main_v267)
    = M10 (W0 (Proc.devRef .tc main_arg4)) (W0 (Proc.devRef .tc main_arg5)) :=
  (st9_val (Wk W0 9)).trans (by rw [Wk_keep nw_arg4 W0 9, Wk_keep nw_arg5 W0 9, Wk_M9 W0]; rfl)

theorem Wk_M11 (W0 : Valuation τ sig (Elt F)) : Wk W0 11 (Proc.devRef .tc main_v293)
    = M11 (W0 (Proc.devRef .tc main_arg4)) (W0 (Proc.devRef .tc main_arg5)) :=
  (st10_val (Wk W0 10)).trans (by rw [Wk_keep nw_arg4 W0 10, Wk_keep nw_arg5 W0 10, Wk_M10 W0]; rfl)

end Cert.KernelIdeal.KerHost

end
-- ==== Proof.KerHost.lean ====
/-
  What the host operations before the launch leave in the three computed arrays the region reads: w_in transposed, in
  bf16; the butterfly of the 2048 x 2048 identity (eleven stages, `M11` of the two coefficient tables as launched)
  multiplied by w_out transposed, in bf16; and the bias viewed as a row.  Each is the whole line read as the operations
  after the stages run from the valuation the stages leave.
-/
import proofs.«426409_j59322088292569_3_alg».proof.Proof.KerStages

noncomputable section

namespace Cert.KernelIdeal.KerHost

open Cert.KernelIdeal Cert.KernelIdeal.Gen Cert.Butterfly Idealize.ShloMosaic Idealize.ShloMosaic.TcCoe Idealize.ShloMosaic.StableHlo

variable {F : FTy → Type} [FloatOps F]

variable (m : (ℓ : Loc nD τ sig) → Buf (Elt F) ℓ)

/-- w_in transposed, in bf16. -/
theorem V_v1 (c : Dev nD) : V m c main_v1
    = truncf .bf16 (transpose S2048x2048 [1, 0] (m ((c : Thread nD τ).loc main_arg1)) transposes_S2048x2048_S2048x2048_1_0) bitsLt_bf16_f32 :=
  (congrFun (after_all fun b => m (c, b)) (Proc.devRef .tc main_v1)).trans ((post_v1 _).trans (Wk_v1 _ 11))

/-- The bias as a row. -/
theorem V_v297 (c : Dev nD) : V m c main_v297 = shapeCast S1x2048 (m ((c : Thread nD τ).loc main_arg3)) shapeCasts_S2048_S1x2048 :=
  (congrFun (after_all fun b => m (c, b)) (Proc.devRef .tc main_v297)).trans
    ((post_v297 _).trans (by rw [Wk_keep nw_arg3]))

/-- The butterfly of the identity times w_out transposed, in bf16. -/
theorem V_v296 (c : Dev nD) : V m c main_v296
    = truncf .bf16 (Host.dotGeneral dot_S2048x2048_S2048x2048_S2048x2048_1_0_0_1_n_n none
        (M11 (m ((c : Thread nD τ).loc main_arg4)) (m ((c : Thread nD τ).loc main_arg5)))
        (transpose S2048x2048 [1, 0] (m ((c : Thread nD τ).loc main_arg2)) transposes_S2048x2048_S2048x2048_1_0)) bitsLt_bf16_f32 :=
  (congrFun (after_all fun b => m (c, b)) (Proc.devRef .tc main_v296)).trans
    ((post_v296 _).trans (by rw [Wk_M11, Wk_keep nw_arg2]))

end Cert.KernelIdeal.KerHost

end
-- ==== Proof.Eye.lean ====
/-
  The identity matrix as a comparison of two coordinate arrays, read at an entry.

  The 2048 x 2048 array whose entry (j, i) is the word 1 when the row coordinate j (plus the word 0) equals the column
  coordinate i, and the word 0 otherwise, converted to a float: both coordinates are below 2048 < 2 ^ 32, so the 32-bit
  words of j and i are equal exactly when j = i, and the entry is 1 on the diagonal and 0 off it.
-/
import Idealize.ShloMosaic.PureOps.Ideal
import Idealize.ShloMosaic.Lib.ValueIdx
import Idealize.ShloMosaic.Lib.Pipeline.Value
import Idealize.ShloMosaic.Lib.StableHlo.Predicate
import proofs.«426409_j59322088292569_3_alg».proof.Proof.Algebra

noncomputable section

namespace Cert.Butterfly

open Idealize.ShloMosaic Idealize.ShloMosaic.ValueIdx

/-- The compared-coordinates array, as a float array over the extended reals, is the real identity matrix at every entry. -/
theorem eye_apply (h : (⟨0, ![]⟩ : Shape).BroadcastsInDim ⟨2, ![2048, 2048]⟩ ![]) (j i : Fin 2048) :
    (uitofp .f32 (cmpi .eq (addi (iotaInDim ⟨2, ![2048, 2048]⟩ 32 0)
          (broadcastInDim ⟨2, ![2048, 2048]⟩ ![] h (constantI ⟨0, ![]⟩ 32 0#32)))
        (iotaInDim ⟨2, ![2048, 2048]⟩ 32 1)) : FVec Ideal ⟨2, ![2048, 2048]⟩ .f32) (ix2 j i) = ((idM j i : ℝ) : EReal) := by
  show (((IntOp.cmpi .eq (BitVec.ofNat 32 j.val + 0#32) (BitVec.ofNat 32 i.val)).toNat : ℝ) : EReal) = _
  have hj := j.isLt
  have hi := i.isLt
  unfold idM
  by_cases hji : j = i
  · subst hji
    have hc : IntOp.cmpi .eq (BitVec.ofNat 32 j.val + 0#32) (BitVec.ofNat 32 j.val) = 1#1 :=
      StableHlo.Predicate.cmpi_eq_iff.2 (BitVec.add_zero _)
    rw [hc, if_pos rfl]
    simp
  · have hne : ¬ IntOp.cmpi .eq (BitVec.ofNat 32 j.val + 0#32) (BitVec.ofNat 32 i.val) = 1#1 := by
      rw [StableHlo.Predicate.cmpi_eq_iff, BitVec.add_zero]
      intro he
      have hv := congrArg BitVec.toNat he
      rw [BitVec.toNat_ofNat, BitVec.toNat_ofNat, Nat.mod_eq_of_lt (by omega), Nat.mod_eq_of_lt (by omega)] at hv
      exact hji (Fin.ext hv)
    rw [eq_zero_of_ne_one hne, if_neg hji]
    simp

end Cert.Butterfly
-- ==== Proof.KerBase.lean ====
/-
  The kernel's matrix of the butterfly starts at the identity: the host program's eye(2048), read at (j, i), is the real
  number 1 when j = i and 0 otherwise.
-/
import proofs.«426409_j59322088292569_3_alg».proof.Proof.KerHost
import proofs.«426409_j59322088292569_3_alg».proof.Proof.StageCoe
import proofs.«426409_j59322088292569_3_alg».proof.Proof.Eye

noncomputable section

namespace Cert.KernelIdeal.KerRead

open Cert.KernelIdeal Cert.KernelIdeal.Gen Cert.KernelIdeal.KerHost Cert.Butterfly
open Idealize.ShloMosaic Idealize.ShloMosaic.ValueIdx Idealize.ShloMosaic.TcCoe

/-- The identity the butterfly is applied to is the real identity matrix. -/
theorem M0_apply (Pa Pb : FVec Ideal Tab .f32) (a b : Fin 11 → Fin 1024 → ℝ)
    (ha : ∀ i j, Pa (ix2 i j) = ((a i j : ℝ) : EReal)) (hb : ∀ i j, Pb (ix2 i j) = ((b i j : ℝ) : EReal))
    (j i : Fin 2048) : (M0 (F := Ideal)) (ix2 j i) = ((bfly a b 0 idM j i : ℝ) : EReal) :=
  eye_apply bcast_S_S2048x2048 j i

end Cert.KernelIdeal.KerRead

end
-- ==== Proof.KerRows.lean ====
/- GENERATED by: python3 scratch/gen_refchain.py krows > proof/Proof/KerRows.lean (run in the unit directory). Template: the
   hand-written stage-0 lemma inside the script; substitution: the stage number l = 0..10.

   The kernel's matrix after each stage is real: stage l sends the real matrix bfly l (I) to bfly (l+1) (I)
   (StageCoe.lean), so by eleven steps from the identity (KerBase.lean) the matrix the host program multiplies w_outᵀ by
   is bfly 11 (I). -/
import proofs.«426409_j59322088292569_3_alg».proof.Proof.KerBase

noncomputable section

namespace Cert.KernelIdeal.KerRead

open Cert.KernelIdeal Cert.KernelIdeal.Gen Cert.KernelIdeal.KerHost Cert.Butterfly
open Idealize.ShloMosaic Idealize.ShloMosaic.ValueIdx Idealize.ShloMosaic.TcCoe

section
variable (Pa Pb : FVec Ideal Tab .f32) (a b : Fin 11 → Fin 1024 → ℝ)
variable (ha : ∀ i j, Pa (ix2 i j) = ((a i j : ℝ) : EReal)) (hb : ∀ i j, Pb (ix2 i j) = ((b i j : ℝ) : EReal))

include ha hb

theorem M1_apply (j p : Fin 2048) : M1 Pa Pb (ix2 j p) = ((bfly a b 1 idM j p : ℝ) : EReal) :=
  stage_coe kev0 (by norm_num) Pa Pb (M0 (F := Ideal)) a b (bfly a b 0 idM) ha hb (M0_apply Pa Pb a b ha hb) j p

theorem M2_apply (j p : Fin 2048) : M2 Pa Pb (ix2 j p) = ((bfly a b 2 idM j p : ℝ) : EReal) :=
  stage_coe kev1 (by norm_num) Pa Pb (M1 Pa Pb) a b (bfly a b 1 idM) ha hb (M1_apply Pa Pb a b ha hb) j p

theorem M3_apply (j p : Fin 2048) : M3 Pa Pb (ix2 j p) = ((bfly a b 3 idM j p : ℝ) : EReal) :=
  stage_coe kev2 (by norm_num) Pa Pb (M2 Pa Pb) a b (bfly a b 2 idM) ha hb (M2_apply Pa Pb a b ha hb) j p

theorem M4_apply (j p : Fin 2048) : M4 Pa Pb (ix2 j p) = ((bfly a b 4 idM j p : ℝ) : EReal) :=
  stage_coe kev3 (by norm_num) Pa Pb (M3 Pa Pb) a b (bfly a b 3 idM) ha hb (M3_apply Pa Pb a b ha hb) j p

theorem M5_apply (j p : Fin 2048) : M5 Pa Pb (ix2 j p) = ((bfly a b 5 idM j p : ℝ) : EReal) :=
  stage_coe kev4 (by norm_num) Pa Pb (M4 Pa Pb) a b (bfly a b 4 idM) ha hb (M4_apply Pa Pb a b ha hb) j p

theorem M6_apply (j p : Fin 2048) : M6 Pa Pb (ix2 j p) = ((bfly a b 6 idM j p : ℝ) : EReal) :=
  stage_coe kev5 (by norm_num) Pa Pb (M5 Pa Pb) a b (bfly a b 5 idM) ha hb (M5_apply Pa Pb a b ha hb) j p

theorem M7_apply (j p : Fin 2048) : M7 Pa Pb (ix2 j p) = ((bfly a b 7 idM j p : ℝ) : EReal) :=
  stage_coe kev6 (by norm_num) Pa Pb (M6 Pa Pb) a b (bfly a b 6 idM) ha hb (M6_apply Pa Pb a b ha hb) j p

theorem M8_apply (j p : Fin 2048) : M8 Pa Pb (ix2 j p) = ((bfly a b 8 idM j p : ℝ) : EReal) :=
  stage_coe kev7 (by norm_num) Pa Pb (M7 Pa Pb) a b (bfly a b 7 idM) ha hb (M7_apply Pa Pb a b ha hb) j p

theorem M9_apply (j p : Fin 2048) : M9 Pa Pb (ix2 j p) = ((bfly a b 9 idM j p : ℝ) : EReal) :=
  stage_coe kev8 (by norm_num) Pa Pb (M8 Pa Pb) a b (bfly a b 8 idM) ha hb (M8_apply Pa Pb a b ha hb) j p

theorem M10_apply (j p : Fin 2048) : M10 Pa Pb (ix2 j p) = ((bfly a b 10 idM j p : ℝ) : EReal) :=
  stage_coe kev9 (by norm_num) Pa Pb (M9 Pa Pb) a b (bfly a b 9 idM) ha hb (M9_apply Pa Pb a b ha hb) j p

theorem M11_apply (j p : Fin 2048) : M11 Pa Pb (ix2 j p) = ((bfly a b 11 idM j p : ℝ) : EReal) :=
  stage_coe kev10 (by norm_num) Pa Pb (M10 Pa Pb) a b (bfly a b 10 idM) ha hb (M10_apply Pa Pb a b ha hb) j p

end

end Cert.KernelIdeal.KerRead

end
-- ==== Proof.KerValue.lean ====
/-
  The kernel's result array as one function of the four arrays its one region reads.

  The region runs over 64 row blocks of 256 rows. At block `t` the body takes rows 256t … 256t+255 of the first
  array `X` [16384, 2048], the whole of two square matrices `W1`, `W2` [2048, 2048] and of a bias row `B` [1, 2048],
  and stores  (X_t · W1) · W2 + B  into rows 256t … 256t+255 of the result: two block products, each accumulated from
  zero, then the bias row added to every row. At the ideal values a change of float format is the identity and a block
  product read at (p, o) is the finite sum over the shared coordinate, so entry (r, o) of the result is

      ∑ j, (∑ k, X[r, k] · W1[k, j]) · W2[j, o]  +  B[0, o].

  The steps: the product's dimension numbers read coordinate by coordinate (`lhs_row` … `rhs_col`); a block product at an
  index (`matmul_at`); the body's stored value at an index (`pay_at`, `pay_apply`); each window's block as entries of its
  array (`xblk_at`, `w1blk_at`, `w2blk_at`, `bblk_at`, from the block indices decided over the grid, `idx_facts`); what a grid
  point writes back is its row block of `result` (`flushed_eq`); row `r` lies in the block of point `r / 256` (`cover`);
  so the array after the run is `result` (`final_array`), entry by entry `final`.
-/
import proofs.«426409_j59322088292569_3_alg».proof.Proof.Gen.KernelIdeal.Value
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KerValue

open Cert.KernelIdeal Cert.KernelIdeal.Gen Idealize.ShloMosaic Idealize.ShloMosaic.ValueIdx Idealize.ShloMosaic.TcCoe Idealize.SL.Sem
open Idealize.ShloMosaic.Pipeline (Dat)
open scoped BigOperators

/-! ## The product's dimension numbers: which coordinate of each operand a result index and a contraction position name -/

theorem lhs_row (j : S256x2048.Idx) (k : dot_S256x2048_S2048x2048_S256x2048_1_0_0_1_n_n.contr.Idx) :
    (dot_S256x2048_S2048x2048_S256x2048_1_0_0_1_n_n.lhsIdx j k 0).val = (j 0).val := by
  unfold DotDims.lhsIdx
  rw [dif_neg (show ¬ (0 : Fin S256x2048.rank) ∈ dot_S256x2048_S2048x2048_S256x2048_1_0_0_1_n_n.lhsBatch by decide),
    dif_pos (show (0 : Fin S256x2048.rank) ∈ dot_S256x2048_S2048x2048_S256x2048_1_0_0_1_n_n.lhsNonContracting by decide)]
  rfl

theorem lhs_col (j : S256x2048.Idx) (k : dot_S256x2048_S2048x2048_S256x2048_1_0_0_1_n_n.contr.Idx) :
    (dot_S256x2048_S2048x2048_S256x2048_1_0_0_1_n_n.lhsIdx j k 1).val = (k ⟨0, by decide⟩).val :=
  DotDims.lhsIdx_val_of_single dot_S256x2048_S2048x2048_S256x2048_1_0_0_1_n_n (cl := 1) rfl j k

theorem rhs_row (j : S256x2048.Idx) (k : dot_S256x2048_S2048x2048_S256x2048_1_0_0_1_n_n.contr.Idx) :
    (dot_S256x2048_S2048x2048_S256x2048_1_0_0_1_n_n.rhsIdx j k 0).val = (k ⟨0, by decide⟩).val :=
  DotDims.rhsIdx_val_of_single dot_S256x2048_S2048x2048_S256x2048_1_0_0_1_n_n (cr := 0) rfl j k

theorem rhs_col (j : S256x2048.Idx) (k : dot_S256x2048_S2048x2048_S256x2048_1_0_0_1_n_n.contr.Idx) :
    (dot_S256x2048_S2048x2048_S256x2048_1_0_0_1_n_n.rhsIdx j k 1).val = (j 1).val := by
  unfold DotDims.rhsIdx
  rw [dif_neg (show ¬ (1 : Fin S2048x2048.rank) ∈ dot_S256x2048_S2048x2048_S256x2048_1_0_0_1_n_n.rhsBatch by decide),
    dif_pos (show (1 : Fin S2048x2048.rank) ∈ dot_S256x2048_S2048x2048_S256x2048_1_0_0_1_n_n.rhsNonContracting by decide)]
  rfl

/-! ## A block product at an index -/

/-- A 256-row block times a square matrix, accumulated from zero, read at row `p`, column `o`: the sum over the shared
    coordinate of the products of the entries. -/
theorem matmul_at (A : FVec Ideal S256x2048 .bf16) (B : FVec Ideal S2048x2048 .bf16) (p : Fin 256) (o : Fin 2048) :
    matmul dot_S256x2048_S2048x2048_S256x2048_1_0_0_1_n_n none A B (constant S256x2048 .f32 0x00000000#32) (ix2 p o)
      = ∑ k : Fin 2048, A (ix2 p k) * B (ix2 k o) := by
  show FloatOps.matmul dot_S256x2048_S2048x2048_S256x2048_1_0_0_1_n_n none A B (constant S256x2048 .f32 0x00000000#32) (ix2 p o) = _
  rw [Ideal.matmul_constant_zero_apply,
    ← Equiv.sum_comp (contrEquiv1 dot_S256x2048_S2048x2048_S256x2048_1_0_0_1_n_n 2048 rfl rfl).symm]
  refine Finset.sum_congr rfl fun k _ => ?_
  have hk := contrEquiv1_symm_val dot_S256x2048_S2048x2048_S256x2048_1_0_0_1_n_n 2048 rfl rfl k
  have hl : dot_S256x2048_S2048x2048_S256x2048_1_0_0_1_n_n.lhsIdx (ix2 p o)
      ((contrEquiv1 dot_S256x2048_S2048x2048_S256x2048_1_0_0_1_n_n 2048 rfl rfl).symm k) = ix2 p k := by
    funext a; apply Fin.ext
    match a with
    | ⟨0, _⟩ => exact lhs_row _ _
    | ⟨1, _⟩ => exact (lhs_col _ _).trans hk
  have hr : dot_S256x2048_S2048x2048_S256x2048_1_0_0_1_n_n.rhsIdx (ix2 p o)
      ((contrEquiv1 dot_S256x2048_S2048x2048_S256x2048_1_0_0_1_n_n 2048 rfl rfl).symm k) = ix2 k o := by
    funext a; apply Fin.ext
    match a with
    | ⟨0, _⟩ => exact (rhs_row _ _).trans hk
    | ⟨1, _⟩ => exact rhs_col _ _
  rw [hl, hr]

/-! ## The body's arithmetic at an index -/

/-- What the body stores, at row `p` and column `o` of its block: the row of `x0` times `w1`, that row times `w2`, plus the
    bias row's entry at `o`. -/
theorem pay_at (x0 : Vec Ideal S256x2048 .f32) (w1 w2 : Vec Ideal S2048x2048 .bf16) (b : Vec Ideal S1x2048 .f32)
    (p : Fin 256) (o : Fin 2048) :
    k0_pay1 x0 w1 w2 b (ix2 p o)
      = (∑ j : Fin 2048, (∑ k : Fin 2048, x0 (ix2 p k) * w1 (ix2 k j)) * w2 (ix2 j o)) + b (ix2 (0 : Fin 1) o) := by
  unfold k0_pay1
  rw [addf_apply, shapeCast_self, shapeCast_self, shapeCast_self, broadcastTo_1b_ab_apply, matmul_at]
  refine congrArg (· + b (ix2 (0 : Fin 1) o)) (Finset.sum_congr rfl fun j _ => ?_)
  rw [truncf_apply, matmul_at]
  refine congrArg (· * w2 (ix2 j o)) (Finset.sum_congr rfl fun k _ => ?_)
  rw [truncf_apply]

/-- The same at any index of the block. -/
theorem pay_apply (x0 : Vec Ideal S256x2048 .f32) (w1 w2 : Vec Ideal S2048x2048 .bf16) (b : Vec Ideal S1x2048 .f32)
    (y : S256x2048.Idx) :
    k0_pay1 x0 w1 w2 b y
      = (∑ j : Fin 2048, (∑ k : Fin 2048, x0 (ix2 (y 0) k) * w1 (ix2 k j)) * w2 (ix2 j (y 1))) + b (ix2 (0 : Fin 1) (y 1)) := by
  obtain ⟨p, o, rfl⟩ : ∃ (p : Fin 256) (o : Fin 2048), y = ix2 p o := ⟨y 0, y 1, eq_ix2 y⟩
  exact pay_at x0 w1 w2 b p o

/-! ## The result array as one function of the four arrays the region reads -/

/-- Row `r`, column `o` of the result: row `r` of `X` times `W1`, that row times `W2`, plus the bias row at `o`. -/
def twoProducts (X : S16384x2048.Idx → EReal) (W1 W2 : S2048x2048.Idx → EReal) (B : S1x2048.Idx → EReal) :
    S16384x2048.Idx → EReal := fun i =>
  (∑ j : Fin 2048, (∑ k : Fin 2048, X (ix2 (i 0) k) * W1 (ix2 k j)) * W2 (ix2 j (i 1))) + B (ix2 (0 : Fin 1) (i 1))

theorem twoProducts_apply (X : S16384x2048.Idx → EReal) (W1 W2 : S2048x2048.Idx → EReal) (B : S1x2048.Idx → EReal)
    (i : S16384x2048.Idx) :
    twoProducts X W1 W2 B i
      = (∑ j : Fin 2048, (∑ k : Fin 2048, X (ix2 (i 0) k) * W1 (ix2 k j)) * W2 (ix2 j (i 1))) + B (ix2 (0 : Fin 1) (i 1)) := rfl

variable (m : (ℓ : Loc nD τ sig) → Buf (Elt Ideal) ℓ)

theorem hz : (![0, 0] : Fin 2 → Nat) = fun _ => 0 := funext fun a => by fin_cases a <;> rfl

/-- The block indices over the grid: point `t` takes row block `t` of the first array and of the result, and the whole
    of the two matrices and of the bias row. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row `p` of the first window's block at point `t` is row `256 t + p` of the array. -/
theorem xblk_at (c : Dev nD) (t : Fin cfg0.N) (x : S256x2048.Idx) (i : S16384x2048.Idx)
    (h0 : (i 0).val = 256 * t.val + (x 0).val) (h1 : (i 1).val = (x 1).val) :
    (iblk m c 0 t : Vec Ideal S256x2048 .f32) x = (V m c main_arg0 : S16384x2048.Idx → EReal) i := by
  obtain ⟨e0, e1, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 2) * 256 + 1 * (x 0).val = (i 0).val; rw [e0, h0]; omega
  | ⟨1, _⟩ => show win0_0.index t (1 : Fin 2) * 2048 + 1 * (x 1).val = (i 1).val; rw [e1, h1]; omega

/-- The second window's block at every point is the whole first matrix. -/
theorem w1blk_at (c : Dev nD) (t : Fin cfg0.N) (x : S2048x2048.Idx) :
    (iblk m c 1 t : Vec Ideal S2048x2048 .bf16) x = (V m c main_v1 : S2048x2048.Idx → EReal) x := by
  obtain ⟨-, -, e0, e1, -⟩ := idx_facts t
  unfold iblk
  rw [View.read_apply]
  show V m c main_v1 _ = V m c main_v1 _
  refine congrArg (V m c main_v1) (funext fun a => Fin.ext ?_)
  match a with
  | ⟨0, _⟩ => show win0_1.index t (0 : Fin 2) * 2048 + 1 * (x 0).val = (x 0).val; rw [e0]; omega
  | ⟨1, _⟩ => show win0_1.index t (1 : Fin 2) * 2048 + 1 * (x 1).val = (x 1).val; rw [e1]; omega

/-- The third window's block at every point is the whole second matrix. -/
theorem w2blk_at (c : Dev nD) (t : Fin cfg0.N) (x : S2048x2048.Idx) :
    (iblk m c 2 t : Vec Ideal S2048x2048 .bf16) x = (V m c main_v296 : S2048x2048.Idx → EReal) x := by
  obtain ⟨-, -, -, -, e0, e1, -⟩ := idx_facts t
  unfold iblk
  rw [View.read_apply]
  show V m c main_v296 _ = V m c main_v296 _
  refine congrArg (V m c main_v296) (funext fun a => Fin.ext ?_)
  match a with
  | ⟨0, _⟩ => show win0_2.index t (0 : Fin 2) * 2048 + 1 * (x 0).val = (x 0).val; rw [e0]; omega
  | ⟨1, _⟩ => show win0_2.index t (1 : Fin 2) * 2048 + 1 * (x 1).val = (x 1).val; rw [e1]; omega

/-- The fourth window's block at every point is the whole bias row. -/
theorem bblk_at (c : Dev nD) (t : Fin cfg0.N) (x : S1x2048.Idx) :
    (iblk m c 3 t : Vec Ideal S1x2048 .f32) x = (V m c main_v297 : S1x2048.Idx → EReal) x := by
  obtain ⟨-, -, -, -, -, -, e0, e1, -⟩ := idx_facts t
  unfold iblk
  rw [View.read_apply]
  show V m c main_v297 _ = V m c main_v297 _
  refine congrArg (V m c main_v297) (funext fun a => Fin.ext ?_)
  match a with
  | ⟨0, _⟩ => show win0_3.index t (0 : Fin 2) * 1 + 1 * (x 0).val = (x 0).val; rw [e0]; omega
  | ⟨1, _⟩ => show win0_3.index t (1 : Fin 2) * 2048 + 1 * (x 1).val = (x 1).val; rw [e1]; omega

/-- The four arrays the region reads, as it finds them, as functions on their literal index sets into the extended
    reals. -/
abbrev arrX (c : Dev nD) : S16384x2048.Idx → EReal := V m c main_arg0
abbrev arrW1 (c : Dev nD) : S2048x2048.Idx → EReal := V m c main_v1
abbrev arrW2 (c : Dev nD) : S2048x2048.Idx → EReal := V m c main_v296
abbrev arrB (c : Dev nD) : S1x2048.Idx → EReal := V m c main_v297

/-- The result the region leaves, of the arrays it finds. -/
abbrev result (c : Dev nD) : S16384x2048.Idx → EReal :=
  twoProducts (arrX m c) (arrW1 m c) (arrW2 m c) (arrB m c)

/-- What point `t` writes back is row block `t` of `result`. -/
theorem flushed_eq (c : Dev nD) (t : Fin cfg0.N) :
    (dats m 0 c).flushed 4 t = ((cfg0.win 4).blk t).view.read (Elt Ideal) (result m c) := by
  rw [Value.flushed4]
  unfold out0_4
  rw [View.canon_unit_zero hz]
  simp only [View.ld_unit_zero (S := S256x2048) hz, View.ld_unit_zero (S := S2048x2048) hz, View.ld_unit_zero (S := S1x2048) hz]
  obtain ⟨-, -, -, -, -, -, -, -, e0, e1⟩ := idx_facts t
  refine funext fun (y : S256x2048.Idx) => ?_
  have hy0 : (y 0).val < 256 := (y 0).isLt
  have hy1 : (y 1).val < 2048 := (y 1).isLt
  show k0_pay1 (iblk m c 0 t) (iblk m c 1 t) (iblk m c 2 t) (iblk m c 3 t) y = result m c (((cfg0.win 4).blk t).view.emb y)
  refine (pay_apply (iblk m c 0 t) (iblk m c 1 t) (iblk m c 2 t) (iblk m c 3 t) y).trans ?_
  unfold result
  rw [twoProducts_apply]
  have a0 : ((((cfg0.win 4).blk t).view.emb y) 0).val = 256 * t.val + (y 0).val := by
    show win0_4.index t (0 : Fin 2) * 256 + 1 * (y 0).val = _; rw [e0]; omega
  have a1 : ((((cfg0.win 4).blk t).view.emb y) 1).val = (y 1).val := by
    show win0_4.index t (1 : Fin 2) * 2048 + 1 * (y 1).val = _; rw [e1]; omega
  refine congrArg₂ (· + ·) (Finset.sum_congr rfl fun j _ => congrArg₂ (· * ·) (Finset.sum_congr rfl fun k _ => congrArg₂ (· * ·) ?_ ?_) ?_) ?_
  · exact xblk_at m c t (ix2 (y 0) k) (ix2 ((((cfg0.win 4).blk t).view.emb y) 0) k) a0 rfl
  · exact w1blk_at m c t (ix2 k j)
  · exact (w2blk_at m c t (ix2 j (y 1))).trans (congrArg (V m c main_v296 : S2048x2048.Idx → EReal)
      (funext fun a => Fin.ext (by match a with | ⟨0, _⟩ => rfl | ⟨1, _⟩ => exact a1.symm)))
  · exact (bblk_at m c t (ix2 (0 : Fin 1) (y 1))).trans (congrArg (V m c main_v297 : S1x2048.Idx → EReal)
      (funext fun a => Fin.ext (by match a with | ⟨0, _⟩ => rfl | ⟨1, _⟩ => exact a1.symm)))

/-- An index of the result array is in point `t`'s block iff each coordinate is in the block's range on its axis. -/
theorem mem_blk (t : Fin cfg0.N) (i : S16384x2048.Idx) :
    i ∈ ((cfg0.win 4).blk t).view.set ↔ ∀ a : Fin 2, win0_4.index t a * S256x2048.size a ≤ (i a).val
      ∧ (i a).val < win0_4.index t a * S256x2048.size a + S256x2048.size a := by
  show i ∈ ((View.whole main_v298).slice (win0_4.rect t)).set ↔ _
  rw [View.set_slice_whole, Rect.mem_set_unit]
  exact Iff.rfl

/-- Every row `r` of the result lies in the block of point `r / 256`, which writes back. -/
theorem cover (i : S16384x2048.Idx) :
    ∃ t : Fin cfg0.N, (cfg0.win 4).flush t = true ∧ i ∈ ((cfg0.win 4).blk t).view.set := by
  have hi0 : (i 0).val < 16384 := (i 0).isLt
  have hi1 : (i 1).val < 2048 := (i 1).isLt
  have hN : cfg0.N = 64 := N_0
  obtain ⟨t, ht⟩ : ∃ t : Fin cfg0.N, t.val = (i 0).val / 256 := ⟨⟨(i 0).val / 256, by rw [hN]; omega⟩, rfl⟩
  obtain ⟨-, -, -, -, -, -, -, -, e0, e1⟩ := idx_facts t
  refine ⟨t, flush0_4 t, ?_⟩
  rw [mem_blk]
  intro a
  match a with
  | ⟨0, _⟩ =>
    show win0_4.index t (0 : Fin 2) * 256 ≤ (i 0).val ∧ (i 0).val < win0_4.index t (0 : Fin 2) * 256 + 256
    rw [e0, ht]; omega
  | ⟨1, _⟩ =>
    show win0_4.index t (1 : Fin 2) * 2048 ≤ (i 1).val ∧ (i 1).val < win0_4.index t (1 : Fin 2) * 2048 + 2048
    rw [e1]; omega

/-- The result array after the run is `result`: the 64 row blocks tile it, and each is the block of `result`. -/
theorem final_array (c : Dev nD) : (dats m 0 c).arrAt 4 cfg0.N = result m c :=
  (dats m 0 c).arrAt_eq_of_cover 4 (result m c) (fun t _ => flushed_eq m c t) cover

/-- The result array after the run, entry by entry: row `r` of the first array times the first matrix, times the
    second matrix, plus the bias row. -/
theorem final (c : Dev nD) (r : Fin 16384) (o : Fin 2048) :
    ((dats m 0 c).arrAt 4 cfg0.N : S16384x2048.Idx → EReal) (ix2 r o)
      = (∑ j : Fin 2048, (∑ k : Fin 2048, arrX m c (ix2 r k) * arrW1 m c (ix2 k j)) * arrW2 m c (ix2 j o))
        + arrB m c (ix2 (0 : Fin 1) o) :=
  congrFun (final_array m c) (ix2 r o)

/-- info: 'Cert.KernelIdeal.KerValue.final' depends on axioms: [propext, Classical.choice, Quot.sound] -/
#guard_msgs in #print axioms final

end Cert.KernelIdeal.KerValue

end
-- ==== Proof.KerRead.lean ====
/-
  The kernel's result over the reals.

  The pallas_call leaves, at (r, o),  Σ_j (Σ_k X[r, k] · W1[k, j]) · W2[j, o] + B[0, o]  of the arrays it finds
  (KerValue.lean).  Those arrays are  X = x,  W1 = w_inᵀ,  W2 = butterfly(I) · w_outᵀ,  B = b_out as a row (KerHost.lean), and
  butterfly(I) is the real matrix bfly 11 (I) (KerRows.lean); so with real inputs the result at (r, o) is the real number
  Σ_j (Σ_k x[r, k] · w_in[j, k]) · (Σ_i bfly 11 (I)[j, i] · w_out[o, i]) + b_out[o].
-/
import proofs.«426409_j59322088292569_3_alg».proof.Proof.KerRows
import proofs.«426409_j59322088292569_3_alg».proof.Proof.KerValue
import proofs.«426409_j59322088292569_3_alg».proof.Proof.LibHostDot
import Idealize.ShloMosaic.Lib.ValueLayout

noncomputable section

namespace Cert.KernelIdeal.KerRead

open Cert.KernelIdeal Cert.KernelIdeal.Gen Cert.KernelIdeal.KerHost Cert.KernelIdeal.KerValue Cert.Butterfly Cert.Dots
open Idealize.ShloMosaic Idealize.ShloMosaic.ValueIdx Idealize.ShloMosaic.TcCoe

section
variable (m : (ℓ : Loc nD τ sig) → Buf (Elt Ideal) ℓ) (c : Dev nD)
variable (x : Fin 16384 → Fin 2048 → ℝ) (w1 w2 : Fin 2048 → Fin 2048 → ℝ) (bo : Fin 2048 → ℝ) (a b : Fin 11 → Fin 1024 → ℝ)
variable (hx : ∀ r k, (m ((c.tc : Thread nD τ).loc main_arg0) : FVec Ideal (Mat 16384) .f32) (ix2 r k) = ((x r k : ℝ) : EReal))
variable (hw1 : ∀ j k, (m ((c.tc : Thread nD τ).loc main_arg1) : FVec Ideal (Mat 2048) .f32) (ix2 j k) = ((w1 j k : ℝ) : EReal))
variable (hw2 : ∀ o i, (m ((c.tc : Thread nD τ).loc main_arg2) : FVec Ideal (Mat 2048) .f32) (ix2 o i) = ((w2 o i : ℝ) : EReal))
variable (hbo : ∀ o, (m ((c.tc : Thread nD τ).loc main_arg3) : FVec Ideal S2048 .f32) (ix1 o) = ((bo o : ℝ) : EReal))
variable (ha : ∀ i j, (m ((c.tc : Thread nD τ).loc main_arg4) : FVec Ideal Tab .f32) (ix2 i j) = ((a i j : ℝ) : EReal))
variable (hb : ∀ i j, (m ((c.tc : Thread nD τ).loc main_arg5) : FVec Ideal Tab .f32) (ix2 i j) = ((b i j : ℝ) : EReal))

include hx in
/-- The first window's array is x. -/
theorem arrX_apply (r : Fin 16384) (k : Fin 2048) : arrX m c (ix2 r k) = ((x r k : ℝ) : EReal) := by
  show (V m c main_arg0 : FVec Ideal (Mat 16384) .f32) (ix2 r k) = _
  rw [V_main_arg0 m c, hx]

include hw1 in
/-- The second window's array is w_inᵀ. -/
theorem arrW1_apply (k j : Fin 2048) : arrW1 m c (ix2 k j) = ((w1 j k : ℝ) : EReal) := by
  show (V m c main_v1 : FVec Ideal (Mat 2048) .bf16) (ix2 k j) = _
  rw [V_v1 m c, truncf_apply, transpose_ix2_apply, hw1]

include hw2 ha hb in
/-- The third window's array is butterfly(I) · w_outᵀ. -/
theorem arrW2_apply (j o : Fin 2048) : arrW2 m c (ix2 j o) = ((∑ i, bfly a b 11 idM j i * w2 o i : ℝ) : EReal) := by
  show (V m c main_v296 : FVec Ideal (Mat 2048) .bf16) (ix2 j o) = _
  rw [V_v296 m c, truncf_apply]
  show Host.dotGeneral (F := Ideal) (DotDims.plain 2048 2048 2048) none
      (M11 (m ((c.tc : Thread nD τ).loc main_arg4) : FVec Ideal Tab .f32) (m ((c.tc : Thread nD τ).loc main_arg5) : FVec Ideal Tab .f32))
      (transpose S2048x2048 [1, 0] (m ((c.tc : Thread nD τ).loc main_arg2) : FVec Ideal (Mat 2048) .f32) transposes_S2048x2048_S2048x2048_1_0)
      (ix2 j o) = _
  rw [hostDot_apply, ← sum_coe_mul]
  refine Finset.sum_congr rfl fun i _ => ?_
  rw [M11_apply _ _ a b ha hb, transpose_ix2_apply, hw2]

include hbo in
/-- The fourth window's array is b_out as a row. -/
theorem arrB_apply (o : Fin 2048) : arrB m c (ix2 (0 : Fin 1) o) = ((bo o : ℝ) : EReal) := by
  show (V m c main_v297 : FVec Ideal S1x2048 .f32) (ix2 (0 : Fin 1) o) = _
  rw [V_v297 m c, shapeCast_a_1a_apply, hbo]

include hx hw1 hw2 hbo ha hb in
/-- The kernel's result at (r, o). -/
theorem ker_apply (r : Fin 16384) (o : Fin 2048) :
    ((dats m 0 c).arrAt 4 cfg0.N : FVec Ideal (Mat 16384) .f32) (ix2 r o)
      = (((∑ j, (∑ k, x r k * w1 j k) * ∑ i, bfly a b 11 idM j i * w2 o i) + bo o : ℝ) : EReal) := by
  refine (final m c r o).trans ?_
  rw [EReal.coe_add, ← sum_coe_mul]
  refine congrArg₂ (· + ·) (Finset.sum_congr rfl fun j _ => congrArg₂ (· * ·) ?_ ?_) ?_
  · rw [← sum_coe_mul]
    exact Finset.sum_congr rfl fun k _ => by rw [arrX_apply m c x hx, arrW1_apply m c w1 hw1]
  · exact arrW2_apply m c w2 a b hw2 ha hb j o
  · exact arrB_apply m c bo hbo o

end

end Cert.KernelIdeal.KerRead

end
-- ==== Proof.lean ====
/-
  The claim: the kernel computes  (x · w_inᵀ) · (butterfly(I) · w_outᵀ) + b_out,  the reference
  butterfly(x · w_inᵀ) · w_outᵀ + b_out.  The butterfly is eleven stages, each a fixed linear combination of two entries
  of the same row (Stage.lean reads one stage of either program at an index; Algebra.lean is the stage over the reals),
  so butterfly(h) = h · butterfly(I) row by row, and the two results agree by associativity of the matrix product.
  The law is used over the reals: the precondition makes every input entry a real number (Finite.lean), every
  intermediate entry is then a real (StageCoe.lean, Dots.lean), and the extended reals enter only as the carrier.
  The three frames are the generated ones (the reference's is its generated run with the result dropped); the
  idealization rewrote nothing, so `preserves` is trivial.
-/
import proofs.«426409_j59322088292569_3_alg».proof.Defs
import proofs.«426409_j59322088292569_3_alg».proof.Proof.Gen.Kernel.Frame
import proofs.«426409_j59322088292569_3_alg».proof.Proof.Gen.KernelIdeal.Value
import proofs.«426409_j59322088292569_3_alg».proof.Proof.Gen.ReferenceIdeal.Run
import proofs.«426409_j59322088292569_3_alg».proof.Proof.Gen.Pre_finite_inputs
import proofs.«426409_j59322088292569_3_alg».proof.Proof.Finite
import proofs.«426409_j59322088292569_3_alg».proof.Proof.RefValue
import proofs.«426409_j59322088292569_3_alg».proof.Proof.KerRead
import Idealize.ShloMosaic.Adequacy
import Idealize.ShloMosaic.Init

noncomputable section

namespace Cert.Proof

open Idealize.ShloMosaic Idealize.SL.Sem Idealize.ShloMosaic.ValueIdx Cert.Butterfly

theorem frame_kernel [Cert.Kernel.Facts] [Cert.Pre_finite_inputs.Facts] : Cert.frame_Kernel := fun m ρ _ => Cert.Kernel.Gen.frame m ρ

theorem frame_kernelIdeal [Cert.KernelIdeal.Facts] [Cert.Pre_finite_inputs.Facts] : Cert.frame_KernelIdeal :=
  fun m ρ _ => Cert.KernelIdeal.Gen.frame m ρ

theorem frame_referenceIdeal [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

set_option maxRecDepth 16384 in
/-- Both programs end, from memories that agree on the arguments, with the same result array: at (r, o) the real number
    Σ_i butterfly(h)[r, i] · w_out[o, i] + b_out[o] = Σ_j h[r, j] · (Σ_i butterfly(I)[j, i] · w_out[o, i]) + b_out[o]. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => (Cert.KernelIdeal.Gen.dats m 0 c).arrAt 4 Cert.KernelIdeal.cfg0.N,
    Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  refine ((Cert.ReferenceIdeal.Value.val5_main_v292 (StableHlo.launchContents m' c)).symm.trans
    (Cert.ReferenceIdeal.RefChain.val5_result _)).trans ?_
  obtain ⟨x, w1, w2, bo, pa, pb, h0, h1, h2, h3, h4, h5⟩ := Cert.Finite.real_args m hpre c
  obtain ⟨g0, g1, g2, g3, g4, g5⟩ := hagree c
  funext idx
  obtain ⟨r, o, rfl⟩ : ∃ (r : Fin 16384) (o : Fin 2048), idx = ix2 r o := ⟨idx 0, idx 1, eq_ix2 idx⟩
  refine (Cert.ReferenceIdeal.RefValue.result_apply (StableHlo.launchContents m' c)
    (fun r k => x (ix2 r k)) (fun j k => w1 (ix2 j k)) (fun o i => w2 (ix2 o i)) (fun o => bo (ix1 o))
    (fun i j => pa (ix2 i j)) (fun i j => pb (ix2 i j))
    (fun r k => (congrFun (g0.trans h0) (ix2 r k))) (fun j k => (congrFun (g1.trans h1) (ix2 j k)))
    (fun o i => (congrFun (g2.trans h2) (ix2 o i))) (fun o => (congrFun (g3.trans h3) (ix1 o)))
    (fun i j => (congrFun (g4.trans h4) (ix2 i j))) (fun i j => (congrFun (g5.trans h5) (ix2 i j))) r o).trans ?_
  refine Eq.trans ?_ (Cert.KernelIdeal.KerRead.ker_apply m c
    (fun r k => x (ix2 r k)) (fun j k => w1 (ix2 j k)) (fun o i => w2 (ix2 o i)) (fun o => bo (ix1 o))
    (fun i j => pa (ix2 i j)) (fun i j => pb (ix2 i j))
    (fun r k => congrFun h0 (ix2 r k)) (fun j k => congrFun h1 (ix2 j k)) (fun o i => congrFun h2 (ix2 o i))
    (fun o => congrFun h3 (ix1 o)) (fun i j => congrFun h4 (ix2 i j)) (fun i j => congrFun h5 (ix2 i j)) r o).symm
  refine congrArg (fun t : ℝ => ((t + bo (ix1 o) : ℝ) : EReal)) ?_
  exact bfly_assoc _ _ 11 (Cert.ReferenceIdeal.RefValue.H (fun r k => x (ix2 r k)) (fun j k => w1 (ix2 j k))) (fun i => w2 (ix2 o i)) r

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
